-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000x32 : Shape := ⟨2, ![800000, 32]⟩
abbrev S1x8 : Shape := ⟨2, ![1, 8]⟩
abbrev S50000 : Shape := ⟨1, ![50000]⟩
abbrev S96x128 : Shape := ⟨2, ![96, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩
abbrev S1x800000 : Shape := ⟨2, ![1, 800000]⟩
abbrev S800000 : Shape := ⟨1, ![800000]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x32 : S_.BroadcastsInDim S800000x32 (![] : Fin 0 → Fin S800000x32.rank)
  reducesTo_S800000x32_S_d0_1 : S800000x32.ReducesTo [0, 1] S_
  bcast_S_S1x8 : S_.BroadcastsInDim S1x8 (![] : Fin 0 → Fin S1x8.rank)
  reducesTo_S1x8_S_d0_1 : S1x8.ReducesTo [0, 1] S_
  bcast_S_S96x128 : S_.BroadcastsInDim S96x128 (![] : Fin 0 → Fin S96x128.rank)
  reducesTo_S96x128_S_d0_1 : S96x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part6 {F : FTy → Type} [FloatOps F] (main_v93 : IVec S_ 1) (main_v102 : IVec S800000 1) (main_c_38 : IVec S_ 1) : IVec S_ 1 :=
  let main_v103 : IVec S_ 1 := (fun x v => Host.reduce IntOp.andi x v reducesTo_S800000_S_d0 h_S_) main_v102 main_c_38
  let main_v104 : IVec S_ 1 := andi main_v93 main_v103
  main_v104

def fn_part5 {F : FTy → Type} [FloatOps F] (main_arg1 : IVec S2x800000 32) (main_arg20 : FVec F S64 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64 .f32 := Host.absf main_arg20
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : IVec S1x800000 32 := (extractStridedSlice S1x800000 ![0, 0] · slices_S2x800000_S1x800000_0_0) main_arg1
  let main_v95 : IVec S800000 32 := shapeCast S800000 main_v94 shapeCasts_S1x800000_S800000
  let main_c_36 : IVec S_ 32 := constantI S_ 32 4294917296#32
  let main_v96 : IVec S800000 32 := broadcastInDim S800000 ![] bcast_S_S800000 main_c_36
  let main_v97 : IVec S800000 1 := cmpi .sge main_v95 main_v96
  let main_v98 : IVec S1x800000 32 := (extractStridedSlice S1x800000 ![0, 0] · slices_S2x800000_S1x800000_0_0) main_arg1
  let main_v99 : IVec S800000 32 := shapeCast S800000 main_v98 shapeCasts_S1x800000_S800000
  let main_c_37 : IVec S_ 32 := constantI S_ 32 50000#32
  let main_v100 : IVec S800000 32 := broadcastInDim S800000 ![] bcast_S_S800000 main_c_37
  let main_v101 : IVec S800000 1 := cmpi .slt main_v99 main_v100
  let main_v102 : IVec S800000 1 := andi main_v97 main_v101
  let main_c_38 : IVec S_ 1 := constantI S_ 1 1#1
  fn_part6 (F := F) main_v93 main_v102 main_c_38

def fn_part4 {F : FTy → Type} [FloatOps F] (main_arg1 : IVec S2x800000 32) (main_arg16 : FVec F S128 .f32) (main_arg17 : FVec F S128x64 .f32) (main_arg18 : FVec F S64 .f32) (main_arg19 : FVec F S64 .f32) (main_arg20 : FVec F S64 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x64 .f32 := Host.absf main_arg17
  let main_cst_28 : FVec F S_ .f32 := constant S_ .f32 0x7F800000#32
  let main_v75 : FVec F S128x64 .f32 := broadcastInDim S128x64 ![] bcast_S_S128x64 main_cst_28
  let main_v76 : IVec S128x64 1 := cmpf .olt main_v74 main_v75
  let main_c_29 : IVec S_ 1 := constantI S_ 1 1#1
  let main_v77 : IVec S_ 1 := (fun x v => Host.reduce IntOp.andi x v reducesTo_S128x64_S_d0_1 h_S_) main_v76 main_c_29
  let main_v78 : IVec S_ 1 := andi main_v73 main_v77
  let main_v79 : FVec F S64 .f32 := Host.absf main_arg18
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64 .f32 := Host.absf main_arg19
  let main_cst_32 : FVec F S_ .f32 := constant S_ .f32 0x7F800000#32
  fn_part5 (F := F) main_arg1 main_arg20 main_v83 main_v84 main_cst_32

def fn_part3 {F : FTy → Type} [FloatOps F] (main_arg1 : IVec S2x800000 32) (main_arg13 : FVec F S128x128 .f32) (main_arg14 : FVec F S128 .f32) (main_arg15 : FVec F S128x128 .f32) (main_arg16 : FVec F S128 .f32) (main_arg17 : FVec F S128x64 .f32) (main_arg18 : FVec F S64 .f32) (main_arg19 : FVec F S64 .f32) (main_arg20 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S128x128 .f32 := Host.absf main_arg13
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg15
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg1 main_arg16 main_arg17 main_arg18 main_arg19 main_arg20 main_v63 main_v67

def fn_part2 {F : FTy → Type} [FloatOps F] (main_arg1 : IVec S2x800000 32) (main_arg9 : FVec F S128x64 .f32) (main_arg10 : FVec F S64 .f32) (main_arg11 : FVec F S64 .f32) (main_arg12 : FVec F S64 .f32) (main_arg13 : FVec F S128x128 .f32) (main_arg14 : FVec F S128 .f32) (main_arg15 : FVec F S128x128 .f32) (main_arg16 : FVec F S128 .f32) (main_arg17 : FVec F S128x64 .f32) (main_arg18 : FVec F S64 .f32) (main_arg19 : FVec F S64 .f32) (main_arg20 : FVec F S64 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg1 main_arg13 main_arg14 main_arg15 main_arg16 main_arg17 main_arg18 main_arg19 main_arg20 main_v48 main_v49 main_v50

def fn_part1 {F : FTy → Type} [FloatOps F] (main_arg1 : IVec S2x800000 32) (main_arg6 : FVec F S128 .f32) (main_arg7 : FVec F S128x128 .f32) (main_arg8 : FVec F S128 .f32) (main_arg9 : FVec F S128x64 .f32) (main_arg10 : FVec F S64 .f32) (main_arg11 : FVec F S64 .f32) (main_arg12 : FVec F S64 .f32) (main_arg13 : FVec F S128x128 .f32) (main_arg14 : FVec F S128 .f32) (main_arg15 : FVec F S128x128 .f32) (main_arg16 : FVec F S128 .f32) (main_arg17 : FVec F S128x64 .f32) (main_arg18 : FVec F S64 .f32) (main_arg19 : FVec F S64 .f32) (main_arg20 : FVec F S64 .f32) (main_v13 : IVec S_ 1) (main_v16 : IVec S96x128 1) : IVec S_ 1 :=
  let main_c_5 : IVec S_ 1 := constantI S_ 1 1#1
  let main_v17 : IVec S_ 1 := (fun x v => Host.reduce IntOp.andi x v reducesTo_S96x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg9 main_arg10 main_arg11 main_arg12 main_arg13 main_arg14 main_arg15 main_arg16 main_arg17 main_arg18 main_arg19 main_arg20 main_v33

def fn {F : FTy → Type} [FloatOps F] (main_arg0 : FVec F S50000x64 .f32) (main_arg1 : IVec S2x800000 32) (main_arg2 : FVec F S800000x32 .f32) (main_arg3 : FVec F S1x8 .f32) (main_arg4 : IVec S50000 32) (main_arg5 : FVec F S96x128 .f32) (main_arg6 : FVec F S128 .f32) (main_arg7 : FVec F S128x128 .f32) (main_arg8 : FVec F S128 .f32) (main_arg9 : FVec F S128x64 .f32) (main_arg10 : FVec F S64 .f32) (main_arg11 : FVec F S64 .f32) (main_arg12 : FVec F S64 .f32) (main_arg13 : FVec F S128x128 .f32) (main_arg14 : FVec F S128 .f32) (main_arg15 : FVec F S128x128 .f32) (main_arg16 : FVec F S128 .f32) (main_arg17 : FVec F S128x64 .f32) (main_arg18 : FVec F S64 .f32) (main_arg19 : FVec F S64 .f32) (main_arg20 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x32 .f32 := Host.absf main_arg2
  let main_cst_0 : FVec F S_ .f32 := constant S_ .f32 0x7F800000#32
  let main_v5 : FVec F S800000x32 .f32 := broadcastInDim S800000x32 ![] bcast_S_S800000x32 main_cst_0
  let main_v6 : IVec S800000x32 1 := cmpf .olt main_v4 main_v5
  let main_c_1 : IVec S_ 1 := constantI S_ 1 1#1
  let main_v7 : IVec S_ 1 := (fun x v => Host.reduce IntOp.andi x v reducesTo_S800000x32_S_d0_1 h_S_) main_v6 main_c_1
  let main_v8 : IVec S_ 1 := andi main_v3 main_v7
  let main_v9 : FVec F S1x8 .f32 := Host.absf main_arg3
  let main_cst_2 : FVec F S_ .f32 := constant S_ .f32 0x7F800000#32
  let main_v10 : FVec F S1x8 .f32 := broadcastInDim S1x8 ![] bcast_S_S1x8 main_cst_2
  let main_v11 : IVec S1x8 1 := cmpf .olt main_v9 main_v10
  let main_c_3 : IVec S_ 1 := constantI S_ 1 1#1
  let main_v12 : IVec S_ 1 := (fun x v => Host.reduce IntOp.andi x v reducesTo_S1x8_S_d0_1 h_S_) main_v11 main_c_3
  let main_v13 : IVec S_ 1 := andi main_v8 main_v12
  let main_v14 : FVec F S96x128 .f32 := Host.absf main_arg5
  let main_cst_4 : FVec F S_ .f32 := constant S_ .f32 0x7F800000#32
  let main_v15 : FVec F S96x128 .f32 := broadcastInDim S96x128 ![] bcast_S_S96x128 main_cst_4
  let main_v16 : IVec S96x128 1 := cmpf .olt main_v14 main_v15
  fn_part1 (F := F) main_arg1 main_arg6 main_arg7 main_arg8 main_arg9 main_arg10 main_arg11 main_arg12 main_arg13 main_arg14 main_arg15 main_arg16 main_arg17 main_arg18 main_arg19 main_arg20 main_v13 main_v16
-- ==== Kernel.lean ====
abbrev S50000x64 : Shape := ⟨2, ![50000, 64]⟩
abbrev S2x800000 : Shape := ⟨2, ![2, 800000]⟩
abbrev S800000x32 : Shape := ⟨2, ![800000, 32]⟩
abbrev S1x8 : Shape := ⟨2, ![1, 8]⟩
abbrev S50000 : Shape := ⟨1, ![50000]⟩
abbrev S96x128 : Shape := ⟨2, ![96, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x64 : Shape := ⟨2, ![800000, 64]⟩
abbrev S64x128 : Shape := ⟨2, ![64, 128]⟩
abbrev S32x128 : Shape := ⟨2, ![32, 128]⟩
abbrev S1x128 : Shape := ⟨2, ![1, 128]⟩
abbrev S1x64 : Shape := ⟨2, ![1, 64]⟩
abbrev S16000x64 : Shape := ⟨2, ![16000, 64]⟩
abbrev S16000x32 : Shape := ⟨2, ![16000, 32]⟩
abbrev S16000x128 : Shape := ⟨2, ![16000, 128]⟩
abbrev S16000 : Shape := ⟨1, ![16000]⟩
abbrev S16000x1 : Shape := ⟨2, ![16000, 1]⟩
abbrev S50000x1 : Shape := ⟨2, ![50000, 1]⟩
abbrev S10000x64 : Shape := ⟨2, ![10000, 64]⟩
abbrev S10000x1 : Shape := ⟨2, ![10000, 1]⟩
abbrev S10000x128 : Shape := ⟨2, ![10000, 128]⟩
abbrev S10000 : Shape := ⟨1, ![10000]⟩

abbrev nBuf : Space → Nat
  | .hbm => 83
  | .vmem => 32
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x32, .f32⟩
  | .hbm, ⟨3, _⟩ => ⟨S1x8, .f32⟩
  | .hbm, ⟨4, _⟩ => ⟨S50000, .i32⟩
  | .hbm, ⟨5, _⟩ => ⟨S96x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S128x128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S128x64, .f32⟩
  | .hbm, ⟨18, _⟩ => ⟨S64, .f32⟩
  | .hbm, ⟨19, _⟩ => ⟨S64, .f32⟩
  | .hbm, ⟨20, _⟩ => ⟨S64, .f32⟩
  | .hbm, ⟨21, _⟩ => ⟨S1x800000, .i32⟩
  | .hbm, ⟨22, _⟩ => ⟨S800000, .i32⟩
  | .hbm, ⟨23, _⟩ => ⟨S1x800000, .i32⟩
  | .hbm, ⟨24, _⟩ => ⟨S800000, .i32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S1, .i32⟩
  | .hbm, ⟨34, _⟩ => ⟨S_, .i32⟩
  | .hbm, ⟨35, _⟩ => ⟨S800000x1, .i32⟩
  | .hbm, ⟨36, _⟩ => ⟨S800000x1, .i1⟩
  | .hbm, ⟨37, _⟩ => ⟨S1x1, .i32⟩
  | .hbm, ⟨38, _⟩ => ⟨S800000x1, .i32⟩
  | .hbm, ⟨39, _⟩ => ⟨S800000x1, .i1⟩
  | .hbm, ⟨40, _⟩ => ⟨S800000x1, .i1⟩
  | .hbm, ⟨41, _⟩ => ⟨S_, .i1⟩
  | .hbm, ⟨42, _⟩ => ⟨S800000, .i1⟩
  | .hbm, ⟨43, _⟩ => ⟨S800000x64, .f32⟩
  | .hbm, ⟨44, _⟩ => ⟨S800000x64, .i1⟩
  | .hbm, ⟨45, _⟩ => ⟨S_, .f32⟩
  | .hbm, ⟨46, _⟩ => ⟨S800000x64, .f32⟩
  | .hbm, ⟨47, _⟩ => ⟨S800000x64, .f32⟩
  | .hbm, ⟨48, _⟩ => ⟨S64x128, .f32⟩
  | .hbm, ⟨49, _⟩ => ⟨S64x128, .bf16⟩
  | .hbm, ⟨50, _⟩ => ⟨S32x128, .f32⟩
  | .hbm, ⟨51, _⟩ => ⟨S32x128, .bf16⟩
  | .hbm, ⟨52, _⟩ => ⟨S128x128, .bf16⟩
  | .hbm, ⟨53, _⟩ => ⟨S128x64, .bf16⟩
  | .hbm, ⟨54, _⟩ => ⟨S1x128, .f32⟩
  | .hbm, ⟨55, _⟩ => ⟨S1x128, .f32⟩
  | .hbm, ⟨56, _⟩ => ⟨S1x64, .f32⟩
  | .hbm, ⟨57, _⟩ => ⟨S1x64, .f32⟩
  | .hbm, ⟨58, _⟩ => ⟨S1x64, .f32⟩
  | .hbm, ⟨59, _⟩ => ⟨S800000x64, .f32⟩
  | .hbm, ⟨60, _⟩ => ⟨S_, .f32⟩
  | .hbm, ⟨61, _⟩ => ⟨S50000x64, .f32⟩
  | .hbm, ⟨62, _⟩ => ⟨S800000x1, .i32⟩
  | .hbm, ⟨63, _⟩ => ⟨S50000x64, .f32⟩
  | .hbm, ⟨64, _⟩ => ⟨S_, .f32⟩
  | .hbm, ⟨65, _⟩ => ⟨S800000, .f32⟩
  | .hbm, ⟨66, _⟩ => ⟨S_, .f32⟩
  | .hbm, ⟨67, _⟩ => ⟨S50000, .f32⟩
  | .hbm, ⟨68, _⟩ => ⟨S800000x1, .i32⟩
  | .hbm, ⟨69, _⟩ => ⟨S50000, .f32⟩
  | .hbm, ⟨70, _⟩ => ⟨S50000x1, .f32⟩
  | .hbm, ⟨71, _⟩ => ⟨S64x128, .f32⟩
  | .hbm, ⟨72, _⟩ => ⟨S64x128, .bf16⟩
  | .hbm, ⟨73, _⟩ => ⟨S64x128, .f32⟩
  | .hbm, ⟨74, _⟩ => ⟨S64x128, .bf16⟩
  | .hbm, ⟨75, _⟩ => ⟨S128x128, .bf16⟩
  | .hbm, ⟨76, _⟩ => ⟨S128x64, .bf16⟩
  | .hbm, ⟨77, _⟩ => ⟨S1x128, .f32⟩
  | .hbm, ⟨78, _⟩ => ⟨S1x128, .f32⟩
  | .hbm, ⟨79, _⟩ => ⟨S1x64, .f32⟩
  | .hbm, ⟨80, _⟩ => ⟨S1x64, .f32⟩
  | .hbm, ⟨81, _⟩ => ⟨S1x64, .f32⟩
  | .hbm, ⟨82, _⟩ => ⟨S50000x64, .f32⟩
  | .local _ .vmem, ⟨0, _⟩ => ⟨S16000x64, .f32⟩
  | .local _ .vmem, ⟨1, _⟩ => ⟨S16000x64, .f32⟩
  | .local _ .vmem, ⟨2, _⟩ => ⟨S16000x32, .f32⟩
  | .local _ .vmem, ⟨3, _⟩ => ⟨S16000x32, .f32⟩
  | .local _ .vmem, ⟨4, _⟩ => ⟨S64x128, .bf16⟩
  | .local _ .vmem, ⟨5, _⟩ => ⟨S32x128, .bf16⟩
  | .local _ .vmem, ⟨6, _⟩ => ⟨S1x128, .f32⟩
  | .local _ .vmem, ⟨7, _⟩ => ⟨S128x128, .bf16⟩
  | .local _ .vmem, ⟨8, _⟩ => ⟨S1x128, .f32⟩
  | .local _ .vmem, ⟨9, _⟩ => ⟨S128x64, .bf16⟩
  | .local _ .vmem, ⟨10, _⟩ => ⟨S1x64, .f32⟩
  | .local _ .vmem, ⟨11, _⟩ => ⟨S1x64, .f32⟩
  | .local _ .vmem, ⟨12, _⟩ => ⟨S1x64, .f32⟩
  | .local _ .vmem, ⟨13, _⟩ => ⟨S16000x64, .f32⟩
  | .local _ .vmem, ⟨14, _⟩ => ⟨S16000x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x1, .f32⟩
  | .local _ .vmem, ⟨20, _⟩ => ⟨S10000x1, .f32⟩
  | .local _ .vmem, ⟨21, _⟩ => ⟨S64x128, .bf16⟩
  | .local _ .vmem, ⟨22, _⟩ => ⟨S64x128, .bf16⟩
  | .local _ .vmem, ⟨23, _⟩ => ⟨S1x128, .f32⟩
  | .local _ .vmem, ⟨24, _⟩ => ⟨S128x128, .bf16⟩
  | .local _ .vmem, ⟨25, _⟩ => ⟨S1x128, .f32⟩
  | .local _ .vmem, ⟨26, _⟩ => ⟨S128x64, .bf16⟩
  | .local _ .vmem, ⟨27, _⟩ => ⟨S1x64, .f32⟩
  | .local _ .vmem, ⟨28, _⟩ => ⟨S1x64, .f32⟩
  | .local _ .vmem, ⟨29, _⟩ => ⟨S1x64, .f32⟩
  | .local _ .vmem, ⟨30, _⟩ => ⟨S10000x64, .f32⟩
  | .local _ .vmem, ⟨31, _⟩ => ⟨S10000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_call0_c : Ref sig .tc := ⟨.hbm, 25, rfl⟩
abbrev main_call0_v0 : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_c_1 : Ref sig .tc := ⟨.hbm, 33, rfl⟩
abbrev main_call0_c_2 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_3 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_call0_cst : Ref sig .tc := ⟨.hbm, 45, rfl⟩
abbrev main_call0_v15 : Ref sig .tc := ⟨.hbm, 46, rfl⟩
abbrev main_v4 : Ref sig .tc := ⟨.hbm, 47, rfl⟩
abbrev main_v5 : Ref sig .tc := ⟨.hbm, 48, rfl⟩
abbrev main_v6 : Ref sig .tc := ⟨.hbm, 49, rfl⟩
abbrev main_v7 : Ref sig .tc := ⟨.hbm, 50, rfl⟩
abbrev main_v8 : Ref sig .tc := ⟨.hbm, 51, rfl⟩
abbrev main_v9 : Ref sig .tc := ⟨.hbm, 52, rfl⟩
abbrev main_v10 : Ref sig .tc := ⟨.hbm, 53, rfl⟩
abbrev main_v11 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_cst : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_cst_0 : Ref sig .tc := ⟨.hbm, 64, rfl⟩
abbrev main_v20 : Ref sig .tc := ⟨.hbm, 65, rfl⟩
abbrev main_cst_1 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg9_0 : Ref sig .tc := ⟨.vmem, 27, rfl⟩
abbrev cc1_stg10_0 : Ref sig .tc := ⟨.vmem, 28, rfl⟩
abbrev cc1_stg11_0 : Ref sig .tc := ⟨.vmem, 29, rfl⟩
abbrev cc1_stg12_0 : Ref sig .tc := ⟨.vmem, 30, rfl⟩
abbrev cc1_stg12_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem8_0 : DmaSem sig := 26
abbrev cc1_sem9_0 : DmaSem sig := 27
abbrev cc1_sem10_0 : DmaSem sig := 28
abbrev cc1_sem11_0 : DmaSem sig := 29
abbrev cc1_sem12_0 : DmaSem sig := 30
abbrev cc1_sem12_1 : DmaSem sig := 31

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S16000x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x64 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x64 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S10000x64 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  slices_S96x128_S64x128_0_0 : S96x128.Slices ![0, 0] S64x128
  bitsLt_bf16_f32 : FTy.bits .bf16 < FTy.bits .f32
  slices_S96x128_S32x128_64_0 : S96x128.Slices ![64, 0] S32x128
  shapeCasts_S128_S1x128 : S128.ShapeCasts S1x128
  shapeCasts_S64_S1x64 : S64.ShapeCasts S1x64
  inb_S16000x64_S16000x64_0_0 : ∀ a, (![0, 0] : Fin 2 → Nat) a + S16000x64.size a ≤ S16000x64.size a
  h_S16000x64 : 0 < S16000x64.numel
  shapeCasts_S16000x64_S16000x64 : S16000x64.ShapeCasts S16000x64
  inb_S16000x32_S16000x32_0_0 : ∀ a, (![0, 0] : Fin 2 → Nat) a + S16000x32.size a ≤ S16000x32.size a
  h_S16000x32 : 0 < S16000x32.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S16000x128 : S1x128.Broadcasts S16000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S16000x64 : S1x64.Broadcasts S16000x64
  reduces_S16000x64_S16000 : S16000x64.Reduces [1] S16000
  shapeCasts_S16000_S16000x1 : S16000.ShapeCasts S16000x1
  broadcasts_S16000x1_S16000x64 : S16000x1.Broadcasts S16000x64
  bcast_S_S50000x64 : S_.BroadcastsInDim S50000x64 (![] : Fin 0 → Fin S50000x64.rank)
  bcast_S_S50000 : S_.BroadcastsInDim S50000 (![] : Fin 0 → Fin S50000.rank)
  shapeCasts_S50000_S50000x1 : S50000.ShapeCasts S50000x1
  slices_S128x128_S64x128_0_0 : S128x128.Slices ![0, 0] S64x128
  slices_S128x128_S64x128_64_0 : S128x128.Slices ![64, 0] S64x128
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  broadcasts_S1x128_S10000x128 : S1x128.Broadcasts S10000x128
  broadcasts_S1x64_S10000x64 : S1x64.Broadcasts S10000x64
  reduces_S10000x64_S10000 : S10000x64.Reduces [1] S10000
  shapeCasts_S10000_S10000x1 : S10000.ShapeCasts S10000x1
  gather_S50000x64_S800000x1_S800000x64_1_0_n_n_0_1_164_wf : GatherDims.WF S50000x64 S800000x1 S800000x64 [1] [0] [] [0] [] 1 ![1, 64]
  dot_S16000x64_S64x128_S16000x128_1_0_0_1_n_n_wf : DotDims.WF S16000x64 S64x128 S16000x128 [1] [0] [0] [1] [] []
  dot_S16000x32_S32x128_S16000x128_1_0_0_1_n_n_wf : DotDims.WF S16000x32 S32x128 S16000x128 [1] [0] [0] [1] [] []
  dot_S16000x128_S128x128_S16000x128_1_0_0_1_n_n_wf : DotDims.WF S16000x128 S128x128 S16000x128 [1] [0] [0] [1] [] []
  dot_S16000x128_S128x64_S16000x64_1_0_0_1_n_n_wf : DotDims.WF S16000x128 S128x64 S16000x64 [1] [0] [0] [1] [] []
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S10000x64_S64x128_S10000x128_1_0_0_1_n_n_wf : DotDims.WF S10000x64 S64x128 S10000x128 [1] [0] [0] [1] [] []
  dot_S10000x128_S128x128_S10000x128_1_0_0_1_n_n_wf : DotDims.WF S10000x128 S128x128 S10000x128 [1] [0] [0] [1] [] []
  dot_S10000x128_S128x64_S10000x64_1_0_0_1_n_n_wf : DotDims.WF S10000x128 S128x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x64.size a ≤ S800000x64.size a
  hwx0_0 : ∀ i : grid0.Coords, EltTy.bits .f32 = 32 ∨ (Rect.block (s := S800000x64) S16000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16000x32.size a ≤ S800000x32.size a
  hwx0_1 : ∀ i : grid0.Coords, EltTy.bits .f32 = 32 ∨ (Rect.block (s := S800000x32) S16000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .bf16 = 32 ∨ (Rect.block (s := S64x128) S64x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x128.size a ≤ S32x128.size a
  hwx0_3 : ∀ i : grid0.Coords, EltTy.bits .bf16 = 32 ∨ (Rect.block (s := S32x128) S32x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x64.size a ≤ S128x64.size a
  hwx0_7 : ∀ i : grid0.Coords, EltTy.bits .bf16 = 32 ∨ (Rect.block (s := S128x64) S128x64.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S16000x64.size a ≤ S800000x64.size a
  hwx0_11 : ∀ i : grid0.Coords, EltTy.bits .f32 = 32 ∨ (Rect.block (s := S800000x64) S16000x64.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S50000x64.size a
  hwx1_1 : ∀ i : grid1.Coords, EltTy.bits .f32 = 32 ∨ (Rect.block (s := S50000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S50000x1.size a
  hwx1_2 : ∀ i : grid1.Coords, EltTy.bits .f32 = 32 ∨ (Rect.block (s := S50000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .bf16 = 32 ∨ (Rect.block (s := S64x128) S64x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x128.size a ≤ S64x128.size a
  hwx1_4 : ∀ i : grid1.Coords, EltTy.bits .bf16 = 32 ∨ (Rect.block (s := S64x128) S64x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .bf16 = 32 ∨ (Rect.block (s := S128x128) S128x128.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x64.size a ≤ S128x64.size a
  hwx1_8 : ∀ i : grid1.Coords, EltTy.bits .bf16 = 32 ∨ (Rect.block (s := S128x64) S128x64.size (cc1_transform_8 i) (hinb1_8 i)).WholeWords (EltTy.packing .bf16)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x64.size a ≤ S1x64.size a
  hwx1_9 : ∀ i : grid1.Coords, EltTy.bits .f32 = 32 ∨ (Rect.block (s := S1x64) S1x64.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x64.size a ≤ S1x64.size a
  hwx1_10 : ∀ i : grid1.Coords, EltTy.bits .f32 = 32 ∨ (Rect.block (s := S1x64) S1x64.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x64.size a ≤ S1x64.size a
  hwx1_11 : ∀ i : grid1.Coords, EltTy.bits .f32 = 32 ∨ (Rect.block (s := S1x64) S1x64.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S10000x64.size a ≤ S50000x64.size a
  hwx1_12 : ∀ i : grid1.Coords, EltTy.bits .f32 = 32 ∨ (Rect.block (s := S50000x64) S10000x64.size (cc1_transform_12 i) (hinb1_12 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S16000x64_S64x128_S16000x128_1_0_0_1_n_n : DotDims S16000x64 S64x128 S16000x128 where
  lhsContracting := [1]
  rhsContracting := [0]
  lhsNonContracting := [0]
  rhsNonContracting := [1]
  lhsBatch := []
  rhsBatch := []
  wf := dot_S16000x64_S64x128_S16000x128_1_0_0_1_n_n_wf
def dot_S16000x32_S32x128_S16000x128_1_0_0_1_n_n : DotDims S16000x32 S32x128 S16000x128 where
  lhsContracting := [1]
  rhsContracting := [0]
  lhsNonContracting := [0]
  rhsNonContracting := [1]
  lhsBatch := []
  rhsBatch := []
  wf := dot_S16000x32_S32x128_S16000x128_1_0_0_1_n_n_wf
def dot_S16000x128_S128x128_S16000x128_1_0_0_1_n_n : DotDims S16000x128 S128x128 S16000x128 where
  lhsContracting := [1]
  rhsContracting := [0]
  lhsNonContracting := [0]
  rhsNonContracting := [1]
  lhsBatch := []
  rhsBatch := []
  wf := dot_S16000x128_S128x128_S16000x128_1_0_0_1_n_n_wf
def dot_S16000x128_S128x64_S16000x64_1_0_0_1_n_n : DotDims S16000x128 S128x64 S16000x64 where
  lhsContracting := [1]
  rhsContracting := [0]
  lhsNonContracting := [0]
  rhsNonContracting := [1]
  lhsBatch := []
  rhsBatch := []
  wf := dot_S16000x128_S128x64_S16000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

abbrev win0_0 : Pipeline.Window sig grid0 :=
  Pipeline.Window.ofSpec (Memref.whole main_v4) S16000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S32x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S128x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v13) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v14) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v15) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v16) S16000x64.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_arg0) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v26) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S64x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v32) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v30) S128x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v33) S1x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v34) S1x64.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v35) S1x64.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v36) S10000x64.size cc1_transform_12 reads1_12 true false 2 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000x32 : Shape := ⟨2, ![800000, 32]⟩
abbrev S1x8 : Shape := ⟨2, ![1, 8]⟩
abbrev S50000 : Shape := ⟨1, ![50000]⟩
abbrev S96x128 : Shape := ⟨2, ![96, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x96 : Shape := ⟨2, ![800000, 96]⟩
abbrev S800000x128 : Shape := ⟨2, ![800000, 128]⟩
abbrev S1x128 : Shape := ⟨2, ![1, 128]⟩
abbrev S1x64 : Shape := ⟨2, ![1, 64]⟩
abbrev S50000x1 : Shape := ⟨2, ![50000, 1]⟩
abbrev S50000x128 : Shape := ⟨2, ![50000, 128]⟩

abbrev nBuf : Space → Nat
  | .hbm => 182
  | .vmem => 0
  | .smem => 0
  | _ => 0

abbrev hbmTy0_0 (i : Nat) : BufTy := match i % 128 with
  | 0 => ⟨S50000x64, .f32⟩
  | 1 => ⟨S2x800000, .i32⟩
  | 2 => ⟨S800000x32, .f32⟩
  | 3 => ⟨S1x8, .f32⟩
  | 4 => ⟨S50000, .i32⟩
  | 5 => ⟨S96x128, .f32⟩
  | 6 => ⟨S128, .f32⟩
  | 7 => ⟨S128x128, .f32⟩
  | 8 => ⟨S128, .f32⟩
  | 9 => ⟨S128x64, .f32⟩
  | 10 => ⟨S64, .f32⟩
  | 11 => ⟨S64, .f32⟩
  | 12 => ⟨S64, .f32⟩
  | 13 => ⟨S128x128, .f32⟩
  | 14 => ⟨S128, .f32⟩
  | 15 => ⟨S128x128, .f32⟩
  | 16 => ⟨S128, .f32⟩
  | 17 => ⟨S128x64, .f32⟩
  | 18 => ⟨S64, .f32⟩
  | 19 => ⟨S64, .f32⟩
  | 20 => ⟨S64, .f32⟩
  | 21 => ⟨S1x800000, .i32⟩
  | 22 => ⟨S800000, .i32⟩
  | 23 => ⟨S1x800000, .i32⟩
  | 24 => ⟨S800000, .i32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000x64, .f32⟩
  | 34 => ⟨S800000x96, .f32⟩
  | 35 => ⟨S800000x128, .f32⟩
  | 36 => ⟨S1x128, .f32⟩
  | 37 => ⟨S800000x128, .f32⟩
  | 38 => ⟨S800000x128, .f32⟩
  | 39 => ⟨S_, .f32⟩
  | 40 => ⟨S_, .f32⟩
  | 41 => ⟨S800000x128, .f32⟩
  | 42 => ⟨S800000x128, .i1⟩
  | 43 => ⟨S_, .f32⟩
  | 44 => ⟨S800000x128, .f32⟩
  | 45 => ⟨S800000x128, .f32⟩
  | 46 => ⟨S800000x128, .f32⟩
  | 47 => ⟨S800000x128, .f32⟩
  | 48 => ⟨S1x128, .f32⟩
  | 49 => ⟨S800000x128, .f32⟩
  | 50 => ⟨S800000x128, .f32⟩
  | 51 => ⟨S_, .f32⟩
  | 52 => ⟨S_, .f32⟩
  | 53 => ⟨S800000x128, .f32⟩
  | 54 => ⟨S800000x128, .i1⟩
  | 55 => ⟨S_, .f32⟩
  | 56 => ⟨S800000x128, .f32⟩
  | 57 => ⟨S800000x128, .f32⟩
  | 58 => ⟨S800000x128, .f32⟩
  | 59 => ⟨S800000x64, .f32⟩
  | 60 => ⟨S1x64, .f32⟩
  | 61 => ⟨S800000x64, .f32⟩
  | 62 => ⟨S800000x64, .f32⟩
  | 63 => ⟨S_, .f32⟩
  | 64 => ⟨S_, .f32⟩
  | 65 => ⟨S800000x64, .f32⟩
  | 66 => ⟨S800000x64, .i1⟩
  | 67 => ⟨S_, .f32⟩
  | 68 => ⟨S800000x64, .f32⟩
  | 69 => ⟨S800000x64, .f32⟩
  | 70 => ⟨S800000x64, .f32⟩
  | 71 => ⟨S_, .f32⟩
  | 72 => ⟨S800000, .f32⟩
  | 73 => ⟨S800000x1, .f32⟩
  | 74 => ⟨S_, .f32⟩
  | 75 => ⟨S800000x1, .f32⟩
  | 76 => ⟨S800000x1, .f32⟩
  | 77 => ⟨S800000x64, .f32⟩
  | 78 => ⟨S800000x64, .f32⟩
  | 79 => ⟨S800000x64, .f32⟩
  | 80 => ⟨S_, .f32⟩
  | 81 => ⟨S800000, .f32⟩
  | 82 => ⟨S800000x1, .f32⟩
  | 83 => ⟨S_, .f32⟩
  | 84 => ⟨S800000x1, .f32⟩
  | 85 => ⟨S800000x1, .f32⟩
  | 86 => ⟨S800000x64, .f32⟩
  | 87 => ⟨S800000x64, .f32⟩
  | 88 => ⟨S_, .f32⟩
  | 89 => ⟨S800000x1, .f32⟩
  | 90 => ⟨S800000x1, .f32⟩
  | 91 => ⟨S800000x1, .f32⟩
  | 92 => ⟨S800000x64, .f32⟩
  | 93 => ⟨S800000x64, .f32⟩
  | 94 => ⟨S1x64, .f32⟩
  | 95 => ⟨S800000x64, .f32⟩
  | 96 => ⟨S800000x64, .f32⟩
  | 97 => ⟨S1x64, .f32⟩
  | 98 => ⟨S800000x64, .f32⟩
  | 99 => ⟨S800000x64, .f32⟩
  | 100 => ⟨S_, .f32⟩
  | 101 => ⟨S50000x64, .f32⟩
  | 102 => ⟨S800000x1, .i32⟩
  | 103 => ⟨S50000x64, .f32⟩
  | 104 => ⟨S_, .f32⟩
  | 105 => ⟨S800000, .f32⟩
  | 106 => ⟨S_, .f32⟩
  | 107 => ⟨S50000, .f32⟩
  | 108 => ⟨S800000x1, .i32⟩
  | 109 => ⟨S50000, .f32⟩
  | 110 => ⟨S_, .f32⟩
  | 111 => ⟨S50000, .f32⟩
  | 112 => ⟨S50000, .f32⟩
  | 113 => ⟨S50000x1, .f32⟩
  | 114 => ⟨S50000x64, .f32⟩
  | 115 => ⟨S50000x64, .f32⟩
  | 116 => ⟨S50000x128, .f32⟩
  | 117 => ⟨S50000x128, .f32⟩
  | 118 => ⟨S1x128, .f32⟩
  | 119 => ⟨S50000x128, .f32⟩
  | 120 => ⟨S50000x128, .f32⟩
  | 121 => ⟨S_, .f32⟩
  | 122 => ⟨S_, .f32⟩
  | 123 => ⟨S50000x128, .f32⟩
  | 124 => ⟨S50000x128, .i1⟩
  | 125 => ⟨S_, .f32⟩
  | 126 => ⟨S50000x128, .f32⟩
  | 127 => ⟨S50000x128, .f32⟩
  | _ => ⟨S50000x64, .f32⟩

abbrev hbmTy0_1 (i : Nat) : BufTy := match i % 128 with
  | 0 => ⟨S50000x128, .f32⟩
  | 1 => ⟨S50000x128, .f32⟩
  | 2 => ⟨S1x128, .f32⟩
  | 3 => ⟨S50000x128, .f32⟩
  | 4 => ⟨S50000x128, .f32⟩
  | 5 => ⟨S_, .f32⟩
  | 6 => ⟨S_, .f32⟩
  | 7 => ⟨S50000x128, .f32⟩
  | 8 => ⟨S50000x128, .i1⟩
  | 9 => ⟨S_, .f32⟩
  | 10 => ⟨S50000x128, .f32⟩
  | 11 => ⟨S50000x128, .f32⟩
  | 12 => ⟨S50000x128, .f32⟩
  | 13 => ⟨S50000x64, .f32⟩
  | 14 => ⟨S1x64, .f32⟩
  | 15 => ⟨S50000x64, .f32⟩
  | 16 => ⟨S50000x64, .f32⟩
  | 17 => ⟨S_, .f32⟩
  | 18 => ⟨S_, .f32⟩
  | 19 => ⟨S50000x64, .f32⟩
  | 20 => ⟨S50000x64, .i1⟩
  | 21 => ⟨S_, .f32⟩
  | 22 => ⟨S50000x64, .f32⟩
  | 23 => ⟨S50000x64, .f32⟩
  | 24 => ⟨S50000x64, .f32⟩
  | 25 => ⟨S_, .f32⟩
  | 26 => ⟨S50000, .f32⟩
  | 27 => ⟨S50000x1, .f32⟩
  | 28 => ⟨S_, .f32⟩
  | 29 => ⟨S50000x1, .f32⟩
  | 30 => ⟨S50000x1, .f32⟩
  | 31 => ⟨S50000x64, .f32⟩
  | 32 => ⟨S50000x64, .f32⟩
  | 33 => ⟨S50000x64, .f32⟩
  | 34 => ⟨S_, .f32⟩
  | 35 => ⟨S50000, .f32⟩
  | 36 => ⟨S50000x1, .f32⟩
  | 37 => ⟨S_, .f32⟩
  | 38 => ⟨S50000x1, .f32⟩
  | 39 => ⟨S50000x1, .f32⟩
  | 40 => ⟨S50000x64, .f32⟩
  | 41 => ⟨S50000x64, .f32⟩
  | 42 => ⟨S_, .f32⟩
  | 43 => ⟨S50000x1, .f32⟩
  | 44 => ⟨S50000x1, .f32⟩
  | 45 => ⟨S50000x1, .f32⟩
  | 46 => ⟨S50000x64, .f32⟩
  | 47 => ⟨S50000x64, .f32⟩
  | 48 => ⟨S1x64, .f32⟩
  | 49 => ⟨S50000x64, .f32⟩
  | 50 => ⟨S50000x64, .f32⟩
  | 51 => ⟨S1x64, .f32⟩
  | 52 => ⟨S50000x64, .f32⟩
  | 53 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_c : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_cst : Ref sig .tc := ⟨.hbm, 39, rfl⟩
abbrev main_call0_cst : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_cst_1 : Ref sig .tc := ⟨.hbm, 51, rfl⟩
abbrev main_call1_cst : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_cst_2 : Ref sig .tc := ⟨.hbm, 63, rfl⟩
abbrev main_call2_cst : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_v26 : Ref sig .tc := ⟨.hbm, 70, rfl⟩
abbrev main_cst_3 : Ref sig .tc := ⟨.hbm, 71, rfl⟩
abbrev main_v27 : Ref sig .tc := ⟨.hbm, 72, rfl⟩
abbrev main_v28 : Ref sig .tc := ⟨.hbm, 73, rfl⟩
abbrev main_cst_4 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_cst_5 : Ref sig .tc := ⟨.hbm, 80, rfl⟩
abbrev main_v34 : Ref sig .tc := ⟨.hbm, 81, rfl⟩
abbrev main_v35 : Ref sig .tc := ⟨.hbm, 82, rfl⟩
abbrev main_cst_6 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_cst_7 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_cst_8 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_cst_9 : Ref sig .tc := ⟨.hbm, 104, rfl⟩
abbrev main_v54 : Ref sig .tc := ⟨.hbm, 105, rfl⟩
abbrev main_cst_10 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_cst_11 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_cst_12 : Ref sig .tc := ⟨.hbm, 121, rfl⟩
abbrev main_call3_cst : Ref sig .tc := ⟨.hbm, 122, rfl⟩
abbrev main_call3_v0 : Ref sig .tc := ⟨.hbm, 123, rfl⟩
abbrev main_call3_v1 : Ref sig .tc := ⟨.hbm, 124, rfl⟩
abbrev main_call3_v2 : Ref sig .tc := ⟨.hbm, 125, rfl⟩
abbrev main_call3_v3 : Ref sig .tc := ⟨.hbm, 126, rfl⟩
abbrev main_call3_v4 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_v72 : Ref sig .tc := ⟨.hbm, 132, rfl⟩
abbrev main_cst_13 : Ref sig .tc := ⟨.hbm, 133, rfl⟩
abbrev main_call4_cst : Ref sig .tc := ⟨.hbm, 134, rfl⟩
abbrev main_call4_v0 : Ref sig .tc := ⟨.hbm, 135, rfl⟩
abbrev main_call4_v1 : Ref sig .tc := ⟨.hbm, 136, rfl⟩
abbrev main_call4_v2 : Ref sig .tc := ⟨.hbm, 137, rfl⟩
abbrev main_call4_v3 : Ref sig .tc := ⟨.hbm, 138, rfl⟩
abbrev main_call4_v4 : Ref sig .tc := ⟨.hbm, 139, rfl⟩
abbrev main_v73 : Ref sig .tc := ⟨.hbm, 140, rfl⟩
abbrev main_v74 : Ref sig .tc := ⟨.hbm, 141, rfl⟩
abbrev main_v75 : Ref sig .tc := ⟨.hbm, 142, rfl⟩
abbrev main_v76 : Ref sig .tc := ⟨.hbm, 143, rfl⟩
abbrev main_v77 : Ref sig .tc := ⟨.hbm, 144, rfl⟩
abbrev main_cst_14 : Ref sig .tc := ⟨.hbm, 145, rfl⟩
abbrev main_call5_cst : Ref sig .tc := ⟨.hbm, 146, rfl⟩
abbrev main_call5_v0 : Ref sig .tc := ⟨.hbm, 147, rfl⟩
abbrev main_call5_v1 : Ref sig .tc := ⟨.hbm, 148, rfl⟩
abbrev main_call5_v2 : Ref sig .tc := ⟨.hbm, 149, rfl⟩
abbrev main_call5_v3 : Ref sig .tc := ⟨.hbm, 150, rfl⟩
abbrev main_call5_v4 : Ref sig .tc := ⟨.hbm, 151, rfl⟩
abbrev main_v78 : Ref sig .tc := ⟨.hbm, 152, rfl⟩
abbrev main_cst_15 : Ref sig .tc := ⟨.hbm, 153, rfl⟩
abbrev main_v79 : Ref sig .tc := ⟨.hbm, 154, rfl⟩
abbrev main_v80 : Ref sig .tc := ⟨.hbm, 155, rfl⟩
abbrev main_cst_16 : Ref sig .tc := ⟨.hbm, 156, rfl⟩
abbrev main_v81 : Ref sig .tc := ⟨.hbm, 157, rfl⟩
abbrev main_v82 : Ref sig .tc := ⟨.hbm, 158, rfl⟩
abbrev main_v83 : Ref sig .tc := ⟨.hbm, 159, rfl⟩
abbrev main_v84 : Ref sig .tc := ⟨.hbm, 160, rfl⟩
abbrev main_v85 : Ref sig .tc := ⟨.hbm, 161, rfl⟩
abbrev main_cst_17 : Ref sig .tc := ⟨.hbm, 162, rfl⟩
abbrev main_v86 : Ref sig .tc := ⟨.hbm, 163, rfl⟩
abbrev main_v87 : Ref sig .tc := ⟨.hbm, 164, rfl⟩
abbrev main_cst_18 : Ref sig .tc := ⟨.hbm, 165, rfl⟩
abbrev main_v88 : Ref sig .tc := ⟨.hbm, 166, rfl⟩
abbrev main_v89 : Ref sig .tc := ⟨.hbm, 167, rfl⟩
abbrev main_v90 : Ref sig .tc := ⟨.hbm, 168, rfl⟩
abbrev main_v91 : Ref sig .tc := ⟨.hbm, 169, rfl⟩
abbrev main_cst_19 : Ref sig .tc := ⟨.hbm, 170, rfl⟩
abbrev main_v92 : Ref sig .tc := ⟨.hbm, 171, rfl⟩
abbrev main_v93 : Ref sig .tc := ⟨.hbm, 172, rfl⟩
abbrev main_v94 : Ref sig .tc := ⟨.hbm, 173, rfl⟩
abbrev main_v95 : Ref sig .tc := ⟨.hbm, 174, rfl⟩
abbrev main_v96 : Ref sig .tc := ⟨.hbm, 175, rfl⟩
abbrev main_v97 : Ref sig .tc := ⟨.hbm, 176, rfl⟩
abbrev main_v98 : Ref sig .tc := ⟨.hbm, 177, rfl⟩
abbrev main_v99 : Ref sig .tc := ⟨.hbm, 178, rfl⟩
abbrev main_v100 : Ref sig .tc := ⟨.hbm, 179, rfl⟩
abbrev main_v101 : Ref sig .tc := ⟨.hbm, 180, rfl⟩
abbrev main_v102 : Ref sig .tc := ⟨.hbm, 181, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x32_S800000x96_d1 : Shape.Concatenates [S800000x64, S800000x32] S800000x96 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  reducesTo_S800000x64_S800000_d1 : S800000x64.ReducesTo [1] S800000
  h_S_ : 0 < S_.numel
  bcast_S_S800000x1 : S_.BroadcastsInDim S800000x1 (![] : Fin 0 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  concatenates_S50000x64_S50000x64_S50000x128_d1 : Shape.Concatenates [S50000x64, S50000x64] S50000x128 1
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S1x64_S50000x64_0_1 : S1x64.BroadcastsInDim S50000x64 (![0, 1] : Fin 2 → Fin S50000x64.rank)
  reducesTo_S50000x64_S50000_d1 : S50000x64.ReducesTo [1] S50000
  bcast_S_S50000x1 : S_.BroadcastsInDim S50000x1 (![] : Fin 0 → Fin S50000x1.rank)
  gather_S50000x64_S800000x1_S800000x64_1_0_n_n_0_1_164_wf : GatherDims.WF S50000x64 S800000x1 S800000x64 [1] [0] [] [0] [] 1 ![1, 64]
  dot_S800000x96_S96x128_S800000x128_1_0_0_1_n_n_wf : DotDims.WF S800000x96 S96x128 S800000x128 [1] [0] [0] [1] [] []
  dot_S800000x128_S128x128_S800000x128_1_0_0_1_n_n_wf : DotDims.WF S800000x128 S128x128 S800000x128 [1] [0] [0] [1] [] []
  dot_S800000x128_S128x64_S800000x64_1_0_0_1_n_n_wf : DotDims.WF S800000x128 S128x64 S800000x64 [1] [0] [0] [1] [] []
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x96_S96x128_S800000x128_1_0_0_1_n_n : DotDims S800000x96 S96x128 S800000x128 where
  lhsContracting := [1]
  rhsContracting := [0]
  lhsNonContracting := [0]
  rhsNonContracting := [1]
  lhsBatch := []
  rhsBatch := []
  wf := dot_S800000x96_S96x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.RefStages.lean ====
/-
  The reference's host program, cut into the stages the proof speaks about, each as one composed term of the
  operations the printed program applies, in its order:
  the gather's row indices (row 0 of the edge list, negative entries shifted by the table's height), the
  scatter's column indices (row 1), the per-edge perceptron with its normalisation, the two segment sums,
  and the per-node perceptron over the node features beside the segment mean.
-/
import proofs.«410253_j10892037063287_2_alg».proof.ReferenceIdeal

noncomputable section

namespace Cert.ReferenceIdeal.Stage

open Cert.ReferenceIdeal Idealize.ShloMosaic
open Facts₀ Facts

variable {F : FTy → Type} [FloatOps F] [Facts]

/-- Row `r` of the edge list as a vector. -/
def edgeRow0 (ei : IVec S2x800000 32) : IVec S800000 32 :=
  shapeCast S800000 (extractStridedSlice S1x800000 ![0, 0] ei slices_S2x800000_S1x800000_0_0) shapeCasts_S1x800000_S800000
def edgeRow1 (ei : IVec S2x800000 32) : IVec S800000 32 :=
  shapeCast S800000 (extractStridedSlice S1x800000 ![1, 0] ei slices_S2x800000_S1x800000_1_0) shapeCasts_S1x800000_S800000

/-- The gather's start indices: a negative entry counts from the end of the table. -/
def rowIdx (ei : IVec S2x800000 32) : IVec S800000x1 32 :=
  broadcastInDim S800000x1 ![0] bcast_S800000_S800000x1_0
    (select (cmpi .slt (edgeRow0 ei) (broadcastInDim S800000 ![] bcast_S_S800000 (constantI S_ 32 0#32)))
      (addi (edgeRow0 ei) (broadcastInDim S800000 ![] bcast_S_S800000 (constantI S_ 32 50000#32)))
      (edgeRow0 ei))

/-- The scatters' indices: row 1 as a column. -/
def colIdx (ei : IVec S2x800000 32) : IVec S800000x1 32 :=
  broadcastInDim S800000x1 ![0] bcast_S800000_S800000x1_0 (edgeRow1 ei)

/-- The gathered node features. -/
def gathered (x : FVec F S50000x64 .f32) (ei : IVec S2x800000 32) : FVec F S800000x64 .f32 :=
  Host.gather gather_S50000x64_S800000x1_S800000x64_1_0_n_n_0_1_164 x (rowIdx ei)

/-- The leaky rectifier as the outlined function computes it, at the three shapes it is called at. -/
def lrelu (s : Shape) (hb : S_.BroadcastsInDim s (![] : Fin 0 → Fin s.rank)) (x : FVec F s .f32) : FVec F s .f32 :=
  select (cmpf .oge x (broadcastInDim s ![] hb (constant S_ .f32 0x00000000#32))) x
    (mulf (broadcastInDim s ![] hb (constant S_ .f32 0x3C23D70A#32)) x)

/-- The per-edge perceptron and its normalisation (`%11` … `%50`). -/
def edgeStage (xr : FVec F S800000x64 .f32) (ea : FVec F S800000x32 .f32) (w0 : FVec F S96x128 .f32) (b0 : FVec F S128 .f32)
    (w1 : FVec F S128x128 .f32) (b1 : FVec F S128 .f32) (w2 : FVec F S128x64 .f32) (b2 g bn : FVec F S64 .f32) :
    FVec F S800000x64 .f32 :=
  let h0 := lrelu S800000x128 bcast_S_S800000x128
    (addf (Host.dotGeneral dot_S800000x96_S96x128_S800000x128_1_0_0_1_n_n none
        (concatenate S800000x96 1 [⟨S800000x64, xr⟩, ⟨S800000x32, ea⟩] concatenates_S800000x64_S800000x32_S800000x96_d1) w0)
      (broadcastInDim S800000x128 ![0, 1] bcast_S1x128_S800000x128_0_1 (broadcastInDim S1x128 ![1] bcast_S128_S1x128_1 b0)))
  let h1 := lrelu S800000x128 bcast_S_S800000x128
    (addf (Host.dotGeneral dot_S800000x128_S128x128_S800000x128_1_0_0_1_n_n none h0 w1)
      (broadcastInDim S800000x128 ![0, 1] bcast_S1x128_S800000x128_0_1 (broadcastInDim S1x128 ![1] bcast_S128_S1x128_1 b1)))
  let h2 := lrelu S800000x64 bcast_S_S800000x64
    (addf (Host.dotGeneral dot_S800000x128_S128x64_S800000x64_1_0_0_1_n_n none h1 w2)
      (broadcastInDim S800000x64 ![0, 1] bcast_S1x64_S800000x64_0_1 (broadcastInDim S1x64 ![1] bcast_S64_S1x64_1 b2)))
  let mu := Host.divf
    (broadcastInDim S800000x1 ![0] bcast_S800000_S800000x1_0
      (Host.reduceAdd h2 (constant S_ .f32 0x00000000#32) reducesTo_S800000x64_S800000_d1 h_S_))
    (broadcastInDim S800000x1 ![] bcast_S_S800000x1 (constant S_ .f32 0x42800000#32))
  let d := subf h2 (broadcastInDim S800000x64 ![0, 1] bcast_S800000x1_S800000x64_0_1 mu)
  let var := Host.divf
    (broadcastInDim S800000x1 ![0] bcast_S800000_S800000x1_0
      (Host.reduceAdd (mulf d d) (constant S_ .f32 0x00000000#32) reducesTo_S800000x64_S800000_d1 h_S_))
    (broadcastInDim S800000x1 ![] bcast_S_S800000x1 (constant S_ .f32 0x42800000#32))
  let r := Host.rsqrt (addf var (broadcastInDim S800000x1 ![] bcast_S_S800000x1 (constant S_ .f32 0x3727C5AC#32)))
  addf
    (mulf (mulf d (broadcastInDim S800000x64 ![0, 1] bcast_S800000x1_S800000x64_0_1 r))
      (broadcastInDim S800000x64 ![0, 1] bcast_S1x64_S800000x64_0_1 (broadcastInDim S1x64 ![1] bcast_S64_S1x64_1 g)))
    (broadcastInDim S800000x64 ![0, 1] bcast_S1x64_S800000x64_0_1 (broadcastInDim S1x64 ![1] bcast_S64_S1x64_1 bn))

/-- The segment sum of the edge rows over the destination nodes, and the segment count. -/
def segSum (ei : IVec S2x800000 32) (h : FVec F S800000x64 .f32) : FVec F S50000x64 .f32 :=
  Host.scatterAdd scatter_S50000x64_S800000x1_S800000x64_1_0_0_1
    (broadcastInDim S50000x64 ![] bcast_S_S50000x64 (constant S_ .f32 0x00000000#32)) (colIdx ei) h
def segCnt (ei : IVec S2x800000 32) : FVec F S50000 .f32 :=
  Host.scatterAdd scatter_S50000_S800000x1_S800000_n_0_0_1
    (broadcastInDim S50000 ![] bcast_S_S50000 (constant S_ .f32 0x00000000#32)) (colIdx ei)
    (broadcastInDim S800000 ![] bcast_S_S800000 (constant S_ .f32 0x3F800000#32))

/-- The per-node perceptron over the node features beside the segment mean (`%58` … `%102`). -/
def nodeStage (x : FVec F S50000x64 .f32) (asum : FVec F S50000x64 .f32) (cnt : FVec F S50000 .f32)
    (w0 : FVec F S128x128 .f32) (b0 : FVec F S128 .f32)
    (w1 : FVec F S128x128 .f32) (b1 : FVec F S128 .f32) (w2 : FVec F S128x64 .f32) (b2 g bn : FVec F S64 .f32) :
    FVec F S50000x64 .f32 :=
  let agg := Host.divf asum
    (broadcastInDim S50000x64 ![0, 1] bcast_S50000x1_S50000x64_0_1
      (broadcastInDim S50000x1 ![0] bcast_S50000_S50000x1_0
        (maximumf cnt (broadcastInDim S50000 ![] bcast_S_S50000 (constant S_ .f32 0x3F800000#32)))))
  let h0 := lrelu S50000x128 bcast_S_S50000x128
    (addf (Host.dotGeneral dot_S50000x128_S128x128_S50000x128_1_0_0_1_n_n none
        (concatenate S50000x128 1 [⟨S50000x64, x⟩, ⟨S50000x64, agg⟩] concatenates_S50000x64_S50000x64_S50000x128_d1) w0)
      (broadcastInDim S50000x128 ![0, 1] bcast_S1x128_S50000x128_0_1 (broadcastInDim S1x128 ![1] bcast_S128_S1x128_1 b0)))
  let h1 := lrelu S50000x128 bcast_S_S50000x128
    (addf (Host.dotGeneral dot_S50000x128_S128x128_S50000x128_1_0_0_1_n_n none h0 w1)
      (broadcastInDim S50000x128 ![0, 1] bcast_S1x128_S50000x128_0_1 (broadcastInDim S1x128 ![1] bcast_S128_S1x128_1 b1)))
  let h2 := lrelu S50000x64 bcast_S_S50000x64
    (addf (Host.dotGeneral dot_S50000x128_S128x64_S50000x64_1_0_0_1_n_n none h1 w2)
      (broadcastInDim S50000x64 ![0, 1] bcast_S1x64_S50000x64_0_1 (broadcastInDim S1x64 ![1] bcast_S64_S1x64_1 b2)))
  let mu := Host.divf
    (broadcastInDim S50000x1 ![0] bcast_S50000_S50000x1_0
      (Host.reduceAdd h2 (constant S_ .f32 0x00000000#32) reducesTo_S50000x64_S50000_d1 h_S_))
    (broadcastInDim S50000x1 ![] bcast_S_S50000x1 (constant S_ .f32 0x42800000#32))
  let d := subf h2 (broadcastInDim S50000x64 ![0, 1] bcast_S50000x1_S50000x64_0_1 mu)
  let var := Host.divf
    (broadcastInDim S50000x1 ![0] bcast_S50000_S50000x1_0
      (Host.reduceAdd (mulf d d) (constant S_ .f32 0x00000000#32) reducesTo_S50000x64_S50000_d1 h_S_))
    (broadcastInDim S50000x1 ![] bcast_S_S50000x1 (constant S_ .f32 0x42800000#32))
  let r := Host.rsqrt (addf var (broadcastInDim S50000x1 ![] bcast_S_S50000x1 (constant S_ .f32 0x3727C5AC#32)))
  addf
    (mulf (mulf d (broadcastInDim S50000x64 ![0, 1] bcast_S50000x1_S50000x64_0_1 r))
      (broadcastInDim S50000x64 ![0, 1] bcast_S1x64_S50000x64_0_1 (broadcastInDim S1x64 ![1] bcast_S64_S1x64_1 g)))
    (broadcastInDim S50000x64 ![0, 1] bcast_S1x64_S50000x64_0_1 (broadcastInDim S1x64 ![1] bcast_S64_S1x64_1 bn))

/-- The whole reference, as a function of its arguments. -/
def result (x : FVec F S50000x64 .f32) (ei : IVec S2x800000 32) (ea : FVec F S800000x32 .f32)
    (w0 : FVec F S96x128 .f32) (b0 : FVec F S128 .f32) (w1 : FVec F S128x128 .f32) (b1 : FVec F S128 .f32)
    (w2 : FVec F S128x64 .f32) (b2 g bn : FVec F S64 .f32)
    (v0 : FVec F S128x128 .f32) (c0 : FVec F S128 .f32) (v1 : FVec F S128x128 .f32) (c1 : FVec F S128 .f32)
    (v2 : FVec F S128x64 .f32) (c2 g' bn' : FVec F S64 .f32) : FVec F S50000x64 .f32 :=
  nodeStage x (segSum ei (edgeStage (gathered x ei) ea w0 b0 w1 b1 w2 b2 g bn)) (segCnt (F := F) ei) v0 c0 v1 c1 v2 c2 g' bn'

end Cert.ReferenceIdeal.Stage

end
-- ==== Proof.RefRunOps.lean ====
/- GENERATED by `python3 refrun_ops.py proof/ReferenceIdeal.lean proof/Proof/RefRunOps.lean` (run from the unit's directory; the script is kept there)
   from the printed reference: @main's operations as seven literal lists, the six rectifier calls replaced by the callee's
   operations over each call's buffer record, and the references each list's operations write. A table; the proofs over it
   are in Proof/RefRun.lean. -/
import proofs.«410253_j10892037063287_2_alg».proof.Proof.Gen.ReferenceIdeal
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-- The edge list's two rows, the gather's row indices (a negative entry shifted by the table's height) and the gather: `%0` … `%10`. -/
abbrev ops0 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)) ]

/-- The references the operations of `ops0` write, in order. -/
abbrev wr0 : List (Ref sig .tc) :=
  [ main_v0, main_v1, main_v2, main_v3, main_c, main_v4, main_v5, main_c_0, main_v6, main_v7, main_v8, main_v9, main_v10 ]

/-- The per-edge perceptron's three layers, from the concatenate on, each rectifier's seven operations at its call site: `%11` … `%26`. -/
abbrev ops1 : List (HloOp τ sig (Elt F)) :=
  [ binary main_v10 main_arg2 main_v11 ((fun a b => concatenate S800000x96 1 [⟨S800000x64, a⟩, ⟨S800000x32, b⟩] concatenates_S800000x64_S800000x32_S800000x96_d1) : (⟨S800000x64, .f32⟩ : BufTy).Contents (Elt F) → (⟨S800000x32, .f32⟩ : BufTy).Contents (Elt F) → (⟨S800000x96, .f32⟩ : BufTy).Contents (Elt F)),
    binary main_v11 main_arg5 main_v12 ((fun l r => Host.dotGeneral dot_S800000x96_S96x128_S800000x128_1_0_0_1_n_n none l r) : (⟨S800000x96, .f32⟩ : BufTy).Contents (Elt F) → (⟨S96x128, .f32⟩ : BufTy).Contents (Elt F) → (⟨S800000x128, .f32⟩ : BufTy).Contents (Elt F)),
    unary main_arg6 main_v13 (broadcastInDim S1x128 ![1] bcast_S128_S1x128_1 : (⟨S128, .f32⟩ : BufTy).Contents (Elt F) → (⟨S1x128, .f32⟩ : BufTy).Contents (Elt F)),
    unary main_v13 main_v14 (broadcastInDim S800000x128 ![0, 1] bcast_S1x128_S800000x128_0_1 : (⟨S1x128, .f32⟩ : BufTy).Contents (Elt F) → (⟨S800000x128, .f32⟩ : BufTy).Contents (Elt F)),
    binary main_v12 main_v14 main_v15 (addf : (⟨S800000x128, .f32⟩ : BufTy).Contents (Elt F) → (⟨S800000x128, .f32⟩ : BufTy).Contents (Elt F) → (⟨S800000x128, .f32⟩ : BufTy).Contents (Elt F)),
    nullary main_cst (constant S_ .f32 0x3C23D70A#32),
    TRef.nullary main_call0.cst (constant S_ .f32 0x00000000#32),
    TRef.unary main_call0.cst main_call0.v0 (broadcastInDim S800000x128 ![] bcast_S_S800000x128),
    TRef.binary (.of main_v15 : TRef sig ⟨S800000x128, .f32⟩) main_call0.v0 main_call0.v1 (cmpf (F := F) .oge),
    TRef.unary (.of main_cst : TRef sig ⟨S_, .f32⟩) main_call0.v2 id,
    TRef.unary main_call0.v2 main_call0.v3 (broadcastInDim S800000x128 ![] bcast_S_S800000x128),
    TRef.binary main_call0.v3 (.of main_v15 : TRef sig ⟨S800000x128, .f32⟩) main_call0.v4 mulf,
    TRef.ternary main_call0.v1 (.of main_v15 : TRef sig ⟨S800000x128, .f32⟩) main_call0.v4 main_call0.call0.v0 select,
    binary main_v16 main_arg7 main_v17 ((fun l r => Host.dotGeneral dot_S800000x128_S128x128_S800000x128_1_0_0_1_n_n none l r) : (⟨S800000x128, .f32⟩ : BufTy).Contents (Elt F) → (⟨S128x128, .f32⟩ : BufTy).Contents (Elt F) → (⟨S800000x128, .f32⟩ : BufTy).Contents (Elt F)),
    unary main_arg8 main_v18 (broadcastInDim S1x128 ![1] bcast_S128_S1x128_1 : (⟨S128, .f32⟩ : BufTy).Contents (Elt F) → (⟨S1x128, .f32⟩ : BufTy).Contents (Elt F)),
    unary main_v18 main_v19 (broadcastInDim S800000x128 ![0, 1] bcast_S1x128_S800000x128_0_1 : (⟨S1x128, .f32⟩ : BufTy).Contents (Elt F) → (⟨S800000x128, .f32⟩ : BufTy).Contents (Elt F)),
    binary main_v17 main_v19 main_v20 (addf : (⟨S800000x128, .f32⟩ : BufTy).Contents (Elt F) → (⟨S800000x128, .f32⟩ : BufTy).Contents (Elt F) → (⟨S800000x128, .f32⟩ : BufTy).Contents (Elt F)),
    nullary main_cst_1 (constant S_ .f32 0x3C23D70A#32),
    TRef.nullary main_call1.cst (constant S_ .f32 0x00000000#32),
    TRef.unary main_call1.cst main_call1.v0 (broadcastInDim S800000x128 ![] bcast_S_S800000x128),
    TRef.binary (.of main_v20 : TRef sig ⟨S800000x128, .f32⟩) main_call1.v0 main_call1.v1 (cmpf (F := F) .oge),
    TRef.unary (.of main_cst_1 : TRef sig ⟨S_, .f32⟩) main_call1.v2 id,
    TRef.unary main_call1.v2 main_call1.v3 (broadcastInDim S800000x128 ![] bcast_S_S800000x128),
    TRef.binary main_call1.v3 (.of main_v20 : TRef sig ⟨S800000x128, .f32⟩) main_call1.v4 mulf,
    TRef.ternary main_call1.v1 (.of main_v20 : TRef sig ⟨S800000x128, .f32⟩) main_call1.v4 main_call1.call0.v0 select,
    binary main_v21 main_arg9 main_v22 ((fun l r => Host.dotGeneral dot_S800000x128_S128x64_S800000x64_1_0_0_1_n_n none l r) : (⟨S800000x128, .f32⟩ : BufTy).Contents (Elt F) → (⟨S128x64, .f32⟩ : BufTy).Contents (Elt F) → (⟨S800000x64, .f32⟩ : BufTy).Contents (Elt F)),
    unary main_arg10 main_v23 (broadcastInDim S1x64 ![1] bcast_S64_S1x64_1 : (⟨S64, .f32⟩ : BufTy).Contents (Elt F) → (⟨S1x64, .f32⟩ : BufTy).Contents (Elt F)),
    unary main_v23 main_v24 (broadcastInDim S800000x64 ![0, 1] bcast_S1x64_S800000x64_0_1 : (⟨S1x64, .f32⟩ : BufTy).Contents (Elt F) → (⟨S800000x64, .f32⟩ : BufTy).Contents (Elt F)),
    binary main_v22 main_v24 main_v25 (addf : (⟨S800000x64, .f32⟩ : BufTy).Contents (Elt F) → (⟨S800000x64, .f32⟩ : BufTy).Contents (Elt F) → (⟨S800000x64, .f32⟩ : BufTy).Contents (Elt F)),
    nullary main_cst_2 (constant S_ .f32 0x3C23D70A#32),
    TRef.nullary main_call2.cst (constant S_ .f32 0x00000000#32),
    TRef.unary main_call2.cst main_call2.v0 (broadcastInDim S800000x64 ![] bcast_S_S800000x64),
    TRef.binary (.of main_v25 : TRef sig ⟨S800000x64, .f32⟩) main_call2.v0 main_call2.v1 (cmpf (F := F) .oge),
    TRef.unary (.of main_cst_2 : TRef sig ⟨S_, .f32⟩) main_call2.v2 id,
    TRef.unary main_call2.v2 main_call2.v3 (broadcastInDim S800000x64 ![] bcast_S_S800000x64),
    TRef.binary main_call2.v3 (.of main_v25 : TRef sig ⟨S800000x64, .f32⟩) main_call2.v4 mulf,
    TRef.ternary main_call2.v1 (.of main_v25 : TRef sig ⟨S800000x64, .f32⟩) main_call2.v4 main_call2.call0.v0 select ]

/-- The references the operations of `ops1` write, in order. -/
abbrev wr1 : List (Ref sig .tc) :=
  [ main_v11, main_v12, main_v13, main_v14, main_v15, main_cst, main_call0.cst.ref, main_call0.v0.ref, main_call0.v1.ref, main_call0.v2.ref, main_call0.v3.ref, main_call0.v4.ref, main_call0.call0.v0.ref, main_v17, main_v18, main_v19, main_v20, main_cst_1, main_call1.cst.ref, main_call1.v0.ref, main_call1.v1.ref, main_call1.v2.ref, main_call1.v3.ref, main_call1.v4.ref, main_call1.call0.v0.ref, main_v22, main_v23, main_v24, main_v25, main_cst_2, main_call2.cst.ref, main_call2.v0.ref, main_call2.v1.ref, main_call2.v2.ref, main_call2.v3.ref, main_call2.v4.ref, main_call2.call0.v0.ref ]

/-- The per-edge normalisation up to its two last broadcasts: `%27` … `%49`. -/
abbrev ops2 : List (HloOp τ sig (Elt F)) :=
  [ nullary main_cst_3 (constant S_ .f32 0x00000000#32),
    binary main_v26 main_cst_3 main_v27 ((fun x v => Host.reduceAdd x v reducesTo_S800000x64_S800000_d1 h_S_) : (⟨S800000x64, .f32⟩ : BufTy).Contents (Elt F) → (⟨S_, .f32⟩ : BufTy).Contents (Elt F) → (⟨S800000, .f32⟩ : BufTy).Contents (Elt F)),
    unary main_v27 main_v28 (broadcastInDim S800000x1 ![0] bcast_S800000_S800000x1_0 : (⟨S800000, .f32⟩ : BufTy).Contents (Elt F) → (⟨S800000x1, .f32⟩ : BufTy).Contents (Elt F)),
    nullary main_cst_4 (constant S_ .f32 0x42800000#32),
    unary main_cst_4 main_v29 (broadcastInDim S800000x1 ![] bcast_S_S800000x1 : (⟨S_, .f32⟩ : BufTy).Contents (Elt F) → (⟨S800000x1, .f32⟩ : BufTy).Contents (Elt F)),
    binary main_v28 main_v29 main_v30 (Host.divf : (⟨S800000x1, .f32⟩ : BufTy).Contents (Elt F) → (⟨S800000x1, .f32⟩ : BufTy).Contents (Elt F) → (⟨S800000x1, .f32⟩ : BufTy).Contents (Elt F)),
    unary main_v30 main_v31 (broadcastInDim S800000x64 ![0, 1] bcast_S800000x1_S800000x64_0_1 : (⟨S800000x1, .f32⟩ : BufTy).Contents (Elt F) → (⟨S800000x64, .f32⟩ : BufTy).Contents (Elt F)),
    binary main_v26 main_v31 main_v32 (subf : (⟨S800000x64, .f32⟩ : BufTy).Contents (Elt F) → (⟨S800000x64, .f32⟩ : BufTy).Contents (Elt F) → (⟨S800000x64, .f32⟩ : BufTy).Contents (Elt F)),
    binary main_v32 main_v32 main_v33 (mulf : (⟨S800000x64, .f32⟩ : BufTy).Contents (Elt F) → (⟨S800000x64, .f32⟩ : BufTy).Contents (Elt F) → (⟨S800000x64, .f32⟩ : BufTy).Contents (Elt F)),
    nullary main_cst_5 (constant S_ .f32 0x00000000#32),
    binary main_v33 main_cst_5 main_v34 ((fun x v => Host.reduceAdd x v reducesTo_S800000x64_S800000_d1 h_S_) : (⟨S800000x64, .f32⟩ : BufTy).Contents (Elt F) → (⟨S_, .f32⟩ : BufTy).Contents (Elt F) → (⟨S800000, .f32⟩ : BufTy).Contents (Elt F)),
    unary main_v34 main_v35 (broadcastInDim S800000x1 ![0] bcast_S800000_S800000x1_0 : (⟨S800000, .f32⟩ : BufTy).Contents (Elt F) → (⟨S800000x1, .f32⟩ : BufTy).Contents (Elt F)),
    nullary main_cst_6 (constant S_ .f32 0x42800000#32),
    unary main_cst_6 main_v36 (broadcastInDim S800000x1 ![] bcast_S_S800000x1 : (⟨S_, .f32⟩ : BufTy).Contents (Elt F) → (⟨S800000x1, .f32⟩ : BufTy).Contents (Elt F)),
    binary main_v35 main_v36 main_v37 (Host.divf : (⟨S800000x1, .f32⟩ : BufTy).Contents (Elt F) → (⟨S800000x1, .f32⟩ : BufTy).Contents (Elt F) → (⟨S800000x1, .f32⟩ : BufTy).Contents (Elt F)),
    unary main_v30 main_v38 (broadcastInDim S800000x64 ![0, 1] bcast_S800000x1_S800000x64_0_1 : (⟨S800000x1, .f32⟩ : BufTy).Contents (Elt F) → (⟨S800000x64, .f32⟩ : BufTy).Contents (Elt F)),
    binary main_v26 main_v38 main_v39 (subf : (⟨S800000x64, .f32⟩ : BufTy).Contents (Elt F) → (⟨S800000x64, .f32⟩ : BufTy).Contents (Elt F) → (⟨S800000x64, .f32⟩ : BufTy).Contents (Elt F)),
    nullary main_cst_7 (constant S_ .f32 0x3727C5AC#32),
    unary main_cst_7 main_v40 (broadcastInDim S800000x1 ![] bcast_S_S800000x1 : (⟨S_, .f32⟩ : BufTy).Contents (Elt F) → (⟨S800000x1, .f32⟩ : BufTy).Contents (Elt F)),
    binary main_v37 main_v40 main_v41 (addf : (⟨S800000x1, .f32⟩ : BufTy).Contents (Elt F) → (⟨S800000x1, .f32⟩ : BufTy).Contents (Elt F) → (⟨S800000x1, .f32⟩ : BufTy).Contents (Elt F)),
    unary main_v41 main_v42 (Host.rsqrt : (⟨S800000x1, .f32⟩ : BufTy).Contents (Elt F) → (⟨S800000x1, .f32⟩ : BufTy).Contents (Elt F)),
    unary main_v42 main_v43 (broadcastInDim S800000x64 ![0, 1] bcast_S800000x1_S800000x64_0_1 : (⟨S800000x1, .f32⟩ : BufTy).Contents (Elt F) → (⟨S800000x64, .f32⟩ : BufTy).Contents (Elt F)),
    binary main_v39 main_v43 main_v44 (mulf : (⟨S800000x64, .f32⟩ : BufTy).Contents (Elt F) → (⟨S800000x64, .f32⟩ : BufTy).Contents (Elt F) → (⟨S800000x64, .f32⟩ : BufTy).Contents (Elt F)),
    unary main_arg11 main_v45 (broadcastInDim S1x64 ![1] bcast_S64_S1x64_1 : (⟨S64, .f32⟩ : BufTy).Contents (Elt F) → (⟨S1x64, .f32⟩ : BufTy).Contents (Elt F)),
    unary main_v45 main_v46 (broadcastInDim S800000x64 ![0, 1] bcast_S1x64_S800000x64_0_1 : (⟨S1x64, .f32⟩ : BufTy).Contents (Elt F) → (⟨S800000x64, .f32⟩ : BufTy).Contents (Elt F)),
    binary main_v44 main_v46 main_v47 (mulf : (⟨S800000x64, .f32⟩ : BufTy).Contents (Elt F) → (⟨S800000x64, .f32⟩ : BufTy).Contents (Elt F) → (⟨S800000x64, .f32⟩ : BufTy).Contents (Elt F)),
    unary main_arg12 main_v48 (broadcastInDim S1x64 ![1] bcast_S64_S1x64_1 : (⟨S64, .f32⟩ : BufTy).Contents (Elt F) → (⟨S1x64, .f32⟩ : BufTy).Contents (Elt F)),
    unary main_v48 main_v49 (broadcastInDim S800000x64 ![0, 1] bcast_S1x64_S800000x64_0_1 : (⟨S1x64, .f32⟩ : BufTy).Contents (Elt F) → (⟨S800000x64, .f32⟩ : BufTy).Contents (Elt F)) ]

/-- The references the operations of `ops2` write, in order. -/
abbrev wr2 : List (Ref sig .tc) :=
  [ main_cst_3, main_v27, main_v28, main_cst_4, main_v29, main_v30, main_v31, main_v32, main_v33, main_cst_5, main_v34, main_v35, main_cst_6, main_v36, main_v37, main_v38, main_v39, main_cst_7, main_v40, main_v41, main_v42, main_v43, main_v44, main_v45, main_v46, main_v47, main_v48, main_v49 ]

/-- The normalisation's last sum, the two segment sums and the segment mean: `%50` … `%62`. -/
abbrev ops3 : List (HloOp τ sig (Elt F)) :=
  [ binary main_v47 main_v49 main_v50 (addf : (⟨S800000x64, .f32⟩ : BufTy).Contents (Elt F) → (⟨S800000x64, .f32⟩ : BufTy).Contents (Elt F) → (⟨S800000x64, .f32⟩ : BufTy).Contents (Elt F)),
    nullary main_cst_8 (constant S_ .f32 0x00000000#32),
    unary main_cst_8 main_v51 (broadcastInDim S50000x64 ![] bcast_S_S50000x64 : (⟨S_, .f32⟩ : BufTy).Contents (Elt F) → (⟨S50000x64, .f32⟩ : BufTy).Contents (Elt F)),
    unary main_v3 main_v52 (broadcastInDim S800000x1 ![0] bcast_S800000_S800000x1_0 : (⟨S800000, .i32⟩ : BufTy).Contents (Elt F) → (⟨S800000x1, .i32⟩ : BufTy).Contents (Elt F)),
    ternary main_v51 main_v52 main_v50 main_v53 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    nullary main_cst_9 (constant S_ .f32 0x3F800000#32),
    unary main_cst_9 main_v54 (broadcastInDim S800000 ![] bcast_S_S800000 : (⟨S_, .f32⟩ : BufTy).Contents (Elt F) → (⟨S800000, .f32⟩ : BufTy).Contents (Elt F)),
    nullary main_cst_10 (constant S_ .f32 0x00000000#32),
    unary main_cst_10 main_v55 (broadcastInDim S50000 ![] bcast_S_S50000 : (⟨S_, .f32⟩ : BufTy).Contents (Elt F) → (⟨S50000, .f32⟩ : BufTy).Contents (Elt F)),
    unary main_v3 main_v56 (broadcastInDim S800000x1 ![0] bcast_S800000_S800000x1_0 : (⟨S800000, .i32⟩ : BufTy).Contents (Elt F) → (⟨S800000x1, .i32⟩ : BufTy).Contents (Elt F)),
    ternary main_v55 main_v56 main_v54 main_v57 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_11 (constant S_ .f32 0x3F800000#32),
    unary main_cst_11 main_v58 (broadcastInDim S50000 ![] bcast_S_S50000 : (⟨S_, .f32⟩ : BufTy).Contents (Elt F) → (⟨S50000, .f32⟩ : BufTy).Contents (Elt F)),
    binary main_v57 main_v58 main_v59 (maximumf : (⟨S50000, .f32⟩ : BufTy).Contents (Elt F) → (⟨S50000, .f32⟩ : BufTy).Contents (Elt F) → (⟨S50000, .f32⟩ : BufTy).Contents (Elt F)),
    unary main_v59 main_v60 (broadcastInDim S50000x1 ![0] bcast_S50000_S50000x1_0 : (⟨S50000, .f32⟩ : BufTy).Contents (Elt F) → (⟨S50000x1, .f32⟩ : BufTy).Contents (Elt F)),
    unary main_v60 main_v61 (broadcastInDim S50000x64 ![0, 1] bcast_S50000x1_S50000x64_0_1 : (⟨S50000x1, .f32⟩ : BufTy).Contents (Elt F) → (⟨S50000x64, .f32⟩ : BufTy).Contents (Elt F)),
    binary main_v53 main_v61 main_v62 (Host.divf : (⟨S50000x64, .f32⟩ : BufTy).Contents (Elt F) → (⟨S50000x64, .f32⟩ : BufTy).Contents (Elt F) → (⟨S50000x64, .f32⟩ : BufTy).Contents (Elt F)) ]

/-- The references the operations of `ops3` write, in order. -/
abbrev wr3 : List (Ref sig .tc) :=
  [ main_v50, main_cst_8, main_v51, main_v52, main_v53, main_cst_9, main_v54, main_cst_10, main_v55, main_v56, main_v57, main_cst_11, main_v58, main_v59, main_v60, main_v61, main_v62 ]

/-- The per-node perceptron's three layers, from the concatenate on, each rectifier's seven operations at its call site: `%63` … `%78`. -/
abbrev ops4 : List (HloOp τ sig (Elt F)) :=
  [ binary main_arg0 main_v62 main_v63 ((fun a b => concatenate S50000x128 1 [⟨S50000x64, a⟩, ⟨S50000x64, b⟩] concatenates_S50000x64_S50000x64_S50000x128_d1) : (⟨S50000x64, .f32⟩ : BufTy).Contents (Elt F) → (⟨S50000x64, .f32⟩ : BufTy).Contents (Elt F) → (⟨S50000x128, .f32⟩ : BufTy).Contents (Elt F)),
    binary main_v63 main_arg13 main_v64 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg14 main_v65 (broadcastInDim S1x128 ![1] bcast_S128_S1x128_1 : (⟨S128, .f32⟩ : BufTy).Contents (Elt F) → (⟨S1x128, .f32⟩ : BufTy).Contents (Elt F)),
    unary main_v65 main_v66 (broadcastInDim S50000x128 ![0, 1] bcast_S1x128_S50000x128_0_1 : (⟨S1x128, .f32⟩ : BufTy).Contents (Elt F) → (⟨S50000x128, .f32⟩ : BufTy).Contents (Elt F)),
    binary main_v64 main_v66 main_v67 (addf : (⟨S50000x128, .f32⟩ : BufTy).Contents (Elt F) → (⟨S50000x128, .f32⟩ : BufTy).Contents (Elt F) → (⟨S50000x128, .f32⟩ : BufTy).Contents (Elt F)),
    nullary main_cst_12 (constant S_ .f32 0x3C23D70A#32),
    TRef.nullary main_call3.cst (constant S_ .f32 0x00000000#32),
    TRef.unary main_call3.cst main_call3.v0 (broadcastInDim S50000x128 ![] bcast_S_S50000x128),
    TRef.binary (.of main_v67 : TRef sig ⟨S50000x128, .f32⟩) main_call3.v0 main_call3.v1 (cmpf (F := F) .oge),
    TRef.unary (.of main_cst_12 : TRef sig ⟨S_, .f32⟩) main_call3.v2 id,
    TRef.unary main_call3.v2 main_call3.v3 (broadcastInDim S50000x128 ![] bcast_S_S50000x128),
    TRef.binary main_call3.v3 (.of main_v67 : TRef sig ⟨S50000x128, .f32⟩) main_call3.v4 mulf,
    TRef.ternary main_call3.v1 (.of main_v67 : TRef sig ⟨S50000x128, .f32⟩) main_call3.v4 main_call3.call0.v0 select,
    binary main_v68 main_arg15 main_v69 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg16 main_v70 (broadcastInDim S1x128 ![1] bcast_S128_S1x128_1 : (⟨S128, .f32⟩ : BufTy).Contents (Elt F) → (⟨S1x128, .f32⟩ : BufTy).Contents (Elt F)),
    unary main_v70 main_v71 (broadcastInDim S50000x128 ![0, 1] bcast_S1x128_S50000x128_0_1 : (⟨S1x128, .f32⟩ : BufTy).Contents (Elt F) → (⟨S50000x128, .f32⟩ : BufTy).Contents (Elt F)),
    binary main_v69 main_v71 main_v72 (addf : (⟨S50000x128, .f32⟩ : BufTy).Contents (Elt F) → (⟨S50000x128, .f32⟩ : BufTy).Contents (Elt F) → (⟨S50000x128, .f32⟩ : BufTy).Contents (Elt F)),
    nullary main_cst_13 (constant S_ .f32 0x3C23D70A#32),
    TRef.nullary main_call4.cst (constant S_ .f32 0x00000000#32),
    TRef.unary main_call4.cst main_call4.v0 (broadcastInDim S50000x128 ![] bcast_S_S50000x128),
    TRef.binary (.of main_v72 : TRef sig ⟨S50000x128, .f32⟩) main_call4.v0 main_call4.v1 (cmpf (F := F) .oge),
    TRef.unary (.of main_cst_13 : TRef sig ⟨S_, .f32⟩) main_call4.v2 id,
    TRef.unary main_call4.v2 main_call4.v3 (broadcastInDim S50000x128 ![] bcast_S_S50000x128),
    TRef.binary main_call4.v3 (.of main_v72 : TRef sig ⟨S50000x128, .f32⟩) main_call4.v4 mulf,
    TRef.ternary main_call4.v1 (.of main_v72 : TRef sig ⟨S50000x128, .f32⟩) main_call4.v4 main_call4.call0.v0 select,
    binary main_v73 main_arg17 main_v74 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg18 main_v75 (broadcastInDim S1x64 ![1] bcast_S64_S1x64_1 : (⟨S64, .f32⟩ : BufTy).Contents (Elt F) → (⟨S1x64, .f32⟩ : BufTy).Contents (Elt F)),
    unary main_v75 main_v76 (broadcastInDim S50000x64 ![0, 1] bcast_S1x64_S50000x64_0_1 : (⟨S1x64, .f32⟩ : BufTy).Contents (Elt F) → (⟨S50000x64, .f32⟩ : BufTy).Contents (Elt F)),
    binary main_v74 main_v76 main_v77 (addf : (⟨S50000x64, .f32⟩ : BufTy).Contents (Elt F) → (⟨S50000x64, .f32⟩ : BufTy).Contents (Elt F) → (⟨S50000x64, .f32⟩ : BufTy).Contents (Elt F)),
    nullary main_cst_14 (constant S_ .f32 0x3C23D70A#32),
    TRef.nullary main_call5.cst (constant S_ .f32 0x00000000#32),
    TRef.unary main_call5.cst main_call5.v0 (broadcastInDim S50000x64 ![] bcast_S_S50000x64),
    TRef.binary (.of main_v77 : TRef sig ⟨S50000x64, .f32⟩) main_call5.v0 main_call5.v1 (cmpf (F := F) .oge),
    TRef.unary (.of main_cst_14 : TRef sig ⟨S_, .f32⟩) main_call5.v2 id,
    TRef.unary main_call5.v2 main_call5.v3 (broadcastInDim S50000x64 ![] bcast_S_S50000x64),
    TRef.binary main_call5.v3 (.of main_v77 : TRef sig ⟨S50000x64, .f32⟩) main_call5.v4 mulf,
    TRef.ternary main_call5.v1 (.of main_v77 : TRef sig ⟨S50000x64, .f32⟩) main_call5.v4 main_call5.call0.v0 select ]

/-- The references the operations of `ops4` write, in order. -/
abbrev wr4 : List (Ref sig .tc) :=
  [ main_v63, main_v64, main_v65, main_v66, main_v67, main_cst_12, main_call3.cst.ref, main_call3.v0.ref, main_call3.v1.ref, main_call3.v2.ref, main_call3.v3.ref, main_call3.v4.ref, main_call3.call0.v0.ref, main_v69, main_v70, main_v71, main_v72, main_cst_13, main_call4.cst.ref, main_call4.v0.ref, main_call4.v1.ref, main_call4.v2.ref, main_call4.v3.ref, main_call4.v4.ref, main_call4.call0.v0.ref, main_v74, main_v75, main_v76, main_v77, main_cst_14, main_call5.cst.ref, main_call5.v0.ref, main_call5.v1.ref, main_call5.v2.ref, main_call5.v3.ref, main_call5.v4.ref, main_call5.call0.v0.ref ]

/-- The per-node normalisation up to the scale's first broadcast: `%79` … `%97`. -/
abbrev ops5 : List (HloOp τ sig (Elt F)) :=
  [ nullary main_cst_15 (constant S_ .f32 0x00000000#32),
    binary main_v78 main_cst_15 main_v79 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_v79 main_v80 (broadcastInDim S50000x1 ![0] bcast_S50000_S50000x1_0 : (⟨S50000, .f32⟩ : BufTy).Contents (Elt F) → (⟨S50000x1, .f32⟩ : BufTy).Contents (Elt F)),
    nullary main_cst_16 (constant S_ .f32 0x42800000#32),
    unary main_cst_16 main_v81 (broadcastInDim S50000x1 ![] bcast_S_S50000x1 : (⟨S_, .f32⟩ : BufTy).Contents (Elt F) → (⟨S50000x1, .f32⟩ : BufTy).Contents (Elt F)),
    binary main_v80 main_v81 main_v82 (Host.divf : (⟨S50000x1, .f32⟩ : BufTy).Contents (Elt F) → (⟨S50000x1, .f32⟩ : BufTy).Contents (Elt F) → (⟨S50000x1, .f32⟩ : BufTy).Contents (Elt F)),
    unary main_v82 main_v83 (broadcastInDim S50000x64 ![0, 1] bcast_S50000x1_S50000x64_0_1 : (⟨S50000x1, .f32⟩ : BufTy).Contents (Elt F) → (⟨S50000x64, .f32⟩ : BufTy).Contents (Elt F)),
    binary main_v78 main_v83 main_v84 (subf : (⟨S50000x64, .f32⟩ : BufTy).Contents (Elt F) → (⟨S50000x64, .f32⟩ : BufTy).Contents (Elt F) → (⟨S50000x64, .f32⟩ : BufTy).Contents (Elt F)),
    binary main_v84 main_v84 main_v85 (mulf : (⟨S50000x64, .f32⟩ : BufTy).Contents (Elt F) → (⟨S50000x64, .f32⟩ : BufTy).Contents (Elt F) → (⟨S50000x64, .f32⟩ : BufTy).Contents (Elt F)),
    nullary main_cst_17 (constant S_ .f32 0x00000000#32),
    binary main_v85 main_cst_17 main_v86 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_v86 main_v87 (broadcastInDim S50000x1 ![0] bcast_S50000_S50000x1_0 : (⟨S50000, .f32⟩ : BufTy).Contents (Elt F) → (⟨S50000x1, .f32⟩ : BufTy).Contents (Elt F)),
    nullary main_cst_18 (constant S_ .f32 0x42800000#32),
    unary main_cst_18 main_v88 (broadcastInDim S50000x1 ![] bcast_S_S50000x1 : (⟨S_, .f32⟩ : BufTy).Contents (Elt F) → (⟨S50000x1, .f32⟩ : BufTy).Contents (Elt F)),
    binary main_v87 main_v88 main_v89 (Host.divf : (⟨S50000x1, .f32⟩ : BufTy).Contents (Elt F) → (⟨S50000x1, .f32⟩ : BufTy).Contents (Elt F) → (⟨S50000x1, .f32⟩ : BufTy).Contents (Elt F)),
    unary main_v82 main_v90 (broadcastInDim S50000x64 ![0, 1] bcast_S50000x1_S50000x64_0_1 : (⟨S50000x1, .f32⟩ : BufTy).Contents (Elt F) → (⟨S50000x64, .f32⟩ : BufTy).Contents (Elt F)),
    binary main_v78 main_v90 main_v91 (subf : (⟨S50000x64, .f32⟩ : BufTy).Contents (Elt F) → (⟨S50000x64, .f32⟩ : BufTy).Contents (Elt F) → (⟨S50000x64, .f32⟩ : BufTy).Contents (Elt F)),
    nullary main_cst_19 (constant S_ .f32 0x3727C5AC#32),
    unary main_cst_19 main_v92 (broadcastInDim S50000x1 ![] bcast_S_S50000x1 : (⟨S_, .f32⟩ : BufTy).Contents (Elt F) → (⟨S50000x1, .f32⟩ : BufTy).Contents (Elt F)),
    binary main_v89 main_v92 main_v93 (addf : (⟨S50000x1, .f32⟩ : BufTy).Contents (Elt F) → (⟨S50000x1, .f32⟩ : BufTy).Contents (Elt F) → (⟨S50000x1, .f32⟩ : BufTy).Contents (Elt F)),
    unary main_v93 main_v94 (Host.rsqrt : (⟨S50000x1, .f32⟩ : BufTy).Contents (Elt F) → (⟨S50000x1, .f32⟩ : BufTy).Contents (Elt F)),
    unary main_v94 main_v95 (broadcastInDim S50000x64 ![0, 1] bcast_S50000x1_S50000x64_0_1 : (⟨S50000x1, .f32⟩ : BufTy).Contents (Elt F) → (⟨S50000x64, .f32⟩ : BufTy).Contents (Elt F)),
    binary main_v91 main_v95 main_v96 (mulf : (⟨S50000x64, .f32⟩ : BufTy).Contents (Elt F) → (⟨S50000x64, .f32⟩ : BufTy).Contents (Elt F) → (⟨S50000x64, .f32⟩ : BufTy).Contents (Elt F)),
    unary main_arg19 main_v97 (broadcastInDim S1x64 ![1] bcast_S64_S1x64_1 : (⟨S64, .f32⟩ : BufTy).Contents (Elt F) → (⟨S1x64, .f32⟩ : BufTy).Contents (Elt F)) ]

/-- The references the operations of `ops5` write, in order. -/
abbrev wr5 : List (Ref sig .tc) :=
  [ main_cst_15, main_v79, main_v80, main_cst_16, main_v81, main_v82, main_v83, main_v84, main_v85, main_cst_17, main_v86, main_v87, main_cst_18, main_v88, main_v89, main_v90, main_v91, main_cst_19, main_v92, main_v93, main_v94, main_v95, main_v96, main_v97 ]

/-- The per-node normalisation's last five operations: `%98` … `%102`. -/
abbrev ops6 : List (HloOp τ sig (Elt F)) :=
  [ unary main_v97 main_v98 (broadcastInDim S50000x64 ![0, 1] bcast_S1x64_S50000x64_0_1 : (⟨S1x64, .f32⟩ : BufTy).Contents (Elt F) → (⟨S50000x64, .f32⟩ : BufTy).Contents (Elt F)),
    binary main_v96 main_v98 main_v99 (mulf : (⟨S50000x64, .f32⟩ : BufTy).Contents (Elt F) → (⟨S50000x64, .f32⟩ : BufTy).Contents (Elt F) → (⟨S50000x64, .f32⟩ : BufTy).Contents (Elt F)),
    unary main_arg20 main_v100 (broadcastInDim S1x64 ![1] bcast_S64_S1x64_1 : (⟨S64, .f32⟩ : BufTy).Contents (Elt F) → (⟨S1x64, .f32⟩ : BufTy).Contents (Elt F)),
    unary main_v100 main_v101 (broadcastInDim S50000x64 ![0, 1] bcast_S1x64_S50000x64_0_1 : (⟨S1x64, .f32⟩ : BufTy).Contents (Elt F) → (⟨S50000x64, .f32⟩ : BufTy).Contents (Elt F)),
    binary main_v99 main_v101 main_v102 (addf : (⟨S50000x64, .f32⟩ : BufTy).Contents (Elt F) → (⟨S50000x64, .f32⟩ : BufTy).Contents (Elt F) → (⟨S50000x64, .f32⟩ : BufTy).Contents (Elt F)) ]

/-- The references the operations of `ops6` write, in order. -/
abbrev wr6 : List (Ref sig .tc) :=
  [ main_v98, main_v99, main_v100, main_v101, main_v102 ]

/-- @main's 161 operations, in order. -/
abbrev ops : List (HloOp τ sig (Elt F)) := ops0 ++ (ops1 ++ (ops2 ++ (ops3 ++ (ops4 ++ (ops5 ++ ops6)))))

end Cert.ReferenceIdeal.RunH

end
-- ==== Proof.RefRun.lean ====
/-
  The reference's run: its @main is a straight line of host operations (the outlined rectifier's operations at each of
  its six call sites), so every weakly fair execution terminates with each buffer at the operations' composed value of the
  launch contents; the result buffer holds `Stage.result` of the arguments, and no operation writes an argument.

  The line is cut into seven lists (before each concatenate, between a perceptron and its normalisation, and where the
  printed program's windows end). Over each list, from ANY contents: the few buffers it hands on hold a stated term of
  the buffers it reads, and a reference it does not write keeps its contents. The fold over the whole line is the
  fold over the lists in turn, so the result buffer is the stated terms composed, which unfold to `Stage.result`.
-/
import proofs.«410253_j10892037063287_2_alg».proof.Proof.Gen.ReferenceIdeal
import proofs.«410253_j10892037063287_2_alg».proof.Proof.RefStages
import proofs.«410253_j10892037063287_2_alg».proof.Proof.RefRunOps
import Idealize.ShloMosaic.Lib.StableHlo.Run
import Idealize.ShloMosaic.Lib.Pipeline.Frame

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-- A set that is one reference of a list lies among the list's references. -/
theorem sub_W {W : List (Ref sig .tc)} {s : Finset (DevRef τ sig)} (y : Ref sig .tc) (hs : s = {Proc.devRef .tc y}) (hy : y ∈ W) :
    s ⊆ (W.map (Proc.devRef (τ := τ) .tc)).toFinset := by
  subst hs; exact Finset.singleton_subset_iff.mpr (List.mem_toFinset.mpr (List.mem_map_of_mem hy))

/-- One operation writes one reference, and that reference is in the cut's list. -/
local macro "sw" : term => `(sub_W _ rfl (by decide))

/-! ## Per cut: the operations touch TensorCore references only, determine their results, and write the listed references -/

theorem ops0_sub : (ops0 : List (HloOp τ sig (Elt F))).Forall fun op => op.bufs ⊆ tcRefs τ sig := by
  simp only [List.Forall, nullary_bufs_sub, unary_bufs_sub, binary_bufs_sub, ternary_bufs_sub, reshape_bufs_sub, and_self]
theorem ops0_fresh : ∀ op ∈ (ops0 : List (HloOp τ sig (Elt F))), op.fresh = ∅ := by
  intro _ h; (repeat (cases h with | head => rfl | tail _ h => ?_)); exact nomatch h
theorem ops0_writes :
    (ops0 : List (HloOp τ sig (Elt F))).Forall fun op => op.writes ⊆ (wr0.map (Proc.devRef (τ := τ) .tc)).toFinset :=
  ⟨sw, sw, sw, sw, sw, sw, sw, sw, sw, sw, sw, sw, sw⟩
/-- A reference `ops0` does not write keeps its contents over it. -/
theorem keep0 (V : Valuation τ sig (Elt F)) (r : Ref sig .tc) (hr : r ∉ wr0) :
    after ops0 V (Proc.devRef .tc r) = V (Proc.devRef .tc r) :=
  after_of_writes_sub ops0 V ops0_writes hr

theorem ops1_sub : (ops1 : List (HloOp τ sig (Elt F))).Forall fun op => op.bufs ⊆ tcRefs τ sig := by
  simp only [List.Forall, nullary_bufs_sub, unary_bufs_sub, binary_bufs_sub, ternary_bufs_sub, reshape_bufs_sub, and_self]
theorem ops1_fresh : ∀ op ∈ (ops1 : List (HloOp τ sig (Elt F))), op.fresh = ∅ := by
  intro _ h; (repeat (cases h with | head => rfl | tail _ h => ?_)); exact nomatch h
theorem ops1_writes :
    (ops1 : List (HloOp τ sig (Elt F))).Forall fun op => op.writes ⊆ (wr1.map (Proc.devRef (τ := τ) .tc)).toFinset :=
  ⟨sw, sw, sw, sw, sw, sw, sw, sw, sw, sw, sw, sw, sw, sw, sw, sw, sw, sw, sw, sw, sw, sw, sw, sw, sw, sw, sw, sw, sw, sw, sw, sw, sw, sw, sw, sw, sw⟩
/-- A reference `ops1` does not write keeps its contents over it. -/
theorem keep1 (V : Valuation τ sig (Elt F)) (r : Ref sig .tc) (hr : r ∉ wr1) :
    after ops1 V (Proc.devRef .tc r) = V (Proc.devRef .tc r) :=
  after_of_writes_sub ops1 V ops1_writes hr

theorem ops2_sub : (ops2 : List (HloOp τ sig (Elt F))).Forall fun op => op.bufs ⊆ tcRefs τ sig := by
  simp only [List.Forall, nullary_bufs_sub, unary_bufs_sub, binary_bufs_sub, ternary_bufs_sub, reshape_bufs_sub, and_self]
theorem ops2_fresh : ∀ op ∈ (ops2 : List (HloOp τ sig (Elt F))), op.fresh = ∅ := by
  intro _ h; (repeat (cases h with | head => rfl | tail _ h => ?_)); exact nomatch h
theorem ops2_writes :
    (ops2 : List (HloOp τ sig (Elt F))).Forall fun op => op.writes ⊆ (wr2.map (Proc.devRef (τ := τ) .tc)).toFinset :=
  ⟨sw, sw, sw, sw, sw, sw, sw, sw, sw, sw, sw, sw, sw, sw, sw, sw, sw, sw, sw, sw, sw, sw, sw, sw, sw, sw, sw, sw⟩
/-- A reference `ops2` does not write keeps its contents over it. -/
theorem keep2 (V : Valuation τ sig (Elt F)) (r : Ref sig .tc) (hr : r ∉ wr2) :
    after ops2 V (Proc.devRef .tc r) = V (Proc.devRef .tc r) :=
  after_of_writes_sub ops2 V ops2_writes hr

theorem ops3_sub : (ops3 : List (HloOp τ sig (Elt F))).Forall fun op => op.bufs ⊆ tcRefs τ sig := by
  simp only [List.Forall, nullary_bufs_sub, unary_bufs_sub, binary_bufs_sub, ternary_bufs_sub, reshape_bufs_sub, and_self]
theorem ops3_fresh : ∀ op ∈ (ops3 : List (HloOp τ sig (Elt F))), op.fresh = ∅ := by
  intro _ h; (repeat (cases h with | head => rfl | tail _ h => ?_)); exact nomatch h
theorem ops3_writes :
    (ops3 : List (HloOp τ sig (Elt F))).Forall fun op => op.writes ⊆ (wr3.map (Proc.devRef (τ := τ) .tc)).toFinset :=
  ⟨sw, sw, sw, sw, sw, sw, sw, sw, sw, sw, sw, sw, sw, sw, sw, sw, sw⟩
/-- A reference `ops3` does not write keeps its contents over it. -/
theorem keep3 (V : Valuation τ sig (Elt F)) (r : Ref sig .tc) (hr : r ∉ wr3) :
    after ops3 V (Proc.devRef .tc r) = V (Proc.devRef .tc r) :=
  after_of_writes_sub ops3 V ops3_writes hr

theorem ops4_sub : (ops4 : List (HloOp τ sig (Elt F))).Forall fun op => op.bufs ⊆ tcRefs τ sig := by
  simp only [List.Forall, nullary_bufs_sub, unary_bufs_sub, binary_bufs_sub, ternary_bufs_sub, reshape_bufs_sub, and_self]
theorem ops4_fresh : ∀ op ∈ (ops4 : List (HloOp τ sig (Elt F))), op.fresh = ∅ := by
  intro _ h; (repeat (cases h with | head => rfl | tail _ h => ?_)); exact nomatch h
theorem ops4_writes :
    (ops4 : List (HloOp τ sig (Elt F))).Forall fun op => op.writes ⊆ (wr4.map (Proc.devRef (τ := τ) .tc)).toFinset :=
  ⟨sw, sw, sw, sw, sw, sw, sw, sw, sw, sw, sw, sw, sw, sw, sw, sw, sw, sw, sw, sw, sw, sw, sw, sw, sw, sw, sw, sw, sw, sw, sw, sw, sw, sw, sw, sw, sw⟩
/-- A reference `ops4` does not write keeps its contents over it. -/
theorem keep4 (V : Valuation τ sig (Elt F)) (r : Ref sig .tc) (hr : r ∉ wr4) :
    after ops4 V (Proc.devRef .tc r) = V (Proc.devRef .tc r) :=
  after_of_writes_sub ops4 V ops4_writes hr

theorem ops5_sub : (ops5 : List (HloOp τ sig (Elt F))).Forall fun op => op.bufs ⊆ tcRefs τ sig := by
  simp only [List.Forall, nullary_bufs_sub, unary_bufs_sub, binary_bufs_sub, ternary_bufs_sub, reshape_bufs_sub, and_self]
theorem ops5_fresh : ∀ op ∈ (ops5 : List (HloOp τ sig (Elt F))), op.fresh = ∅ := by
  intro _ h; (repeat (cases h with | head => rfl | tail _ h => ?_)); exact nomatch h
theorem ops5_writes :
    (ops5 : List (HloOp τ sig (Elt F))).Forall fun op => op.writes ⊆ (wr5.map (Proc.devRef (τ := τ) .tc)).toFinset :=
  ⟨sw, sw, sw, sw, sw, sw, sw, sw, sw, sw, sw, sw, sw, sw, sw, sw, sw, sw, sw, sw, sw, sw, sw, sw⟩
/-- A reference `ops5` does not write keeps its contents over it. -/
theorem keep5 (V : Valuation τ sig (Elt F)) (r : Ref sig .tc) (hr : r ∉ wr5) :
    after ops5 V (Proc.devRef .tc r) = V (Proc.devRef .tc r) :=
  after_of_writes_sub ops5 V ops5_writes hr

theorem ops6_sub : (ops6 : List (HloOp τ sig (Elt F))).Forall fun op => op.bufs ⊆ tcRefs τ sig := by
  simp only [List.Forall, nullary_bufs_sub, unary_bufs_sub, binary_bufs_sub, ternary_bufs_sub, reshape_bufs_sub, and_self]
theorem ops6_fresh : ∀ op ∈ (ops6 : List (HloOp τ sig (Elt F))), op.fresh = ∅ := by
  intro _ h; (repeat (cases h with | head => rfl | tail _ h => ?_)); exact nomatch h
theorem ops6_writes :
    (ops6 : List (HloOp τ sig (Elt F))).Forall fun op => op.writes ⊆ (wr6.map (Proc.devRef (τ := τ) .tc)).toFinset :=
  ⟨sw, sw, sw, sw, sw⟩
/-- A reference `ops6` does not write keeps its contents over it. -/
theorem keep6 (V : Valuation τ sig (Elt F)) (r : Ref sig .tc) (hr : r ∉ wr6) :
    after ops6 V (Proc.devRef .tc r) = V (Proc.devRef .tc r) :=
  after_of_writes_sub ops6 V ops6_writes hr

/-! ## The stages between the cuts

Each cut of the operation list hands on a few buffers; the terms they hold, as functions of what the cut
before handed on. Composed, they are `Stage.result` (`result_comp`, by unfolding). -/

/-- The per-edge perceptron's three layers over the gathered rows beside the edge features (`%26`). -/
def edgeH2 (xr : FVec F S800000x64 .f32) (ea : FVec F S800000x32 .f32) (w0 : FVec F S96x128 .f32) (b0 : FVec F S128 .f32)
    (w1 : FVec F S128x128 .f32) (b1 : FVec F S128 .f32) (w2 : FVec F S128x64 .f32) (b2 : FVec F S64 .f32) :
    FVec F S800000x64 .f32 :=
  Stage.lrelu S800000x64 bcast_S_S800000x64
    (addf (Host.dotGeneral dot_S800000x128_S128x64_S800000x64_1_0_0_1_n_n none
        (Stage.lrelu S800000x128 bcast_S_S800000x128
          (addf (Host.dotGeneral dot_S800000x128_S128x128_S800000x128_1_0_0_1_n_n none
              (Stage.lrelu S800000x128 bcast_S_S800000x128
                (addf (Host.dotGeneral dot_S800000x96_S96x128_S800000x128_1_0_0_1_n_n none
                    (concatenate S800000x96 1 [⟨S800000x64, xr⟩, ⟨S800000x32, ea⟩] concatenates_S800000x64_S800000x32_S800000x96_d1) w0)
                  (broadcastInDim S800000x128 ![0, 1] bcast_S1x128_S800000x128_0_1 (broadcastInDim S1x128 ![1] bcast_S128_S1x128_1 b0))))
              w1)
            (broadcastInDim S800000x128 ![0, 1] bcast_S1x128_S800000x128_0_1 (broadcastInDim S1x128 ![1] bcast_S128_S1x128_1 b1))))
        w2)
      (broadcastInDim S800000x64 ![0, 1] bcast_S1x64_S800000x64_0_1 (broadcastInDim S1x64 ![1] bcast_S64_S1x64_1 b2)))

/-- The per-edge rows centred, scaled by the inverse deviation and by the gain (`%47`). -/
def edgeN47 (h2 : FVec F S800000x64 .f32) (g : FVec F S64 .f32) : FVec F S800000x64 .f32 :=
  let mu := Host.divf
    (broadcastInDim S800000x1 ![0] bcast_S800000_S800000x1_0
      (Host.reduceAdd h2 (constant S_ .f32 0x00000000#32) reducesTo_S800000x64_S800000_d1 h_S_))
    (broadcastInDim S800000x1 ![] bcast_S_S800000x1 (constant S_ .f32 0x42800000#32))
  let d := subf h2 (broadcastInDim S800000x64 ![0, 1] bcast_S800000x1_S800000x64_0_1 mu)
  let var := Host.divf
    (broadcastInDim S800000x1 ![0] bcast_S800000_S800000x1_0
      (Host.reduceAdd (mulf d d) (constant S_ .f32 0x00000000#32) reducesTo_S800000x64_S800000_d1 h_S_))
    (broadcastInDim S800000x1 ![] bcast_S_S800000x1 (constant S_ .f32 0x42800000#32))
  let r := Host.rsqrt (addf var (broadcastInDim S800000x1 ![] bcast_S_S800000x1 (constant S_ .f32 0x3727C5AC#32)))
  mulf (mulf d (broadcastInDim S800000x64 ![0, 1] bcast_S800000x1_S800000x64_0_1 r))
    (broadcastInDim S800000x64 ![0, 1] bcast_S1x64_S800000x64_0_1 (broadcastInDim S1x64 ![1] bcast_S64_S1x64_1 g))

/-- The segment sum of the two summands' sum over the destination nodes, divided by the segment count
    raised to at least one (`%62`); `col` is row 1 of the edge list. -/
def aggOf (col : IVec S800000 32) (s t : FVec F S800000x64 .f32) : FVec F S50000x64 .f32 :=
  Host.divf
    (Host.scatterAdd scatter_S50000x64_S800000x1_S800000x64_1_0_0_1
      (broadcastInDim S50000x64 ![] bcast_S_S50000x64 (constant S_ .f32 0x00000000#32))
      (broadcastInDim S800000x1 ![0] bcast_S800000_S800000x1_0 col) (addf s t))
    (broadcastInDim S50000x64 ![0, 1] bcast_S50000x1_S50000x64_0_1
      (broadcastInDim S50000x1 ![0] bcast_S50000_S50000x1_0
        (maximumf
          (Host.scatterAdd scatter_S50000_S800000x1_S800000_n_0_0_1
            (broadcastInDim S50000 ![] bcast_S_S50000 (constant S_ .f32 0x00000000#32))
            (broadcastInDim S800000x1 ![0] bcast_S800000_S800000x1_0 col)
            (broadcastInDim S800000 ![] bcast_S_S800000 (constant S_ .f32 0x3F800000#32)))
          (broadcastInDim S50000 ![] bcast_S_S50000 (constant S_ .f32 0x3F800000#32)))))

/-- The per-node perceptron's three layers over the node features beside the segment mean (`%78`). -/
def nodeH2 (x agg : FVec F S50000x64 .f32) (w0 : FVec F S128x128 .f32) (b0 : FVec F S128 .f32)
    (w1 : FVec F S128x128 .f32) (b1 : FVec F S128 .f32) (w2 : FVec F S128x64 .f32) (b2 : FVec F S64 .f32) :
    FVec F S50000x64 .f32 :=
  Stage.lrelu S50000x64 bcast_S_S50000x64
    (addf (Host.dotGeneral dot_S50000x128_S128x64_S50000x64_1_0_0_1_n_n none
        (Stage.lrelu S50000x128 bcast_S_S50000x128
          (addf (Host.dotGeneral dot_S50000x128_S128x128_S50000x128_1_0_0_1_n_n none
              (Stage.lrelu S50000x128 bcast_S_S50000x128
                (addf (Host.dotGeneral dot_S50000x128_S128x128_S50000x128_1_0_0_1_n_n none
                    (concatenate S50000x128 1 [⟨S50000x64, x⟩, ⟨S50000x64, agg⟩] concatenates_S50000x64_S50000x64_S50000x128_d1) w0)
                  (broadcastInDim S50000x128 ![0, 1] bcast_S1x128_S50000x128_0_1 (broadcastInDim S1x128 ![1] bcast_S128_S1x128_1 b0))))
              w1)
            (broadcastInDim S50000x128 ![0, 1] bcast_S1x128_S50000x128_0_1 (broadcastInDim S1x128 ![1] bcast_S128_S1x128_1 b1))))
        w2)
      (broadcastInDim S50000x64 ![0, 1] bcast_S1x64_S50000x64_0_1 (broadcastInDim S1x64 ![1] bcast_S64_S1x64_1 b2)))

/-- The per-node rows centred and scaled by the inverse deviation (`%96`). -/
def nodeN96 (h2 : FVec F S50000x64 .f32) : FVec F S50000x64 .f32 :=
  let mu := Host.divf
    (broadcastInDim S50000x1 ![0] bcast_S50000_S50000x1_0
      (Host.reduceAdd h2 (constant S_ .f32 0x00000000#32) reducesTo_S50000x64_S50000_d1 h_S_))
    (broadcastInDim S50000x1 ![] bcast_S_S50000x1 (constant S_ .f32 0x42800000#32))
  let d := subf h2 (broadcastInDim S50000x64 ![0, 1] bcast_S50000x1_S50000x64_0_1 mu)
  let var := Host.divf
    (broadcastInDim S50000x1 ![0] bcast_S50000_S50000x1_0
      (Host.reduceAdd (mulf d d) (constant S_ .f32 0x00000000#32) reducesTo_S50000x64_S50000_d1 h_S_))
    (broadcastInDim S50000x1 ![] bcast_S_S50000x1 (constant S_ .f32 0x42800000#32))
  let r := Host.rsqrt (addf var (broadcastInDim S50000x1 ![] bcast_S_S50000x1 (constant S_ .f32 0x3727C5AC#32)))
  mulf d (broadcastInDim S50000x64 ![0, 1] bcast_S50000x1_S50000x64_0_1 r)

/-- The stages composed are the reference's result. -/
theorem result_comp (x : FVec F S50000x64 .f32) (ei : IVec S2x800000 32) (ea : FVec F S800000x32 .f32)
    (w0 : FVec F S96x128 .f32) (b0 : FVec F S128 .f32) (w1 : FVec F S128x128 .f32) (b1 : FVec F S128 .f32)
    (w2 : FVec F S128x64 .f32) (b2 g bn : FVec F S64 .f32)
    (v0 : FVec F S128x128 .f32) (c0 : FVec F S128 .f32) (v1 : FVec F S128x128 .f32) (c1 : FVec F S128 .f32)
    (v2 : FVec F S128x64 .f32) (c2 g' bn' : FVec F S64 .f32) :
    addf
        (mulf
          (nodeN96 (nodeH2 x
            (aggOf (Stage.edgeRow1 ei) (edgeN47 (edgeH2 (Stage.gathered x ei) ea w0 b0 w1 b1 w2 b2) g)
              (broadcastInDim S800000x64 ![0, 1] bcast_S1x64_S800000x64_0_1 (broadcastInDim S1x64 ![1] bcast_S64_S1x64_1 bn)))
            v0 c0 v1 c1 v2 c2))
          (broadcastInDim S50000x64 ![0, 1] bcast_S1x64_S50000x64_0_1 (broadcastInDim S1x64 ![1] bcast_S64_S1x64_1 g')))
        (broadcastInDim S50000x64 ![0, 1] bcast_S1x64_S50000x64_0_1 (broadcastInDim S1x64 ![1] bcast_S64_S1x64_1 bn'))
      = Stage.result x ei ea w0 b0 w1 b1 w2 b2 g bn v0 c0 v1 c1 v2 c2 g' bn' := rfl

/-! ## What each cut hands on -/

section Values

variable (V : Valuation τ sig (Elt F))

theorem ops0_v10 :
    after ops0 V (Proc.devRef .tc main_v10) = Stage.gathered (V (Proc.devRef .tc main_arg0)) (V (Proc.devRef .tc main_arg1)) := by
  after_results_simp
  rfl

theorem ops0_v3 : after ops0 V (Proc.devRef .tc main_v3) = Stage.edgeRow1 (V (Proc.devRef .tc main_arg1)) := by
  after_results_simp
  rfl

theorem ops1_v26 :
    after ops1 V (Proc.devRef .tc main_v26)
      = edgeH2 (V (Proc.devRef .tc main_v10)) (V (Proc.devRef .tc main_arg2)) (V (Proc.devRef .tc main_arg5)) (V (Proc.devRef .tc main_arg6)) (V (Proc.devRef .tc main_arg7))
          (V (Proc.devRef .tc main_arg8)) (V (Proc.devRef .tc main_arg9)) (V (Proc.devRef .tc main_arg10)) := by
  after_results_simp
  rfl

theorem ops2_v47 :
    after ops2 V (Proc.devRef .tc main_v47) = edgeN47 (V (Proc.devRef .tc main_v26)) (V (Proc.devRef .tc main_arg11)) := by
  after_results_simp
  rfl

theorem ops2_v49 :
    after ops2 V (Proc.devRef .tc main_v49)
      = broadcastInDim S800000x64 ![0, 1] bcast_S1x64_S800000x64_0_1 (broadcastInDim S1x64 ![1] bcast_S64_S1x64_1 (V (Proc.devRef .tc main_arg12))) := by
  after_results_simp

theorem ops3_v62 :
    after ops3 V (Proc.devRef .tc main_v62) = aggOf (V (Proc.devRef .tc main_v3)) (V (Proc.devRef .tc main_v47)) (V (Proc.devRef .tc main_v49)) := by
  after_results_simp
  rfl

theorem ops4_v78 :
    after ops4 V (Proc.devRef .tc main_v78)
      = nodeH2 (V (Proc.devRef .tc main_arg0)) (V (Proc.devRef .tc main_v62)) (V (Proc.devRef .tc main_arg13)) (V (Proc.devRef .tc main_arg14)) (V (Proc.devRef .tc main_arg15))
          (V (Proc.devRef .tc main_arg16)) (V (Proc.devRef .tc main_arg17)) (V (Proc.devRef .tc main_arg18)) := by
  after_results_simp
  rfl

theorem ops5_v96 : after ops5 V (Proc.devRef .tc main_v96) = nodeN96 (V (Proc.devRef .tc main_v78)) := by
  after_results_simp
  rfl

theorem ops5_v97 :
    after ops5 V (Proc.devRef .tc main_v97) = broadcastInDim S1x64 ![1] bcast_S64_S1x64_1 (V (Proc.devRef .tc main_arg19)) := by
  after_results_simp

theorem ops6_v102 :
    after ops6 V (Proc.devRef .tc main_v102)
      = addf (mulf (V (Proc.devRef .tc main_v96)) (broadcastInDim S50000x64 ![0, 1] bcast_S1x64_S50000x64_0_1 (V (Proc.devRef .tc main_v97))))
          (broadcastInDim S50000x64 ![0, 1] bcast_S1x64_S50000x64_0_1 (broadcastInDim S1x64 ![1] bcast_S64_S1x64_1 (V (Proc.devRef .tc main_arg20)))) := by
  after_results_simp

end Values

/-! ## The whole line -/

theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_append.2 ⟨ops0_sub, List.forall_append.2 ⟨ops1_sub, List.forall_append.2 ⟨ops2_sub,
    List.forall_append.2 ⟨ops3_sub, List.forall_append.2 ⟨ops4_sub, List.forall_append.2 ⟨ops5_sub, ops6_sub⟩⟩⟩⟩⟩⟩

theorem ops_fresh : ∀ op ∈ (ops : List (HloOp τ sig (Elt F))), op.fresh = ∅ := fun op h =>
  (List.mem_append.1 h).elim (ops0_fresh op) fun h => (List.mem_append.1 h).elim (ops1_fresh op) fun h =>
  (List.mem_append.1 h).elim (ops2_fresh op) fun h => (List.mem_append.1 h).elim (ops3_fresh op) fun h =>
  (List.mem_append.1 h).elim (ops4_fresh op) fun h => (List.mem_append.1 h).elim (ops5_fresh op) (ops6_fresh op)

/-- The fold over the whole line is the fold over the seven cuts, one after the other. -/
theorem after_ops (V : Valuation τ sig (Elt F)) :
    after ops V = after ops6 (after ops5 (after ops4 (after ops3 (after ops2 (after ops1 (after ops0 V)))))) := by
  simp only [ops, StableHlo.after_append]

/-- A reference no operation writes keeps its contents over the whole line. -/
theorem keep_all (V : Valuation τ sig (Elt F)) (r : Ref sig .tc) (h0 : r ∉ wr0) (h1 : r ∉ wr1) (h2 : r ∉ wr2) (h3 : r ∉ wr3)
    (h4 : r ∉ wr4) (h5 : r ∉ wr5) (h6 : r ∉ wr6) : after ops V (Proc.devRef .tc r) = V (Proc.devRef .tc r) := by
  rw [after_ops, keep6 _ r h6, keep5 _ r h5, keep4 _ r h4, keep3 _ r h3, keep2 _ r h2, keep1 _ r h1, keep0 _ r h0]

/-- The result buffer after the whole line: the reference's result of the launch contents. Each cut's
    hand-over is rewritten from the last cut back to the first, every reference a later cut reads being one
    the cuts between do not write. -/
theorem result_eq (V : Valuation τ sig (Elt F)) :
    after ops V (Proc.devRef .tc main_v102)
      = Stage.result (V (Proc.devRef .tc main_arg0)) (V (Proc.devRef .tc main_arg1)) (V (Proc.devRef .tc main_arg2)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) := by
  rw [after_ops, ops6_v102, ops5_v96, ops5_v97, keep5 _ main_arg20 (by decide),
    ops4_v78, keep4 _ main_arg19 (by decide), keep4 _ main_arg20 (by decide),
    ops3_v62, keep3 _ main_arg0 (by decide), keep3 _ main_arg13 (by decide), keep3 _ main_arg14 (by decide), keep3 _ main_arg15 (by decide), keep3 _ main_arg16 (by decide), keep3 _ main_arg17 (by decide), keep3 _ main_arg18 (by decide), keep3 _ main_arg19 (by decide), keep3 _ main_arg20 (by decide),
    ops2_v47, ops2_v49, keep2 _ main_v3 (by decide), keep2 _ main_arg0 (by decide), keep2 _ main_arg13 (by decide), keep2 _ main_arg14 (by decide), keep2 _ main_arg15 (by decide), keep2 _ main_arg16 (by decide), keep2 _ main_arg17 (by decide), keep2 _ main_arg18 (by decide), keep2 _ main_arg19 (by decide), keep2 _ main_arg20 (by decide),
    ops1_v26, keep1 _ main_v3 (by decide), keep1 _ main_arg0 (by decide), keep1 _ main_arg11 (by decide), keep1 _ main_arg12 (by decide), keep1 _ main_arg13 (by decide), keep1 _ main_arg14 (by decide), keep1 _ main_arg15 (by decide), keep1 _ main_arg16 (by decide), keep1 _ main_arg17 (by decide), keep1 _ main_arg18 (by decide), keep1 _ main_arg19 (by decide), keep1 _ main_arg20 (by decide),
    ops0_v10, ops0_v3, keep0 _ main_arg0 (by decide), keep0 _ main_arg2 (by decide), keep0 _ main_arg5 (by decide), keep0 _ main_arg6 (by decide), keep0 _ main_arg7 (by decide), keep0 _ main_arg8 (by decide), keep0 _ main_arg9 (by decide), keep0 _ main_arg10 (by decide), keep0 _ main_arg11 (by decide), keep0 _ main_arg12 (by decide), keep0 _ main_arg13 (by decide), keep0 _ main_arg14 (by decide), keep0 _ main_arg15 (by decide), keep0 _ main_arg16 (by decide), keep0 _ main_arg17 (by decide), keep0 _ main_arg18 (by decide), keep0 _ main_arg19 (by decide), keep0 _ main_arg20 (by decide)]
  exact result_comp ..

/-- On every device, for any float values, from any memory with zero counters: every weakly fair execution of @main
    terminates with the result at `Stage.result` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v102)
        = Stage.result (F := F) (m ((c.tc : Thread nD τ).loc main_arg0)) (m ((c.tc : Thread nD τ).loc main_arg1)) (m ((c.tc : Thread nD τ).loc main_arg2))
            (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
            (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) :=
  (θ_run defs _ _).mono (fun _ h c => ⟨(h c main_v102).trans (result_eq _),
      (h c main_arg0).trans (keep_all _ _ (by decide) (by decide) (by decide) (by decide) (by decide) (by decide) (by decide)),
      (h c main_arg1).trans (keep_all _ _ (by decide) (by decide) (by decide) (by decide) (by decide) (by decide) (by decide)),
      (h c main_arg2).trans (keep_all _ _ (by decide) (by decide) (by decide) (by decide) (by decide) (by decide) (by decide)),
      (h c main_arg3).trans (keep_all _ _ (by decide) (by decide) (by decide) (by decide) (by decide) (by decide) (by decide)),
      (h c main_arg4).trans (keep_all _ _ (by decide) (by decide) (by decide) (by decide) (by decide) (by decide) (by decide)),
      (h c main_arg5).trans (keep_all _ _ (by decide) (by decide) (by decide) (by decide) (by decide) (by decide) (by decide)),
      (h c main_arg6).trans (keep_all _ _ (by decide) (by decide) (by decide) (by decide) (by decide) (by decide) (by decide)),
      (h c main_arg7).trans (keep_all _ _ (by decide) (by decide) (by decide) (by decide) (by decide) (by decide) (by decide)),
      (h c main_arg8).trans (keep_all _ _ (by decide) (by decide) (by decide) (by decide) (by decide) (by decide) (by decide)),
      (h c main_arg9).trans (keep_all _ _ (by decide) (by decide) (by decide) (by decide) (by decide) (by decide) (by decide)),
      (h c main_arg10).trans (keep_all _ _ (by decide) (by decide) (by decide) (by decide) (by decide) (by decide) (by decide)),
      (h c main_arg11).trans (keep_all _ _ (by decide) (by decide) (by decide) (by decide) (by decide) (by decide) (by decide)),
      (h c main_arg12).trans (keep_all _ _ (by decide) (by decide) (by decide) (by decide) (by decide) (by decide) (by decide)),
      (h c main_arg13).trans (keep_all _ _ (by decide) (by decide) (by decide) (by decide) (by decide) (by decide) (by decide)),
      (h c main_arg14).trans (keep_all _ _ (by decide) (by decide) (by decide) (by decide) (by decide) (by decide) (by decide)),
      (h c main_arg15).trans (keep_all _ _ (by decide) (by decide) (by decide) (by decide) (by decide) (by decide) (by decide)),
      (h c main_arg16).trans (keep_all _ _ (by decide) (by decide) (by decide) (by decide) (by decide) (by decide) (by decide)),
      (h c main_arg17).trans (keep_all _ _ (by decide) (by decide) (by decide) (by decide) (by decide) (by decide) (by decide)),
      (h c main_arg18).trans (keep_all _ _ (by decide) (by decide) (by decide) (by decide) (by decide) (by decide) (by decide)),
      (h c main_arg19).trans (keep_all _ _ (by decide) (by decide) (by decide) (by decide) (by decide) (by decide) (by decide)),
      (h c main_arg20).trans (keep_all _ _ (by decide) (by decide) (by decide) (by decide) (by decide) (by decide) (by decide))⟩)
    (run_seq scopedRefs_eq scopedSems_eq defs main (fun _ => ops) main_eq (fun _ => ops_sub) m ρ (fun _ => ops_fresh))

end Cert.ReferenceIdeal.RunH

end
-- ==== Proof.Range.lean ====
/-
  The domain of the gather: every entry of row 0 of the edge list, read as a signed 32-bit integer, is an index
  numpy accepts for a table of 50000 rows, `-50000 ≤ r < 50000`.
-/
import Idealize.ShloMosaic.PureOps.Ideal
import Idealize.ShloMosaic.Lib.ValueIdx

namespace Cert.Spec

open Idealize.ShloMosaic Idealize.ShloMosaic.ValueIdx

/-- Every row index of the edge list is in `[-50000, 50000)`. -/
def RowsInRange (ei : (⟨2, ![2, 800000]⟩ : Shape).Idx → BitVec 32) : Prop :=
  ∀ e : Fin 800000, -50000 ≤ (ei (ix2 0 e)).toInt ∧ (ei (ix2 0 e)).toInt < 50000

end Cert.Spec
-- ==== Proof.PreDecode.lean ====
/-
  Reading the precondition: its last conjunct says that every entry of row 0 of the edge list lies in
  `[-50000, 50000)` as a signed integer. The precondition is a conjunction of twenty reductions; only the last is opened.
-/
import proofs.«410253_j10892037063287_2_alg».proof.Defs
import proofs.«410253_j10892037063287_2_alg».proof.Proof.Gen.Pre_finite_inputs
import proofs.«410253_j10892037063287_2_alg».proof.Proof.Range
import Idealize.ShloMosaic.Lib.ReduceAll
import Idealize.ShloMosaic.Lib.StableHlo.Predicate
import Idealize.ShloMosaic.Lib.ValueIdx

noncomputable section

namespace Cert.Proof.PreDecode

open Idealize.ShloMosaic Idealize.ShloMosaic.ValueIdx Idealize.SL.Sem
open Cert.Pre_finite_inputs

/-- Row 0 of the edge list, cut out as a one-row matrix and flattened, reads at position `e` the entry `(0, e)`:
    both have row-major position `e` in the one-row matrix, and the slice starts at the origin. -/
theorem row0_apply [Facts] (ei : IVec S2x800000 32) (e : Fin 800000) :
    shapeCast S800000 (extractStridedSlice S1x800000 ![0, 0] ei Facts.slices_S2x800000_S1x800000_0_0)
      Facts.shapeCasts_S1x800000_S800000 (ix1 e) = ei (ix2 0 e) := by
  have hk : (S1x800000.rowMajor (ix2 (0 : Fin 1) e)).val = (S800000.rowMajor (ix1 e)).val := by
    rw [Shape.rowMajor_val_two, Shape.rowMajor_val_one]
    show (0 : Nat) * 800000 + e.val = e.val
    omega
  unfold shapeCast
  rw [Shape.reshapeEquiv_eq_of_rowMajor Facts.shapeCasts_S1x800000_S800000 hk]
  unfold extractStridedSlice
  refine congrArg ei (funext fun a => Fin.ext ?_)
  match a with
  | ⟨0, _⟩ => rfl
  | ⟨1, _⟩ => show 0 + e.val = e.val; omega

/-- The last step of the predicate: the conjunction so far `and` the reduction of the last mask. If the result is 1,
    the reduction is 1, and a reduction by `and` into one word that is 1 met a 1 at every position. -/
theorem part6_last [Facts] {F : FTy → Type} [FloatOps F] {v93 : IVec S_ 1} {v102 : IVec S800000 1} {c : IVec S_ 1}
    (h : fn_part6 (F := F) v93 v102 c ix0 = 1#1) (i : S800000.Idx) : v102 i = 1#1 := by
  unfold fn_part6 at h
  -- the result shape has rank 0, hence exactly one index
  haveI : Subsingleton S_.Idx := ⟨fun a b => funext fun d => d.elim0⟩
  have h' : IntOp.andi (v93 ix0) (Host.reduce IntOp.andi v102 c Facts.reducesTo_S800000_S_d0 Facts.h_S_ ix0) = 1#1 := h
  exact Host.reduce_andi_all v102 c _ Facts.h_S_ ix0 (IntOp.andi_eq_one.1 h').2 i

/-- The part that builds the last mask: at position `e` it is the `and` of two signed compares of the entry `(0, e)`,
    `≥` against the word of `-50000` and `<` against the word of `50000`, each constant broadcast from a scalar. -/
theorem part5_range [Facts] {F : FTy → Type} [FloatOps F] {ei : IVec S2x800000 32} {a20 : FVec F S64 .f32} {v83 : IVec S_ 1}
    {v84 : FVec F S64 .f32} {cst : FVec F S_ .f32}
    (h : fn_part5 (F := F) ei a20 v83 v84 cst ix0 = 1#1) : Cert.Spec.RowsInRange ei := by
  intro e
  unfold fn_part5 at h
  have h1 := part6_last h (ix1 e)
  have hlo : broadcastInDim S800000 ![] Facts.bcast_S_S800000 (constantI S_ 32 4294917296#32) (ix1 e) = 4294917296#32 :=
    StableHlo.Predicate.bcast_scalar _ Facts.h_S_ _ _
  have hhi : broadcastInDim S800000 ![] Facts.bcast_S_S800000 (constantI S_ 32 50000#32) (ix1 e) = 50000#32 :=
    StableHlo.Predicate.bcast_scalar _ Facts.h_S_ _ _
  have h2 : IntOp.andi
      (IntOp.cmpi .sge
        (shapeCast S800000 (extractStridedSlice S1x800000 ![0, 0] ei Facts.slices_S2x800000_S1x800000_0_0)
          Facts.shapeCasts_S1x800000_S800000 (ix1 e))
        (broadcastInDim S800000 ![] Facts.bcast_S_S800000 (constantI S_ 32 4294917296#32) (ix1 e)))
      (IntOp.cmpi .slt
        (shapeCast S800000 (extractStridedSlice S1x800000 ![0, 0] ei Facts.slices_S2x800000_S1x800000_0_0)
          Facts.shapeCasts_S1x800000_S800000 (ix1 e))
        (broadcastInDim S800000 ![] Facts.bcast_S_S800000 (constantI S_ 32 50000#32) (ix1 e))) = 1#1 := h1
  rw [row0_apply, hlo, hhi] at h2
  obtain ⟨hge, hlt⟩ := IntOp.andi_eq_one.1 h2
  rw [IntOp.cmpi_sge] at hge
  rw [IntOp.cmpi_slt] at hlt
  have e1 : (4294917296#32 : BitVec 32).toInt = -50000 := by decide
  have e2 : (50000#32 : BitVec 32).toInt = 50000 := by decide
  rw [e1] at hge
  rw [e2] at hlt
  exact ⟨hge, hlt⟩

/-! The earlier parts only extend the conjunction and pass the edge list on unchanged. -/

theorem part4_range [Facts] {F : FTy → Type} [FloatOps F] {ei : IVec S2x800000 32} {a16 : FVec F S128 .f32}
    {a17 : FVec F S128x64 .f32} {a18 a19 a20 : FVec F S64 .f32} {v63 v67 : IVec S_ 1}
    (h : fn_part4 (F := F) ei a16 a17 a18 a19 a20 v63 v67 ix0 = 1#1) : Cert.Spec.RowsInRange ei := by
  unfold fn_part4 at h
  exact part5_range h

theorem part3_range [Facts] {F : FTy → Type} [FloatOps F] {ei : IVec S2x800000 32} {a13 : FVec F S128x128 .f32}
    {a14 : FVec F S128 .f32} {a15 : FVec F S128x128 .f32} {a16 : FVec F S128 .f32} {a17 : FVec F S128x64 .f32}
    {a18 a19 a20 : FVec F S64 .f32} {v48 : IVec S_ 1} {v49 v50 : FVec F S64 .f32}
    (h : fn_part3 (F := F) ei a13 a14 a15 a16 a17 a18 a19 a20 v48 v49 v50 ix0 = 1#1) : Cert.Spec.RowsInRange ei := by
  unfold fn_part3 at h
  exact part4_range h

theorem part2_range [Facts] {F : FTy → Type} [FloatOps F] {ei : IVec S2x800000 32} {a9 : FVec F S128x64 .f32}
    {a10 a11 a12 : FVec F S64 .f32} {a13 : FVec F S128x128 .f32} {a14 : FVec F S128 .f32} {a15 : FVec F S128x128 .f32}
    {a16 : FVec F S128 .f32} {a17 : FVec F S128x64 .f32} {a18 a19 a20 : FVec F S64 .f32} {v33 : IVec S_ 1}
    (h : fn_part2 (F := F) ei a9 a10 a11 a12 a13 a14 a15 a16 a17 a18 a19 a20 v33 ix0 = 1#1) : Cert.Spec.RowsInRange ei := by
  unfold fn_part2 at h
  exact part3_range h

theorem part1_range [Facts] {F : FTy → Type} [FloatOps F] {ei : IVec S2x800000 32} {a6 : FVec F S128 .f32}
    {a7 : FVec F S128x128 .f32} {a8 : FVec F S128 .f32} {a9 : FVec F S128x64 .f32}
    {a10 a11 a12 : FVec F S64 .f32} {a13 : FVec F S128x128 .f32} {a14 : FVec F S128 .f32} {a15 : FVec F S128x128 .f32}
    {a16 : FVec F S128 .f32} {a17 : FVec F S128x64 .f32} {a18 a19 a20 : FVec F S64 .f32} {v13 : IVec S_ 1}
    {v16 : IVec S96x128 1}
    (h : fn_part1 (F := F) ei a6 a7 a8 a9 a10 a11 a12 a13 a14 a15 a16 a17 a18 a19 a20 v13 v16 ix0 = 1#1) :
    Cert.Spec.RowsInRange ei := by
  unfold fn_part1 at h
  exact part2_range h

theorem fn_range [Facts] {F : FTy → Type} [FloatOps F] {a0 : FVec F S50000x64 .f32} {ei : IVec S2x800000 32}
    {a2 : FVec F S800000x32 .f32} {a3 : FVec F S1x8 .f32} {a4 : IVec S50000 32} {a5 : FVec F S96x128 .f32}
    {a6 : FVec F S128 .f32} {a7 : FVec F S128x128 .f32} {a8 : FVec F S128 .f32} {a9 : FVec F S128x64 .f32}
    {a10 a11 a12 : FVec F S64 .f32} {a13 : FVec F S128x128 .f32} {a14 : FVec F S128 .f32} {a15 : FVec F S128x128 .f32}
    {a16 : FVec F S128 .f32} {a17 : FVec F S128x64 .f32} {a18 a19 a20 : FVec F S64 .f32}
    (h : fn (F := F) a0 ei a2 a3 a4 a5 a6 a7 a8 a9 a10 a11 a12 a13 a14 a15 a16 a17 a18 a19 a20 ix0 = 1#1) :
    Cert.Spec.RowsInRange ei := by
  unfold fn at h
  exact part1_range h

/-- Under the precondition of the idealized kernel, on every device, the gather's row indices are in range. -/
theorem rows_in_range [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.Spec.RowsInRange (m ((c.tc : Thread Cert.KernelIdeal.nD Cert.KernelIdeal.τ).loc Cert.KernelIdeal.main_arg1)) :=
  fn_range (F := Ideal) (congrFun (h c) ix0)

end Cert.Proof.PreDecode

end
-- ==== Proof.Spec.lean ====
/-
  What both programs compute, one row at a time, on the extended reals.

  An edge's (or a node's) output row is a three-layer perceptron followed by a layer normalisation:
  the first layer takes two input pieces `u` and `v` against the two row bands of one weight matrix
  (the sum over the concatenated row is the sum over the first band plus the sum over the second:
  addition on the extended reals is commutative and associative, so no finiteness is needed),
  each layer is followed by the leaky rectifier `v ↦ if v ≥ 0 then v else 0.01·v`, and the
  normalisation is `(h - μ) · rsqrt(σ² + ε) · g + b` with `μ = (Σ h)·(1/64)`,
  `σ² = (Σ (h - μ)²)·(1/64)`. The literals are kept as their binary words: the same word stands on
  both sides and is never evaluated, except `1/64` against the reference's division by `64`.
-/
import Idealize.ShloMosaic.PureOps.Ideal
import Idealize.ShloMosaic.Lib.ValueIdx

noncomputable section

open Idealize.ShloMosaic Idealize.ShloMosaic.ValueIdx
open scoped BigOperators

namespace Cert.Spec

/-- The float literals of the two programs, as extended reals. -/
abbrev zeroW : EReal := Ideal.ofBits .f32 0x00000000#32
abbrev slopeW : EReal := Ideal.ofBits .f32 0x3C23D70A#32
abbrev inv64W : EReal := Ideal.ofBits .f32 0x3C800000#32
abbrev epsW : EReal := Ideal.ofBits .f32 0x3727C5AC#32
abbrev oneW : EReal := Ideal.ofBits .f32 0x3F800000#32

/-- The leaky rectifier: `v` where `v ≥ 0`, else `0.01·v`. -/
def lrelu (v : EReal) : EReal :=
  Scalar.select (FloatOps.cmpf (F := Ideal) (φ := .f32) .oge v zeroW) v (slopeW * v)

/-- Layer normalisation of a 64-entry row, with the mean taken as a product with `1/64`. -/
def ln64 (h g b : Fin 64 → EReal) (j : Fin 64) : EReal :=
  let μ : EReal := (∑ k, h k) * inv64W
  let d : Fin 64 → EReal := fun k => h k - μ
  let σ2 : EReal := (∑ k, d k * d k) * inv64W
  d j * Ideal.rsqrt (σ2 + epsW) * g j + b j

/-- First layer: two input pieces against the two row bands of the weight matrix, plus the bias. -/
def layer0 {a b : Nat} (u : Fin a → EReal) (v : Fin b → EReal) (wu : Fin a → Fin 128 → EReal)
    (wv : Fin b → Fin 128 → EReal) (b0 : Fin 128 → EReal) (j : Fin 128) : EReal :=
  lrelu (((∑ q, u q * wu q j) + (∑ q, v q * wv q j)) + b0 j)

/-- A later layer: one matrix product, the bias, the rectifier. -/
def layer {n m : Nat} (h : Fin n → EReal) (w : Fin n → Fin m → EReal) (b : Fin m → EReal) (j : Fin m) : EReal :=
  lrelu ((∑ k, h k * w k j) + b j)

/-- One output row: three layers, then the normalisation. -/
def mlpRow {a b : Nat} (u : Fin a → EReal) (v : Fin b → EReal) (wu : Fin a → Fin 128 → EReal)
    (wv : Fin b → Fin 128 → EReal) (b0 : Fin 128 → EReal) (w1 : Fin 128 → Fin 128 → EReal) (b1 : Fin 128 → EReal)
    (w2 : Fin 128 → Fin 64 → EReal) (b2 g bn : Fin 64 → EReal) : Fin 64 → EReal :=
  ln64 (layer (layer (layer0 u v wu wv b0) w1 b1) w2 b2) g bn

/-- A rank-2 array of extended reals. -/
abbrev A2 (r c : Nat) : Type := (⟨2, ![r, c]⟩ : Shape).Idx → EReal

/-- The per-edge stage as one whole-array function: row `e` of the result is `mlpRow` of row `e` of the
    gathered node features and row `e` of the edge features. The weights come in the layout the kernel's
    windows hold: the first matrix as its two row bands, the vectors as one-row matrices. -/
def edgeArr (xr : A2 800000 64) (ea : A2 800000 32) (w0x : A2 64 128) (w0e : A2 32 128) (b0 : A2 1 128)
    (w1 : A2 128 128) (b1 : A2 1 128) (w2 : A2 128 64) (b2 g bn : A2 1 64) : A2 800000 64 := fun i =>
  let r : Fin 800000 := ⟨(i 0).val, idx2_lt0 i⟩
  mlpRow (fun k => xr (ix2 r k)) (fun k => ea (ix2 r k)) (fun k j => w0x (ix2 k j)) (fun k j => w0e (ix2 k j))
    (fun j => b0 (ix2 0 j)) (fun k j => w1 (ix2 k j)) (fun j => b1 (ix2 0 j)) (fun k j => w2 (ix2 k j))
    (fun j => b2 (ix2 0 j)) (fun j => g (ix2 0 j)) (fun j => bn (ix2 0 j)) ⟨(i 1).val, idx2_lt1 i⟩

/-- The per-node stage: the second input piece is the segment sum divided by `max(count, 1)`. -/
def nodeArr (x : A2 50000 64) (asum : A2 50000 64) (cnt : A2 50000 1) (w0x w0a : A2 64 128) (b0 : A2 1 128)
    (w1 : A2 128 128) (b1 : A2 1 128) (w2 : A2 128 64) (b2 g bn : A2 1 64) : A2 50000 64 := fun i =>
  let r : Fin 50000 := ⟨(i 0).val, idx2_lt0 i⟩
  mlpRow (fun k => x (ix2 r k)) (fun k => Ideal.div (asum (ix2 r k)) (max (cnt (ix2 r 0)) oneW))
    (fun k j => w0x (ix2 k j)) (fun k j => w0a (ix2 k j))
    (fun j => b0 (ix2 0 j)) (fun k j => w1 (ix2 k j)) (fun j => b1 (ix2 0 j)) (fun k j => w2 (ix2 k j))
    (fun j => b2 (ix2 0 j)) (fun j => g (ix2 0 j)) (fun j => bn (ix2 0 j)) ⟨(i 1).val, idx2_lt1 i⟩

end Cert.Spec

end
-- ==== Proof.KReg0.lean ====
/-
  The per-edge kernel's output array after its grid has run: point `t` of the fifty writes rows
  `16000·t … 16000·t + 15999`, and what it writes at a row is `Spec.mlpRow` of that row of its two input
  blocks against the resident weight blocks. The blocks tile the array, so the array is `Spec.edgeArr`
  of the arrays the windows stage.
-/
import proofs.«410253_j10892037063287_2_alg».proof.Proof.Gen.KernelIdeal.Frame
import proofs.«410253_j10892037063287_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KV

open Cert.KernelIdeal Cert.KernelIdeal.Gen
open Idealize.ShloMosaic Idealize.ShloMosaic.TcCoe Idealize.ShloMosaic.ValueIdx Idealize.SL.Sem
open scoped BigOperators

variable (V : (c : Dev nD) → (b : Ref sig .tc) → Buf (Elt Ideal) ((c : Thread nD τ).loc b))

namespace Edge

/-! ## Operations read at an entry, at any sizes -/

/-- The rectifier as the kernel writes it, read at an index. -/
theorem rect_apply {s : Shape} (z : FVec Ideal s .f32) (i : s.Idx) :
    select (cmpf .oge z (broadcast s (Scalar.ofBits (F := Ideal) .f32 0x00000000#32))) z
        (mulf (broadcast s (Scalar.ofBits (F := Ideal) .f32 0x3C23D70A#32)) z) i
      = Cert.Spec.lrelu (z i) := rfl

/-- The reciprocal square root of a vector, read at an index. -/
theorem rsqrt_apply {s : Shape} {φ : FTy} (a : FVec Ideal s φ) (i : s.Idx) : rsqrt a i = Ideal.rsqrt (a i) := rfl

/-- A product of an m×k by a k×n matrix accumulated into the zero matrix, read at an entry: the sum over the
    contracted coordinate of the products of the entries. -/
theorem matmul0_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims _ _ _) prec A B (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have hc := contrEquiv1_symm_val
    (⟨[1], [0], [0], [1], [], [], w⟩ : DotDims ⟨2, ![m, k]⟩ ⟨2, ![k, n]⟩ ⟨2, ![m, n]⟩) k rfl rfl c
  have el : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact hc
  have er : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact hc
    | ⟨1, _⟩ => simp [DotDims.rhsIdx]; rfl
  rw [el, er]

/-- A sum along the columns of an a×b matrix, read at a row: the sum over the columns of the row's entries. -/
theorem rowsum_apply {a b : Nat} (src : FVec Ideal ⟨2, ![a, b]⟩ .f32) (acc : BitVec FTy.f32.bits)
    (h : (⟨2, ![a, b]⟩ : Shape).Reduces [1] ⟨1, ![a]⟩) (hφ : FKind.Formats .f32)
    (hacc : acc = FKind.add.neutral .f32 hφ) (p : Fin a) :
    multiReduction (F := Ideal) .add [1] ⟨1, ![a]⟩ src acc h hφ hacc (ix1 p) = ∑ c : Fin b, src (ix2 p c) := by
  refine (Ideal.multiReduction_add_single src acc h hφ hacc (ix1 p)).trans ?_
  refine Finset.sum_congr rfl fun c _ => congrArg src ?_
  funext ax; apply Fin.ext
  match ax with
  | ⟨0, _⟩ => rfl
  | ⟨1, _⟩ => rfl

/-- A length-a vector viewed as an a×1 column, read at an entry. -/
theorem colcast_apply {α : Type} {a : Nat} (v : (⟨1, ![a]⟩ : Shape).Idx → α)
    (h : (⟨1, ![a]⟩ : Shape).ShapeCasts ⟨2, ![a, 1]⟩) (p : Fin a) (q : Fin 1) :
    shapeCast ⟨2, ![a, 1]⟩ v h (ix2 p q) = v (ix1 p) :=
  shapeCast_apply v h _ _ (by
    have hq : q.val = 0 := by omega
    rw [Shape.rowMajor_val_two, Shape.rowMajor_val_one]
    show p.val = p.val * 1 + q.val
    rw [hq, Nat.mul_one, Nat.add_zero])

/-- An a×1 column broadcast along the rows of an a×b matrix, read at an entry. -/
theorem colbcast_apply {α : Type} {a b : Nat} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The kernel's four products and its lane sum, each read at an entry -/

theorem mm_x (A : FVec Ideal S16000x64 .bf16) (B : FVec Ideal S64x128 .bf16) (p : Fin 16000) (j : Fin 128) :
    matmul dot_S16000x64_S64x128_S16000x128_1_0_0_1_n_n none A B (constant (F := Ideal) S16000x128 .f32 0x00000000#32) (ix2 p j)
      = ∑ c : Fin 64, A (ix2 p c) * B (ix2 c j) :=
  matmul0_apply Facts₀.dot_S16000x64_S64x128_S16000x128_1_0_0_1_n_n_wf none A B p j

theorem mm_e (A : FVec Ideal S16000x32 .bf16) (B : FVec Ideal S32x128 .bf16) (p : Fin 16000) (j : Fin 128) :
    matmul dot_S16000x32_S32x128_S16000x128_1_0_0_1_n_n none A B (constant (F := Ideal) S16000x128 .f32 0x00000000#32) (ix2 p j)
      = ∑ c : Fin 32, A (ix2 p c) * B (ix2 c j) :=
  matmul0_apply Facts₀.dot_S16000x32_S32x128_S16000x128_1_0_0_1_n_n_wf none A B p j

theorem mm_1 (A : FVec Ideal S16000x128 .bf16) (B : FVec Ideal S128x128 .bf16) (p : Fin 16000) (j : Fin 128) :
    matmul dot_S16000x128_S128x128_S16000x128_1_0_0_1_n_n none A B (constant (F := Ideal) S16000x128 .f32 0x00000000#32) (ix2 p j)
      = ∑ c : Fin 128, A (ix2 p c) * B (ix2 c j) :=
  matmul0_apply Facts₀.dot_S16000x128_S128x128_S16000x128_1_0_0_1_n_n_wf none A B p j

theorem mm_2 (A : FVec Ideal S16000x128 .bf16) (B : FVec Ideal S128x64 .bf16) (p : Fin 16000) (j : Fin 64) :
    matmul dot_S16000x128_S128x64_S16000x64_1_0_0_1_n_n none A B (constant (F := Ideal) S16000x64 .f32 0x00000000#32) (ix2 p j)
      = ∑ c : Fin 128, A (ix2 p c) * B (ix2 c j) :=
  matmul0_apply Facts₀.dot_S16000x128_S128x64_S16000x64_1_0_0_1_n_n_wf none A B p j

/-- The kernel's lane sum over the 64 columns of a block, read at a row. -/
theorem rowsum64 (v : FVec Ideal S16000x64 .f32) (p : Fin 16000) :
    multiReduction (F := Ideal) .add [1] S16000 v 0x00000000#32 reduces_S16000x64_S16000 (.inl rfl) rfl (ix1 p)
      = ∑ c : Fin 64, v (ix2 p c) :=
  rowsum_apply v _ _ _ _ p

end Edge

open Edge

/-- What one grid point stores, at row `p` and column `j` of its block. -/
theorem edge_payload_apply (x0 : Vec Ideal S16000x64 .f32) (x1 : Vec Ideal S16000x32 .f32) (x2 : Vec Ideal S64x128 .bf16)
    (x3 : Vec Ideal S32x128 .bf16) (x4 : Vec Ideal S1x128 .f32) (x5 : Vec Ideal S128x128 .bf16) (x6 : Vec Ideal S1x128 .f32)
    (x7 : Vec Ideal S128x64 .bf16) (x8 x9 x10 : Vec Ideal S1x64 .f32) (p : Fin 16000) (j : Fin 64) :
    k0_pay1 (F := Ideal) (k0_pay2 x0 x1 x2 x3 x4 x5 x6) x7 x8 x9 x10 (ix2 p j)
      = Cert.Spec.mlpRow (fun k => x0 (ix2 p k)) (fun k => x1 (ix2 p k)) (fun k j => x2 (ix2 k j)) (fun k j => x3 (ix2 k j))
          (fun j => x4 (ix2 0 j)) (fun k j => x5 (ix2 k j)) (fun j => x6 (ix2 0 j)) (fun k j => x7 (ix2 k j))
          (fun j => x8 (ix2 0 j)) (fun j => x9 (ix2 0 j)) (fun j => x10 (ix2 0 j)) j := by
  unfold k0_pay1 k0_pay2
  -- every operation but the lane sums, read at the index; a lane sum's own argument is opened once it is a sum
  simp only [shapeCast_self, rect_apply, addf_apply, mulf_apply, subf_apply, truncf_apply, broadcast_apply, rsqrt_apply,
    broadcastTo_1b_ab_apply, colbcast_apply, colcast_apply, mm_x, mm_e, mm_1, mm_2]
  rw [rowsum64]
  simp only [shapeCast_self, rect_apply, addf_apply, mulf_apply, subf_apply, truncf_apply, broadcast_apply, rsqrt_apply,
    broadcastTo_1b_ab_apply, colbcast_apply, colcast_apply, mm_x, mm_e, mm_1, mm_2]
  rw [rowsum64]
  simp only [shapeCast_self, rect_apply, addf_apply, mulf_apply, subf_apply, truncf_apply, broadcast_apply, rsqrt_apply,
    broadcastTo_1b_ab_apply, colbcast_apply, colcast_apply, mm_x, mm_e, mm_1, mm_2]
  rw [rowsum64]
  simp only [shapeCast_self, rect_apply, addf_apply, mulf_apply, subf_apply, truncf_apply, broadcast_apply, rsqrt_apply,
    broadcastTo_1b_ab_apply, colbcast_apply, colcast_apply, mm_x, mm_e, mm_1, mm_2]
  -- both sides are now the same nest of sums, the literals as their words
  rfl

namespace Edge

/-! ## From the blocks to the array -/

theorem zero2 : (![0, 0] : Fin 2 → Nat) = fun _ => 0 := funext fun a => by fin_cases a <;> rfl

/-- What the body leaves in the output's staging buffer, at row `p` and column `j`, over blocks of the literal types. -/
theorem out_apply (x0 : Vec Ideal S16000x64 .f32) (x1 : Vec Ideal S16000x32 .f32) (x2 : Vec Ideal S64x128 .bf16)
    (x3 : Vec Ideal S32x128 .bf16) (x4 : Vec Ideal S1x128 .f32) (x5 : Vec Ideal S128x128 .bf16) (x6 : Vec Ideal S1x128 .f32)
    (x7 : Vec Ideal S128x64 .bf16) (x8 x9 x10 : Vec Ideal S1x64 .f32) (p : Fin 16000) (j : Fin 64) :
    out0_11 (F := Ideal) x0 x1 x2 x3 x4 x5 x6 x7 x8 x9 x10 (ix2 p j)
      = Cert.Spec.mlpRow (fun k => x0 (ix2 p k)) (fun k => x1 (ix2 p k)) (fun k j => x2 (ix2 k j)) (fun k j => x3 (ix2 k j))
          (fun j => x4 (ix2 0 j)) (fun k j => x5 (ix2 k j)) (fun j => x6 (ix2 0 j)) (fun k j => x7 (ix2 k j))
          (fun j => x8 (ix2 0 j)) (fun j => x9 (ix2 0 j)) (fun j => x10 (ix2 0 j)) j := by
  unfold out0_11
  rw [View.canon_unit_zero zero2]
  simp only [View.ld_unit_zero (S := S16000x64) zero2, View.ld_unit_zero (S := S16000x32) zero2,
    View.ld_unit_zero (S := S64x128) zero2, View.ld_unit_zero (S := S32x128) zero2, View.ld_unit_zero (S := S1x128) zero2,
    View.ld_unit_zero (S := S128x128) zero2, View.ld_unit_zero (S := S128x64) zero2, View.ld_unit_zero (S := S1x64) zero2]
  exact edge_payload_apply x0 x1 x2 x3 x4 x5 x6 x7 x8 x9 x10 p j

/-- The printed index maps over the grid: the two row windows and the output move with the point along the rows, the
    weight windows stay at their one block. -/
theorem grid_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = t.val ∧ win0_11.index t (1 : Fin 2) = 0 :=
  (by decide +kernel : ∀ t : Fin grid0.N, _)

/-! ### The windows' blocks and arrays, at their literal types -/

abbrev blkX (c : Dev nD) (t : Fin cfg0.N) : Vec Ideal S16000x64 .f32 := iblk0 V c 0 t
abbrev blkE (c : Dev nD) (t : Fin cfg0.N) : Vec Ideal S16000x32 .f32 := iblk0 V c 1 t
abbrev blkW0x (c : Dev nD) (t : Fin cfg0.N) : Vec Ideal S64x128 .bf16 := iblk0 V c 2 t
abbrev blkW0e (c : Dev nD) (t : Fin cfg0.N) : Vec Ideal S32x128 .bf16 := iblk0 V c 3 t
abbrev blkB0 (c : Dev nD) (t : Fin cfg0.N) : Vec Ideal S1x128 .f32 := iblk0 V c 4 t
abbrev blkW1 (c : Dev nD) (t : Fin cfg0.N) : Vec Ideal S128x128 .bf16 := iblk0 V c 5 t
abbrev blkB1 (c : Dev nD) (t : Fin cfg0.N) : Vec Ideal S1x128 .f32 := iblk0 V c 6 t
abbrev blkW2 (c : Dev nD) (t : Fin cfg0.N) : Vec Ideal S128x64 .bf16 := iblk0 V c 7 t
abbrev blkB2 (c : Dev nD) (t : Fin cfg0.N) : Vec Ideal S1x64 .f32 := iblk0 V c 8 t
abbrev blkG (c : Dev nD) (t : Fin cfg0.N) : Vec Ideal S1x64 .f32 := iblk0 V c 9 t
abbrev blkBn (c : Dev nD) (t : Fin cfg0.N) : Vec Ideal S1x64 .f32 := iblk0 V c 10 t

abbrev arrX (c : Dev nD) : Cert.Spec.A2 800000 64 := V c main_v4
abbrev arrE (c : Dev nD) : Cert.Spec.A2 800000 32 := V c main_arg2
abbrev arrW0x (c : Dev nD) : Cert.Spec.A2 64 128 := V c main_v6
abbrev arrW0e (c : Dev nD) : Cert.Spec.A2 32 128 := V c main_v8
abbrev arrB0 (c : Dev nD) : Cert.Spec.A2 1 128 := V c main_v11
abbrev arrW1 (c : Dev nD) : Cert.Spec.A2 128 128 := V c main_v9
abbrev arrB1 (c : Dev nD) : Cert.Spec.A2 1 128 := V c main_v12
abbrev arrW2 (c : Dev nD) : Cert.Spec.A2 128 64 := V c main_v10
abbrev arrB2 (c : Dev nD) : Cert.Spec.A2 1 64 := V c main_v13
abbrev arrG (c : Dev nD) : Cert.Spec.A2 1 64 := V c main_v14
abbrev arrBn (c : Dev nD) : Cert.Spec.A2 1 64 := V c main_v15

/-! ### Each block read where it lies in its array

An entry of a block sits in the array, on each axis, at the block's index times the block's extent plus its own
coordinate. -/

/-- Row `p` of the gathered-rows block at point `t` is row `16000·t + p` of the array. -/
theorem blkX_apply (c : Dev nD) (t : Fin cfg0.N) (p : Fin 16000) (k : Fin 64) (r : Fin 800000)
    (hr : r.val = 16000 * t.val + p.val) : blkX V c t (ix2 p k) = arrX V c (ix2 r k) := by
  obtain ⟨e0, e1, -⟩ := grid_facts t
  show V c main_v4 (((cfg0.win 0).blk t).view.emb (ix2 p k)) = V c main_v4 (ix2 r k)
  refine congrArg (V c main_v4) (funext fun a => Fin.ext ?_)
  match a with
  | ⟨0, _⟩ => show win0_0.index t (0 : Fin 2) * 16000 + 1 * p.val = r.val; rw [e0, hr]; omega
  | ⟨1, _⟩ => show win0_0.index t (1 : Fin 2) * 64 + 1 * k.val = k.val; rw [e1]; omega

/-- Row `p` of the edge-features block at point `t` is row `16000·t + p` of the array. -/
theorem blkE_apply (c : Dev nD) (t : Fin cfg0.N) (p : Fin 16000) (k : Fin 32) (r : Fin 800000)
    (hr : r.val = 16000 * t.val + p.val) : blkE V c t (ix2 p k) = arrE V c (ix2 r k) := by
  obtain ⟨-, -, e0, e1, -⟩ := grid_facts t
  show V c main_arg2 (((cfg0.win 1).blk t).view.emb (ix2 p k)) = V c main_arg2 (ix2 r k)
  refine congrArg (V c main_arg2) (funext fun a => Fin.ext ?_)
  match a with
  | ⟨0, _⟩ => show win0_1.index t (0 : Fin 2) * 16000 + 1 * p.val = r.val; rw [e0, hr]; omega
  | ⟨1, _⟩ => show win0_1.index t (1 : Fin 2) * 32 + 1 * k.val = k.val; rw [e1]; omega

/-- The first weight band's window stays at its one block, which is its whole array. -/
theorem blkW0x_eq (c : Dev nD) (t : Fin cfg0.N) : blkW0x V c t = arrW0x V c := by
  obtain ⟨-, -, -, -, e0, e1, -⟩ := grid_facts t
  funext y
  show V c main_v6 (((cfg0.win 2).blk t).view.emb y) = V c main_v6 y
  refine congrArg (V c main_v6) (funext fun a => Fin.ext ?_)
  match a with
  | ⟨0, _⟩ => show win0_2.index t (0 : Fin 2) * 64 + 1 * (y 0).val = (y 0).val; rw [e0]; omega
  | ⟨1, _⟩ => show win0_2.index t (1 : Fin 2) * 128 + 1 * (y 1).val = (y 1).val; rw [e1]; omega

/-- So does the second band's, -/
theorem blkW0e_eq (c : Dev nD) (t : Fin cfg0.N) : blkW0e V c t = arrW0e V c := by
  obtain ⟨-, -, -, -, -, -, e0, e1, -⟩ := grid_facts t
  funext y
  show V c main_v8 (((cfg0.win 3).blk t).view.emb y) = V c main_v8 y
  refine congrArg (V c main_v8) (funext fun a => Fin.ext ?_)
  match a with
  | ⟨0, _⟩ => show win0_3.index t (0 : Fin 2) * 32 + 1 * (y 0).val = (y 0).val; rw [e0]; omega
  | ⟨1, _⟩ => show win0_3.index t (1 : Fin 2) * 128 + 1 * (y 1).val = (y 1).val; rw [e1]; omega

/-- the first bias's, -/
theorem blkB0_eq (c : Dev nD) (t : Fin cfg0.N) : blkB0 V c t = arrB0 V c := by
  obtain ⟨-, -, -, -, -, -, -, -, e0, e1, -⟩ := grid_facts t
  funext y
  show V c main_v11 (((cfg0.win 4).blk t).view.emb y) = V c main_v11 y
  refine congrArg (V c main_v11) (funext fun a => Fin.ext ?_)
  match a with
  | ⟨0, _⟩ => show win0_4.index t (0 : Fin 2) * 1 + 1 * (y 0).val = (y 0).val; rw [e0]; omega
  | ⟨1, _⟩ => show win0_4.index t (1 : Fin 2) * 128 + 1 * (y 1).val = (y 1).val; rw [e1]; omega

/-- the second weight matrix's, -/
theorem blkW1_eq (c : Dev nD) (t : Fin cfg0.N) : blkW1 V c t = arrW1 V c := by
  obtain ⟨-, -, -, -, -, -, -, -, -, -, e0, e1, -⟩ := grid_facts t
  funext y
  show V c main_v9 (((cfg0.win 5).blk t).view.emb y) = V c main_v9 y
  refine congrArg (V c main_v9) (funext fun a => Fin.ext ?_)
  match a with
  | ⟨0, _⟩ => show win0_5.index t (0 : Fin 2) * 128 + 1 * (y 0).val = (y 0).val; rw [e0]; omega
  | ⟨1, _⟩ => show win0_5.index t (1 : Fin 2) * 128 + 1 * (y 1).val = (y 1).val; rw [e1]; omega

/-- the second bias's, -/
theorem blkB1_eq (c : Dev nD) (t : Fin cfg0.N) : blkB1 V c t = arrB1 V c := by
  obtain ⟨-, -, -, -, -, -, -, -, -, -, -, -, e0, e1, -⟩ := grid_facts t
  funext y
  show V c main_v12 (((cfg0.win 6).blk t).view.emb y) = V c main_v12 y
  refine congrArg (V c main_v12) (funext fun a => Fin.ext ?_)
  match a with
  | ⟨0, _⟩ => show win0_6.index t (0 : Fin 2) * 1 + 1 * (y 0).val = (y 0).val; rw [e0]; omega
  | ⟨1, _⟩ => show win0_6.index t (1 : Fin 2) * 128 + 1 * (y 1).val = (y 1).val; rw [e1]; omega

/-- the third weight matrix's, -/
theorem blkW2_eq (c : Dev nD) (t : Fin cfg0.N) : blkW2 V c t = arrW2 V c := by
  obtain ⟨-, -, -, -, -, -, -, -, -, -, -, -, -, -, e0, e1, -⟩ := grid_facts t
  funext y
  show V c main_v10 (((cfg0.win 7).blk t).view.emb y) = V c main_v10 y
  refine congrArg (V c main_v10) (funext fun a => Fin.ext ?_)
  match a with
  | ⟨0, _⟩ => show win0_7.index t (0 : Fin 2) * 128 + 1 * (y 0).val = (y 0).val; rw [e0]; omega
  | ⟨1, _⟩ => show win0_7.index t (1 : Fin 2) * 64 + 1 * (y 1).val = (y 1).val; rw [e1]; omega

/-- the third bias's, -/
theorem blkB2_eq (c : Dev nD) (t : Fin cfg0.N) : blkB2 V c t = arrB2 V c := by
  obtain ⟨-, -, -, -, -, -, -, -, -, -, -, -, -, -, -, -, e0, e1, -⟩ := grid_facts t
  funext y
  show V c main_v13 (((cfg0.win 8).blk t).view.emb y) = V c main_v13 y
  refine congrArg (V c main_v13) (funext fun a => Fin.ext ?_)
  match a with
  | ⟨0, _⟩ => show win0_8.index t (0 : Fin 2) * 1 + 1 * (y 0).val = (y 0).val; rw [e0]; omega
  | ⟨1, _⟩ => show win0_8.index t (1 : Fin 2) * 64 + 1 * (y 1).val = (y 1).val; rw [e1]; omega

/-- the normalisation's scale's, -/
theorem blkG_eq (c : Dev nD) (t : Fin cfg0.N) : blkG V c t = arrG V c := by
  obtain ⟨-, -, -, -, -, -, -, -, -, -, -, -, -, -, -, -, -, -, e0, e1, -⟩ := grid_facts t
  funext y
  show V c main_v14 (((cfg0.win 9).blk t).view.emb y) = V c main_v14 y
  refine congrArg (V c main_v14) (funext fun a => Fin.ext ?_)
  match a with
  | ⟨0, _⟩ => show win0_9.index t (0 : Fin 2) * 1 + 1 * (y 0).val = (y 0).val; rw [e0]; omega
  | ⟨1, _⟩ => show win0_9.index t (1 : Fin 2) * 64 + 1 * (y 1).val = (y 1).val; rw [e1]; omega

/-- and the normalisation's shift's. -/
theorem blkBn_eq (c : Dev nD) (t : Fin cfg0.N) : blkBn V c t = arrBn V c := by
  obtain ⟨-, -, -, -, -, -, -, -, -, -, -, -, -, -, -, -, -, -, -, -, e0, e1, -⟩ := grid_facts t
  funext y
  show V c main_v15 (((cfg0.win 10).blk t).view.emb y) = V c main_v15 y
  refine congrArg (V c main_v15) (funext fun a => Fin.ext ?_)
  match a with
  | ⟨0, _⟩ => show win0_10.index t (0 : Fin 2) * 1 + 1 * (y 0).val = (y 0).val; rw [e0]; omega
  | ⟨1, _⟩ => show win0_10.index t (1 : Fin 2) * 64 + 1 * (y 1).val = (y 1).val; rw [e1]; omega

/-! ### What a point writes back, the cover -/

/-- WHAT POINT `t` WRITES BACK is block `t` of the whole-array function: row `p` of the block is row `16000·t + p`. -/
theorem flushed_eq (c : Dev nD) (t : Fin cfg0.N) :
    (dat0 (F := Ideal) V c).flushed 11 t = ((cfg0.win 11).blk t).view.read (Elt Ideal)
      (Cert.Spec.edgeArr (arrX V c) (arrE V c) (arrW0x V c) (arrW0e V c) (arrB0 V c) (arrW1 V c) (arrB1 V c) (arrW2 V c)
        (arrB2 V c) (arrG V c) (arrBn V c)) := by
  show (cfg0.win 11).cut (grid0.coords t) ((dat0 V c).after 11 t) = _
  rw [after0_11]
  refine funext fun (y : S16000x64.Idx) => ?_
  obtain ⟨p, q, rfl⟩ : ∃ (p : Fin 16000) (q : Fin 64), y = ix2 p q := ⟨y 0, y 1, eq_ix2 y⟩
  obtain ⟨-, -, -, -, -, -, -, -, -, -, -, -, -, -, -, -, -, -, -, -, -, -, e0, e1⟩ := grid_facts t
  have hN : cfg0.N = 50 := N_0
  have ht : t.val < 50 := lt_of_lt_of_eq t.isLt hN
  -- the row of the array under row `p` of the block
  have hr : 16000 * t.val + p.val < 800000 := by have := p.isLt; omega
  show out0_11 (F := Ideal) (blkX V c t) (blkE V c t) (blkW0x V c t) (blkW0e V c t) (blkB0 V c t) (blkW1 V c t) (blkB1 V c t)
      (blkW2 V c t) (blkB2 V c t) (blkG V c t) (blkBn V c t) (ix2 p q)
    = Cert.Spec.edgeArr (arrX V c) (arrE V c) (arrW0x V c) (arrW0e V c) (arrB0 V c) (arrW1 V c) (arrB1 V c) (arrW2 V c)
        (arrB2 V c) (arrG V c) (arrBn V c) (((cfg0.win 11).blk t).view.emb (ix2 p q))
  refine (out_apply (blkX V c t) (blkE V c t) (blkW0x V c t) (blkW0e V c t) (blkB0 V c t) (blkW1 V c t) (blkB1 V c t)
      (blkW2 V c t) (blkB2 V c t) (blkG V c t) (blkBn V c t) p q).trans ?_
  rw [blkW0x_eq, blkW0e_eq, blkB0_eq, blkW1_eq, blkB1_eq, blkW2_eq, blkB2_eq, blkG_eq, blkBn_eq]
  have hx : (fun k => blkX V c t (ix2 p k)) = fun k => arrX V c (ix2 (⟨16000 * t.val + p.val, hr⟩ : Fin 800000) k) :=
    funext fun k => blkX_apply V c t p k _ rfl
  have he : (fun k => blkE V c t (ix2 p k)) = fun k => arrE V c (ix2 (⟨16000 * t.val + p.val, hr⟩ : Fin 800000) k) :=
    funext fun k => blkE_apply V c t p k _ rfl
  rw [hx, he]
  unfold Cert.Spec.edgeArr
  -- the array index under `(p, q)` of the block: row `16000·t + p`, column `q`
  have h0 : (⟨((((cfg0.win 11).blk t).view.emb (ix2 p q) : S800000x64.Idx) 0).val, idx2_lt0 _⟩ : Fin 800000)
      = ⟨16000 * t.val + p.val, hr⟩ := Fin.ext (by
    show win0_11.index t (0 : Fin 2) * 16000 + 1 * p.val = 16000 * t.val + p.val
    rw [e0]; omega)
  have h1 : (⟨((((cfg0.win 11).blk t).view.emb (ix2 p q) : S800000x64.Idx) 1).val, idx2_lt1 _⟩ : Fin 64) = q := Fin.ext (by
    show win0_11.index t (1 : Fin 2) * 64 + 1 * q.val = q.val
    rw [e1]; omega)
  show _ = Cert.Spec.mlpRow _ _ _ _ _ _ _ _ _ _ _ _
  rw [h0, h1]

/-- An index of the array is in point `t`'s block iff each coordinate is in the block's range on its axis. -/
theorem mem_blk (t : Fin cfg0.N) (i : S800000x64.Idx) :
    i ∈ ((cfg0.win 11).blk t).view.set ↔ ∀ a : Fin 2, win0_11.index t a * S16000x64.size a ≤ (i a).val
      ∧ (i a).val < win0_11.index t a * S16000x64.size a + S16000x64.size a := by
  show i ∈ ((View.whole main_v16).slice (win0_11.rect t)).set ↔ _
  rw [View.set_slice_whole, Rect.mem_set_unit]
  exact Iff.rfl

/-- Row `r` of the array is in the block of point `r / 16000`: the fifty blocks cover the array. -/
theorem cover (i : S800000x64.Idx) :
    ∃ t : Fin cfg0.N, (cfg0.win 11).flush t = true ∧ i ∈ ((cfg0.win 11).blk t).view.set := by
  have hi0 : (i 0).val < 800000 := idx2_lt0 i
  have hi1 : (i 1).val < 64 := idx2_lt1 i
  have hN : cfg0.N = 50 := N_0
  obtain ⟨t, ht⟩ : ∃ t : Fin cfg0.N, t.val = (i 0).val / 16000 := ⟨⟨(i 0).val / 16000, by omega⟩, rfl⟩
  obtain ⟨-, -, -, -, -, -, -, -, -, -, -, -, -, -, -, -, -, -, -, -, -, -, e0, e1⟩ := grid_facts t
  refine ⟨t, flush0_11 t, ?_⟩
  rw [mem_blk]
  intro a
  match a with
  | ⟨0, _⟩ =>
    show win0_11.index t (0 : Fin 2) * 16000 ≤ (i 0).val ∧ (i 0).val < win0_11.index t (0 : Fin 2) * 16000 + 16000
    rw [e0, ht]; omega
  | ⟨1, _⟩ =>
    show win0_11.index t (1 : Fin 2) * 64 ≤ (i 1).val ∧ (i 1).val < win0_11.index t (1 : Fin 2) * 64 + 64
    rw [e1]; omega

end Edge

/-- The output array of region 0 after the run, whatever contents `V` the region is entered at. -/
theorem region0 (c : Dev nD) :
    (dat0 (F := Ideal) V c).arrAt 11 cfg0.N
      = Cert.Spec.edgeArr (V c main_v4) (V c main_arg2) (V c main_v6) (V c main_v8) (V c main_v11) (V c main_v9)
          (V c main_v12) (V c main_v10) (V c main_v13) (V c main_v14) (V c main_v15) := by
  -- every point writes back its block of one whole-array function, and the blocks cover the array
  exact (dat0 V c).arrAt_eq_of_cover 11 _ (fun t _ => flushed_eq V c t) cover

end Cert.KernelIdeal.KV

end
-- ==== Proof.KReg1.lean ====
/-
  The per-node kernel's output array after its grid has run: point `t` of the five writes rows
  `10000·t … 10000·t + 9999`, and what it writes at a row is `Spec.mlpRow` of that row of the node features
  and of the segment sum divided by `max(count, 1)`. The blocks tile the array, so the array is
  `Spec.nodeArr` of the arrays the windows stage.
-/
import proofs.«410253_j10892037063287_2_alg».proof.Proof.Gen.KernelIdeal.Frame
import proofs.«410253_j10892037063287_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KV

open Cert.KernelIdeal Cert.KernelIdeal.Gen
open Idealize.ShloMosaic Idealize.ShloMosaic.TcCoe Idealize.ShloMosaic.ValueIdx Idealize.SL.Sem
open scoped BigOperators

variable (V : (c : Dev nD) → (b : Ref sig .tc) → Buf (Elt Ideal) ((c : Thread nD τ).loc b))

namespace Node

/-! ### Layout operations of the body, read at `ix2 p c` -/

/-- A one-column block broadcast along its rows reads column `0` of the row. -/
theorem bcast_col {b : ℕ} (v : (⟨2, ![10000, 1]⟩ : Shape).Idx → EReal) (h : (⟨2, ![10000, 1]⟩ : Shape).Broadcasts ⟨2, ![10000, b]⟩)
    (p : Fin 10000) (c : Fin b) : broadcastTo ⟨2, ![10000, b]⟩ v h (ix2 p c) = v (ix2 p (0 : Fin 1)) := by
  refine broadcastTo_apply v h (ix2 p c) (ix2 p (0 : Fin 1)) fun ax => ?_
  match ax with
  | ⟨0, _⟩ =>
    show p.val = if (10000 : ℕ) = 1 then 0 else p.val
    rw [if_neg (by decide)]
  | ⟨1, _⟩ => rfl

/-- A vector of row values viewed as one column reads the row's value. -/
theorem cast_col (u : (⟨1, ![10000]⟩ : Shape).Idx → EReal) (h : (⟨1, ![10000]⟩ : Shape).ShapeCasts ⟨2, ![10000, 1]⟩)
    (p : Fin 10000) (z : Fin 1) : shapeCast ⟨2, ![10000, 1]⟩ u h (ix2 p z) = u (ix1 p) :=
  shapeCast_apply u h _ _ (by
    have hz : z.val = 0 := by omega
    rw [Shape.rowMajor_val_two, Shape.rowMajor_val_one]
    show p.val = p.val * 1 + z.val
    rw [hz, Nat.mul_one, Nat.add_zero])

/-- The sum along the lanes of a row. -/
theorem lane_sum (v : FVec Ideal S10000x64 .f32) (h : S10000x64.Reduces [1] S10000) (p : Fin 10000) :
    Ideal.reduceAdd h v (ix1 p) = ∑ k : Fin 64, v (ix2 p k) := by
  refine (Ideal.reduceAdd_single h v (ix1 p)).trans ?_
  refine Finset.sum_congr rfl fun k _ => congrArg v ?_
  funext a
  match a with
  | ⟨0, _⟩ => rfl
  | ⟨1, _⟩ => rfl

/-- The reciprocal square root is taken entry by entry. -/
theorem rsqrt_apply {s : Shape} {φ : FTy} (a : FVec Ideal s φ) (i : s.Idx) : rsqrt a i = Ideal.rsqrt (a i) := rfl

/-! ### The three matrix products: the operand indices at an output index and a contracted coordinate -/

theorem lhs_in_0 (i : S10000x128.Idx) (q : dot_S10000x64_S64x128_S10000x128_1_0_0_1_n_n.contr.Idx) :
    (dot_S10000x64_S64x128_S10000x128_1_0_0_1_n_n.lhsIdx i q 0).val = (i 0).val := by
  unfold DotDims.lhsIdx
  rw [dif_neg (show ¬(0 : Fin S10000x64.rank) ∈ dot_S10000x64_S64x128_S10000x128_1_0_0_1_n_n.lhsBatch by decide),
    dif_pos (show (0 : Fin S10000x64.rank) ∈ dot_S10000x64_S64x128_S10000x128_1_0_0_1_n_n.lhsNonContracting by decide)]
  rfl
theorem lhs_in_1 (i : S10000x128.Idx) (q : dot_S10000x64_S64x128_S10000x128_1_0_0_1_n_n.contr.Idx) :
    (dot_S10000x64_S64x128_S10000x128_1_0_0_1_n_n.lhsIdx i q 1).val = (q ⟨0, by decide⟩).val :=
  dot_S10000x64_S64x128_S10000x128_1_0_0_1_n_n.lhsIdx_val_of_single rfl i q
theorem rhs_in_0 (i : S10000x128.Idx) (q : dot_S10000x64_S64x128_S10000x128_1_0_0_1_n_n.contr.Idx) :
    (dot_S10000x64_S64x128_S10000x128_1_0_0_1_n_n.rhsIdx i q 0).val = (q ⟨0, by decide⟩).val :=
  dot_S10000x64_S64x128_S10000x128_1_0_0_1_n_n.rhsIdx_val_of_single rfl i q
theorem rhs_in_1 (i : S10000x128.Idx) (q : dot_S10000x64_S64x128_S10000x128_1_0_0_1_n_n.contr.Idx) :
    (dot_S10000x64_S64x128_S10000x128_1_0_0_1_n_n.rhsIdx i q 1).val = (i 1).val := by
  unfold DotDims.rhsIdx
  rw [dif_neg (show ¬(1 : Fin S64x128.rank) ∈ dot_S10000x64_S64x128_S10000x128_1_0_0_1_n_n.rhsBatch by decide),
    dif_pos (show (1 : Fin S64x128.rank) ∈ dot_S10000x64_S64x128_S10000x128_1_0_0_1_n_n.rhsNonContracting by decide)]
  rfl

/-- A 64-deep product into the zero accumulator, at row `p` and column `j`: the sum over the contracted coordinate. -/
theorem mm_in (a : FVec Ideal S10000x64 .bf16) (w : FVec Ideal S64x128 .bf16) (p : Fin 10000) (j : Fin 128) :
    matmul dot_S10000x64_S64x128_S10000x128_1_0_0_1_n_n none a w (constant (F := Ideal) S10000x128 .f32 0x00000000#32) (ix2 p j)
      = ∑ k : Fin 64, a (ix2 p k) * w (ix2 k j) := by
  simp only [matmul]
  rw [Ideal.matmul_constant_zero_apply,
    ← Equiv.sum_comp (contrEquiv1 dot_S10000x64_S64x128_S10000x128_1_0_0_1_n_n 64 rfl rfl).symm]
  refine Finset.sum_congr rfl fun k _ => ?_
  have hk := contrEquiv1_symm_val dot_S10000x64_S64x128_S10000x128_1_0_0_1_n_n 64 rfl rfl k
  have el : dot_S10000x64_S64x128_S10000x128_1_0_0_1_n_n.lhsIdx (ix2 p j)
      ((contrEquiv1 dot_S10000x64_S64x128_S10000x128_1_0_0_1_n_n 64 rfl rfl).symm k) = ix2 p k :=
    funext fun ax => Fin.ext (by
      match ax with
      | ⟨0, _⟩ => exact lhs_in_0 _ _
      | ⟨1, _⟩ => exact (lhs_in_1 _ _).trans hk)
  have er : dot_S10000x64_S64x128_S10000x128_1_0_0_1_n_n.rhsIdx (ix2 p j)
      ((contrEquiv1 dot_S10000x64_S64x128_S10000x128_1_0_0_1_n_n 64 rfl rfl).symm k) = ix2 k j :=
    funext fun ax => Fin.ext (by
      match ax with
      | ⟨0, _⟩ => exact (rhs_in_0 _ _).trans hk
      | ⟨1, _⟩ => exact rhs_in_1 _ _)
  rw [el, er]

theorem lhs_mid_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide),
    dif_pos (show (0 : Fin S10000x128.rank) ∈ dot_S10000x128_S128x128_S10000x128_1_0_0_1_n_n.lhsNonContracting by decide)]
  rfl
theorem lhs_mid_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs_mid_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs_mid_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide),
    dif_pos (show (1 : Fin S128x128.rank) ∈ dot_S10000x128_S128x128_S10000x128_1_0_0_1_n_n.rhsNonContracting by decide)]
  rfl

/-- The 128-deep square product into the zero accumulator, at row `p` and column `j`. -/
theorem mm_mid (a : FVec Ideal S10000x128 .bf16) (w : FVec Ideal S128x128 .bf16) (p : Fin 10000) (j : Fin 128) :
    matmul dot_S10000x128_S128x128_S10000x128_1_0_0_1_n_n none a w (constant (F := Ideal) S10000x128 .f32 0x00000000#32) (ix2 p j)
      = ∑ k : Fin 128, a (ix2 p k) * w (ix2 k j) := by
  simp only [matmul]
  rw [Ideal.matmul_constant_zero_apply,
    ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p j)
      ((contrEquiv1 dot_S10000x128_S128x128_S10000x128_1_0_0_1_n_n 128 rfl rfl).symm k) = ix2 p k :=
    funext fun ax => Fin.ext (by
      match ax with
      | ⟨0, _⟩ => exact lhs_mid_0 _ _
      | ⟨1, _⟩ => exact (lhs_mid_1 _ _).trans hk)
  have er : dot_S10000x128_S128x128_S10000x128_1_0_0_1_n_n.rhsIdx (ix2 p j)
      ((contrEquiv1 dot_S10000x128_S128x128_S10000x128_1_0_0_1_n_n 128 rfl rfl).symm k) = ix2 k j :=
    funext fun ax => Fin.ext (by
      match ax with
      | ⟨0, _⟩ => exact (rhs_mid_0 _ _).trans hk
      | ⟨1, _⟩ => exact rhs_mid_1 _ _)
  rw [el, er]

theorem lhs_out_0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide),
    dif_pos (show (0 : Fin S10000x128.rank) ∈ dot_S10000x128_S128x64_S10000x64_1_0_0_1_n_n.lhsNonContracting by decide)]
  rfl
theorem lhs_out_1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
theorem rhs_out_0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
theorem rhs_out_1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide),
    dif_pos (show (1 : Fin S128x64.rank) ∈ dot_S10000x128_S128x64_S10000x64_1_0_0_1_n_n.rhsNonContracting by decide)]
  rfl

/-- The 128-deep product down to 64 columns, into the zero accumulator, at row `p` and column `j`. -/
theorem mm_out (a : FVec Ideal S10000x128 .bf16) (w : FVec Ideal S128x64 .bf16) (p : Fin 10000) (j : Fin 64) :
    matmul dot_S10000x128_S128x64_S10000x64_1_0_0_1_n_n none a w (constant (F := Ideal) S10000x64 .f32 0x00000000#32) (ix2 p j)
      = ∑ k : Fin 128, a (ix2 p k) * w (ix2 k j) := by
  simp only [matmul]
  rw [Ideal.matmul_constant_zero_apply,
    ← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx (ix2 p j)
      ((contrEquiv1 dot_S10000x128_S128x64_S10000x64_1_0_0_1_n_n 128 rfl rfl).symm k) = ix2 p k :=
    funext fun ax => Fin.ext (by
      match ax with
      | ⟨0, _⟩ => exact lhs_out_0 _ _
      | ⟨1, _⟩ => exact (lhs_out_1 _ _).trans hk)
  have er : dot_S10000x128_S128x64_S10000x64_1_0_0_1_n_n.rhsIdx (ix2 p j)
      ((contrEquiv1 dot_S10000x128_S128x64_S10000x64_1_0_0_1_n_n 128 rfl rfl).symm k) = ix2 k j :=
    funext fun ax => Fin.ext (by
      match ax with
      | ⟨0, _⟩ => exact (rhs_out_0 _ _).trans hk
      | ⟨1, _⟩ => exact rhs_out_1 _ _)
  rw [el, er]

/-! ### The body's stages over blocks, and each stage at row `p` -/

/-- The zero block the rectifier compares against. -/
def zeroB (s : Shape) : FVec Ideal s .f32 := broadcast s (Scalar.ofBits (F := Ideal) .f32 0x00000000#32)

/-- The leaky rectifier over a block as the body writes it: where `v ≥ z` keep `v`, elsewhere `0.01·v`. -/
def leaky {s : Shape} (v z : FVec Ideal s .f32) : FVec Ideal s .f32 :=
  select (cmpf .oge v z) v (mulf (broadcast s (Scalar.ofBits (F := Ideal) .f32 0x3C23D70A#32)) v)

theorem leaky_apply {s : Shape} (v : FVec Ideal s .f32) (i : s.Idx) : leaky v (zeroB s) i = Cert.Spec.lrelu (v i) := rfl

/-- The segment sum divided by `max(count, 1)`, the count's one column spread along the row. -/
def agg (x1 : FVec Ideal S10000x64 .f32) (x2 : FVec Ideal S10000x1 .f32) : FVec Ideal S10000x64 .f32 :=
  divf (shapeCast S10000x64 x1 shapeCasts_S10000x64_S10000x64)
    (broadcastTo S10000x64
      (maximumf (shapeCast S10000x1 x2 shapeCasts_S10000x1_S10000x1) (broadcast S10000x1 (Scalar.ofBits (F := Ideal) .f32 0x3F800000#32)))
      broadcasts_S10000x1_S10000x64)

theorem agg_apply (x1 : FVec Ideal S10000x64 .f32) (x2 : FVec Ideal S10000x1 .f32) (p : Fin 10000) (k : Fin 64) :
    agg x1 x2 (ix2 p k) = Ideal.div (x1 (ix2 p k)) (max (x2 (ix2 p 0)) Cert.Spec.oneW) := by
  unfold agg
  rw [divf_apply, bcast_col, shapeCast_self, maximumf_apply, shapeCast_self]
  rfl

/-- First layer before the rectifier: the two 64-deep products, added, plus the bias row. -/
def pre0 (x0 v8 : FVec Ideal S10000x64 .f32) (x3 x4 : FVec Ideal S64x128 .bf16) (x5 : FVec Ideal S1x128 .f32) : FVec Ideal S10000x128 .f32 :=
  addf
    (addf
      (matmul dot_S10000x64_S64x128_S10000x128_1_0_0_1_n_n none (truncf .bf16 x0 bitsLt_bf16_f32)
        (shapeCast S64x128 x3 shapeCasts_S64x128_S64x128) (constant S10000x128 .f32 0x00000000#32))
      (matmul dot_S10000x64_S64x128_S10000x128_1_0_0_1_n_n none (truncf .bf16 v8 bitsLt_bf16_f32)
        (shapeCast S64x128 x4 shapeCasts_S64x128_S64x128) (constant S10000x128 .f32 0x00000000#32)))
    (broadcastTo S10000x128 (shapeCast S1x128 x5 shapeCasts_S1x128_S1x128) broadcasts_S1x128_S10000x128)

theorem pre0_apply (x0 v8 : FVec Ideal S10000x64 .f32) (x3 x4 : FVec Ideal S64x128 .bf16) (x5 : FVec Ideal S1x128 .f32)
    (p : Fin 10000) (j : Fin 128) :
    pre0 x0 v8 x3 x4 x5 (ix2 p j)
      = ((∑ q : Fin 64, x0 (ix2 p q) * x3 (ix2 q j)) + (∑ q : Fin 64, v8 (ix2 p q) * x4 (ix2 q j))) + x5 (ix2 0 j) := by
  unfold pre0
  rw [addf_apply, addf_apply, mm_in, mm_in, broadcastTo_1b_ab_apply, shapeCast_self, shapeCast_self, shapeCast_self]
  rfl

/-- Second layer before the rectifier: the 128-deep product plus the bias row. -/
def pre1 (h : FVec Ideal S10000x128 .f32) (x6 : FVec Ideal S128x128 .bf16) (x7 : FVec Ideal S1x128 .f32) : FVec Ideal S10000x128 .f32 :=
  addf
    (matmul dot_S10000x128_S128x128_S10000x128_1_0_0_1_n_n none (truncf .bf16 h bitsLt_bf16_f32)
      (shapeCast S128x128 x6 shapeCasts_S128x128_S128x128) (constant S10000x128 .f32 0x00000000#32))
    (broadcastTo S10000x128 (shapeCast S1x128 x7 shapeCasts_S1x128_S1x128) broadcasts_S1x128_S10000x128)

theorem pre1_apply (h : FVec Ideal S10000x128 .f32) (x6 : FVec Ideal S128x128 .bf16) (x7 : FVec Ideal S1x128 .f32)
    (p : Fin 10000) (j : Fin 128) :
    pre1 h x6 x7 (ix2 p j) = (∑ k : Fin 128, h (ix2 p k) * x6 (ix2 k j)) + x7 (ix2 0 j) := by
  unfold pre1
  rw [addf_apply, mm_mid, broadcastTo_1b_ab_apply, shapeCast_self, shapeCast_self]
  rfl

/-- Third layer before the rectifier: the 128-deep product down to 64 columns plus the bias row. -/
def pre2 (h : FVec Ideal S10000x128 .f32) (x8 : FVec Ideal S128x64 .bf16) (x9 : FVec Ideal S1x64 .f32) : FVec Ideal S10000x64 .f32 :=
  addf
    (matmul dot_S10000x128_S128x64_S10000x64_1_0_0_1_n_n none (truncf .bf16 h bitsLt_bf16_f32)
      (shapeCast S128x64 x8 shapeCasts_S128x64_S128x64) (constant S10000x64 .f32 0x00000000#32))
    (broadcastTo S10000x64 (shapeCast S1x64 x9 shapeCasts_S1x64_S1x64) broadcasts_S1x64_S10000x64)

theorem pre2_apply (h : FVec Ideal S10000x128 .f32) (x8 : FVec Ideal S128x64 .bf16) (x9 : FVec Ideal S1x64 .f32)
    (p : Fin 10000) (j : Fin 64) :
    pre2 h x8 x9 (ix2 p j) = (∑ k : Fin 128, h (ix2 p k) * x8 (ix2 k j)) + x9 (ix2 0 j) := by
  unfold pre2
  rw [addf_apply, mm_out, broadcastTo_1b_ab_apply, shapeCast_self, shapeCast_self]
  rfl

/-- The normalisation of each row of a block: mean and variance as lane sums times `1/64`, spread back along the row. -/
def rowNorm (h : FVec Ideal S10000x64 .f32) (x10 x11 : FVec Ideal S1x64 .f32) : FVec Ideal S10000x64 .f32 :=
  let d : FVec Ideal S10000x64 .f32 :=
    subf h (broadcastTo S10000x64
      (mulf (shapeCast S10000x1 (multiReduction .add [1] S10000 h 0x00000000#32 reduces_S10000x64_S10000 (.inl rfl) rfl) shapeCasts_S10000_S10000x1)
        (broadcast S10000x1 (Scalar.ofBits (F := Ideal) .f32 0x3C800000#32)))
      broadcasts_S10000x1_S10000x64)
  let r : FVec Ideal S10000x1 .f32 :=
    rsqrt (addf
      (mulf (shapeCast S10000x1 (multiReduction .add [1] S10000 (mulf d d) 0x00000000#32 reduces_S10000x64_S10000 (.inl rfl) rfl) shapeCasts_S10000_S10000x1)
        (broadcast S10000x1 (Scalar.ofBits (F := Ideal) .f32 0x3C800000#32)))
      (broadcast S10000x1 (Scalar.ofBits (F := Ideal) .f32 0x3727C5AC#32)))
  addf
    (mulf (mulf d (broadcastTo S10000x64 r broadcasts_S10000x1_S10000x64))
      (broadcastTo S10000x64 (shapeCast S1x64 x10 shapeCasts_S1x64_S1x64) broadcasts_S1x64_S10000x64))
    (broadcastTo S10000x64 (shapeCast S1x64 x11 shapeCasts_S1x64_S1x64) broadcasts_S1x64_S10000x64)

theorem rowNorm_apply (h : FVec Ideal S10000x64 .f32) (x10 x11 : FVec Ideal S1x64 .f32) (p : Fin 10000) (j : Fin 64) :
    rowNorm h x10 x11 (ix2 p j)
      = Cert.Spec.ln64 (fun k => h (ix2 p k)) (fun j => x10 (ix2 0 j)) (fun j => x11 (ix2 0 j)) j := by
  unfold rowNorm
  simp only [multiReduction, Ideal.reduceAdd_def, addf_apply, mulf_apply, subf_apply, rsqrt_apply, bcast_col, cast_col, lane_sum, broadcast_apply,
    broadcastTo_1b_ab_apply, shapeCast_self]
  rfl

/-! ### The payload is the composition of the stages -/

theorem pay1_stages (x0 x1 : Vec Ideal S10000x64 .f32) (x2 : Vec Ideal S10000x1 .f32) (x3 x4 : Vec Ideal S64x128 .bf16)
    (x5 : Vec Ideal S1x128 .f32) (x6 : Vec Ideal S128x128 .bf16) (x7 : Vec Ideal S1x128 .f32) :
    k1_pay1 (F := Ideal) x0 x1 x2 x3 x4 x5 x6 x7
      = pre1 (leaky (pre0 x0 (agg x1 x2) x3 x4 x5) (zeroB S10000x128)) x6 x7 := rfl

theorem pay3_stages (v34 : FVec Ideal S10000x128 .f32) (x8 : Vec Ideal S128x64 .bf16) (x9 x10 x11 : Vec Ideal S1x64 .f32) :
    k1_pay3 (F := Ideal) v34 (k1_pay2 (F := Ideal)) x8 x9 x10 x11
      = rowNorm (leaky (pre2 (leaky v34 (zeroB S10000x128)) x8 x9) (zeroB S10000x64)) x10 x11 := rfl

/-! ### Each layer's row, as the specification's -/

theorem row0 (x0 x1 : FVec Ideal S10000x64 .f32) (x2 : FVec Ideal S10000x1 .f32) (x3 x4 : FVec Ideal S64x128 .bf16)
    (x5 : FVec Ideal S1x128 .f32) (p : Fin 10000) :
    (fun k => leaky (pre0 x0 (agg x1 x2) x3 x4 x5) (zeroB S10000x128) (ix2 p k))
      = Cert.Spec.layer0 (fun k => x0 (ix2 p k)) (fun k => Ideal.div (x1 (ix2 p k)) (max (x2 (ix2 p 0)) Cert.Spec.oneW))
          (fun k j => x3 (ix2 k j)) (fun k j => x4 (ix2 k j)) (fun j => x5 (ix2 0 j)) := by
  funext k
  rw [leaky_apply, pre0_apply]
  simp only [agg_apply]
  rfl

theorem row1 (h : FVec Ideal S10000x128 .f32) (x6 : FVec Ideal S128x128 .bf16) (x7 : FVec Ideal S1x128 .f32) (p : Fin 10000) :
    (fun k => leaky (pre1 h x6 x7) (zeroB S10000x128) (ix2 p k))
      = Cert.Spec.layer (fun k => h (ix2 p k)) (fun k j => x6 (ix2 k j)) (fun j => x7 (ix2 0 j)) := by
  funext k
  rw [leaky_apply, pre1_apply]
  rfl

theorem row2 (h : FVec Ideal S10000x128 .f32) (x8 : FVec Ideal S128x64 .bf16) (x9 : FVec Ideal S1x64 .f32) (p : Fin 10000) :
    (fun k => leaky (pre2 h x8 x9) (zeroB S10000x64) (ix2 p k))
      = Cert.Spec.layer (fun k => h (ix2 p k)) (fun k j => x8 (ix2 k j)) (fun j => x9 (ix2 0 j)) := by
  funext k
  rw [leaky_apply, pre2_apply]
  rfl

end Node

/-- What one grid point stores, at row `p` and column `j` of its block. -/
theorem node_payload_apply (x0 x1 : Vec Ideal S10000x64 .f32) (x2 : Vec Ideal S10000x1 .f32) (x3 x4 : Vec Ideal S64x128 .bf16)
    (x5 : Vec Ideal S1x128 .f32) (x6 : Vec Ideal S128x128 .bf16) (x7 : Vec Ideal S1x128 .f32)
    (x8 : Vec Ideal S128x64 .bf16) (x9 x10 x11 : Vec Ideal S1x64 .f32) (p : Fin 10000) (j : Fin 64) :
    k1_pay3 (F := Ideal) (k1_pay1 x0 x1 x2 x3 x4 x5 x6 x7) (k1_pay2 (F := Ideal)) x8 x9 x10 x11 (ix2 p j)
      = Cert.Spec.mlpRow (fun k => x0 (ix2 p k))
          (fun k => Ideal.div (x1 (ix2 p k)) (max (x2 (ix2 p 0)) Cert.Spec.oneW))
          (fun k j => x3 (ix2 k j)) (fun k j => x4 (ix2 k j))
          (fun j => x5 (ix2 0 j)) (fun k j => x6 (ix2 k j)) (fun j => x7 (ix2 0 j)) (fun k j => x8 (ix2 k j))
          (fun j => x9 (ix2 0 j)) (fun j => x10 (ix2 0 j)) (fun j => x11 (ix2 0 j)) j := by
  rw [Node.pay3_stages, Node.pay1_stages, Node.rowNorm_apply, Node.row2, Node.row1, Node.row0]
  rfl

namespace Node

/-! ### From the blocks to the array -/

theorem hz : (![0, 0] : Fin 2 → Nat) = fun _ => 0 := funext fun a => by fin_cases a <;> rfl

/-! The index maps over the five grid points: the node features, the segment sum, the count and the output sit at
    block `(t, 0)`; every weight matrix, bias row and scale row at block `(0, 0)`. -/

theorem idx_w0 : ∀ t : Fin cfg1.N, win1_0.index t (0 : Fin 2) = t.val ∧ win1_0.index t (1 : Fin 2) = 0 :=
  (by decide +kernel : ∀ t : Fin grid1.N, _)
theorem idx_w1 : ∀ t : Fin cfg1.N, win1_1.index t (0 : Fin 2) = t.val ∧ win1_1.index t (1 : Fin 2) = 0 :=
  (by decide +kernel : ∀ t : Fin grid1.N, _)
theorem idx_w2 : ∀ t : Fin cfg1.N, win1_2.index t (0 : Fin 2) = t.val ∧ win1_2.index t (1 : Fin 2) = 0 :=
  (by decide +kernel : ∀ t : Fin grid1.N, _)
theorem idx_w3 : ∀ t : Fin cfg1.N, win1_3.index t (0 : Fin 2) = 0 ∧ win1_3.index t (1 : Fin 2) = 0 :=
  (by decide +kernel : ∀ t : Fin grid1.N, _)
theorem idx_w4 : ∀ t : Fin cfg1.N, win1_4.index t (0 : Fin 2) = 0 ∧ win1_4.index t (1 : Fin 2) = 0 :=
  (by decide +kernel : ∀ t : Fin grid1.N, _)
theorem idx_w5 : ∀ t : Fin cfg1.N, win1_5.index t (0 : Fin 2) = 0 ∧ win1_5.index t (1 : Fin 2) = 0 :=
  (by decide +kernel : ∀ t : Fin grid1.N, _)
theorem idx_w6 : ∀ t : Fin cfg1.N, win1_6.index t (0 : Fin 2) = 0 ∧ win1_6.index t (1 : Fin 2) = 0 :=
  (by decide +kernel : ∀ t : Fin grid1.N, _)
theorem idx_w7 : ∀ t : Fin cfg1.N, win1_7.index t (0 : Fin 2) = 0 ∧ win1_7.index t (1 : Fin 2) = 0 :=
  (by decide +kernel : ∀ t : Fin grid1.N, _)
theorem idx_w8 : ∀ t : Fin cfg1.N, win1_8.index t (0 : Fin 2) = 0 ∧ win1_8.index t (1 : Fin 2) = 0 :=
  (by decide +kernel : ∀ t : Fin grid1.N, _)
theorem idx_w9 : ∀ t : Fin cfg1.N, win1_9.index t (0 : Fin 2) = 0 ∧ win1_9.index t (1 : Fin 2) = 0 :=
  (by decide +kernel : ∀ t : Fin grid1.N, _)
theorem idx_w10 : ∀ t : Fin cfg1.N, win1_10.index t (0 : Fin 2) = 0 ∧ win1_10.index t (1 : Fin 2) = 0 :=
  (by decide +kernel : ∀ t : Fin grid1.N, _)
theorem idx_w11 : ∀ t : Fin cfg1.N, win1_11.index t (0 : Fin 2) = 0 ∧ win1_11.index t (1 : Fin 2) = 0 :=
  (by decide +kernel : ∀ t : Fin grid1.N, _)
theorem idx_w12 : ∀ t : Fin cfg1.N, win1_12.index t (0 : Fin 2) = t.val ∧ win1_12.index t (1 : Fin 2) = 0 :=
  (by decide +kernel : ∀ t : Fin grid1.N, _)

theorem lt_five (t : Fin cfg1.N) : t.val < 5 := lt_of_lt_of_eq t.isLt N_1

/-- Row `p` of the block of point `t` is row `10000·t + p` of the array. -/
abbrev rowAt (t : Fin cfg1.N) (p : Fin 10000) : Fin 50000 := ⟨10000 * t.val + p.val, by have := lt_five t; omega⟩

/-! Each input window's block at point `t`, as the array it stages: the three row-blocked ones at the rows
    `10000·t …`, the nine others whole. -/

theorem blk0_apply (c : Dev nD) (t : Fin cfg1.N) (p : Fin 10000) (k : Fin 64) :
    (iblk1 V c 0 t : Vec Ideal S10000x64 .f32) (ix2 p k) = (V c main_arg0 : Cert.Spec.A2 50000 64) (ix2 (rowAt t p) k) := by
  obtain ⟨e0, e1⟩ := idx_w0 t
  unfold iblk1
  rw [View.read_apply]
  show V c main_arg0 _ = V c main_arg0 _
  congr 1
  funext a
  apply Fin.ext
  match a with
  | ⟨0, _⟩ => show win1_0.index t (0 : Fin 2) * 10000 + 1 * p.val = 10000 * t.val + p.val; rw [e0]; omega
  | ⟨1, _⟩ => show win1_0.index t (1 : Fin 2) * 64 + 1 * k.val = k.val; rw [e1]; omega

theorem blk1_apply (c : Dev nD) (t : Fin cfg1.N) (p : Fin 10000) (k : Fin 64) :
    (iblk1 V c 1 t : Vec Ideal S10000x64 .f32) (ix2 p k) = (V c main_v19 : Cert.Spec.A2 50000 64) (ix2 (rowAt t p) k) := by
  obtain ⟨e0, e1⟩ := idx_w1 t
  unfold iblk1
  rw [View.read_apply]
  show V c main_v19 _ = V c main_v19 _
  congr 1
  funext a
  apply Fin.ext
  match a with
  | ⟨0, _⟩ => show win1_1.index t (0 : Fin 2) * 10000 + 1 * p.val = 10000 * t.val + p.val; rw [e0]; omega
  | ⟨1, _⟩ => show win1_1.index t (1 : Fin 2) * 64 + 1 * k.val = k.val; rw [e1]; omega

theorem blk2_apply (c : Dev nD) (t : Fin cfg1.N) (p : Fin 10000) (z : Fin 1) :
    (iblk1 V c 2 t : Vec Ideal S10000x1 .f32) (ix2 p z) = (V c main_v24 : Cert.Spec.A2 50000 1) (ix2 (rowAt t p) z) := by
  obtain ⟨e0, e1⟩ := idx_w2 t
  unfold iblk1
  rw [View.read_apply]
  show V c main_v24 _ = V c main_v24 _
  congr 1
  funext a
  apply Fin.ext
  match a with
  | ⟨0, _⟩ => show win1_2.index t (0 : Fin 2) * 10000 + 1 * p.val = 10000 * t.val + p.val; rw [e0]; omega
  | ⟨1, _⟩ => show win1_2.index t (1 : Fin 2) * 1 + 1 * z.val = z.val; rw [e1]; omega

theorem blk3_eq (c : Dev nD) (t : Fin cfg1.N) :
    (iblk1 V c 3 t : Vec Ideal S64x128 .bf16) = (V c main_v26 : Cert.Spec.A2 64 128) := by
  obtain ⟨e0, e1⟩ := idx_w3 t
  funext y
  unfold iblk1
  rw [View.read_apply]
  show V c main_v26 _ = V c main_v26 _
  congr 1
  funext a
  apply Fin.ext
  match a with
  | ⟨0, _⟩ => show win1_3.index t (0 : Fin 2) * 64 + 1 * (y 0).val = (y 0).val; rw [e0]; omega
  | ⟨1, _⟩ => show win1_3.index t (1 : Fin 2) * 128 + 1 * (y 1).val = (y 1).val; rw [e1]; omega

theorem blk4_eq (c : Dev nD) (t : Fin cfg1.N) :
    (iblk1 V c 4 t : Vec Ideal S64x128 .bf16) = (V c main_v28 : Cert.Spec.A2 64 128) := by
  obtain ⟨e0, e1⟩ := idx_w4 t
  funext y
  unfold iblk1
  rw [View.read_apply]
  show V c main_v28 _ = V c main_v28 _
  congr 1
  funext a
  apply Fin.ext
  match a with
  | ⟨0, _⟩ => show win1_4.index t (0 : Fin 2) * 64 + 1 * (y 0).val = (y 0).val; rw [e0]; omega
  | ⟨1, _⟩ => show win1_4.index t (1 : Fin 2) * 128 + 1 * (y 1).val = (y 1).val; rw [e1]; omega

theorem blk5_eq (c : Dev nD) (t : Fin cfg1.N) :
    (iblk1 V c 5 t : Vec Ideal S1x128 .f32) = (V c main_v31 : Cert.Spec.A2 1 128) := by
  obtain ⟨e0, e1⟩ := idx_w5 t
  funext y
  unfold iblk1
  rw [View.read_apply]
  show V c main_v31 _ = V c main_v31 _
  congr 1
  funext a
  apply Fin.ext
  match a with
  | ⟨0, _⟩ => show win1_5.index t (0 : Fin 2) * 1 + 1 * (y 0).val = (y 0).val; rw [e0]; omega
  | ⟨1, _⟩ => show win1_5.index t (1 : Fin 2) * 128 + 1 * (y 1).val = (y 1).val; rw [e1]; omega

theorem blk6_eq (c : Dev nD) (t : Fin cfg1.N) :
    (iblk1 V c 6 t : Vec Ideal S128x128 .bf16) = (V c main_v29 : Cert.Spec.A2 128 128) := by
  obtain ⟨e0, e1⟩ := idx_w6 t
  funext y
  unfold iblk1
  rw [View.read_apply]
  show V c main_v29 _ = V c main_v29 _
  congr 1
  funext a
  apply Fin.ext
  match a with
  | ⟨0, _⟩ => show win1_6.index t (0 : Fin 2) * 128 + 1 * (y 0).val = (y 0).val; rw [e0]; omega
  | ⟨1, _⟩ => show win1_6.index t (1 : Fin 2) * 128 + 1 * (y 1).val = (y 1).val; rw [e1]; omega

theorem blk7_eq (c : Dev nD) (t : Fin cfg1.N) :
    (iblk1 V c 7 t : Vec Ideal S1x128 .f32) = (V c main_v32 : Cert.Spec.A2 1 128) := by
  obtain ⟨e0, e1⟩ := idx_w7 t
  funext y
  unfold iblk1
  rw [View.read_apply]
  show V c main_v32 _ = V c main_v32 _
  congr 1
  funext a
  apply Fin.ext
  match a with
  | ⟨0, _⟩ => show win1_7.index t (0 : Fin 2) * 1 + 1 * (y 0).val = (y 0).val; rw [e0]; omega
  | ⟨1, _⟩ => show win1_7.index t (1 : Fin 2) * 128 + 1 * (y 1).val = (y 1).val; rw [e1]; omega

theorem blk8_eq (c : Dev nD) (t : Fin cfg1.N) :
    (iblk1 V c 8 t : Vec Ideal S128x64 .bf16) = (V c main_v30 : Cert.Spec.A2 128 64) := by
  obtain ⟨e0, e1⟩ := idx_w8 t
  funext y
  unfold iblk1
  rw [View.read_apply]
  show V c main_v30 _ = V c main_v30 _
  congr 1
  funext a
  apply Fin.ext
  match a with
  | ⟨0, _⟩ => show win1_8.index t (0 : Fin 2) * 128 + 1 * (y 0).val = (y 0).val; rw [e0]; omega
  | ⟨1, _⟩ => show win1_8.index t (1 : Fin 2) * 64 + 1 * (y 1).val = (y 1).val; rw [e1]; omega

theorem blk9_eq (c : Dev nD) (t : Fin cfg1.N) :
    (iblk1 V c 9 t : Vec Ideal S1x64 .f32) = (V c main_v33 : Cert.Spec.A2 1 64) := by
  obtain ⟨e0, e1⟩ := idx_w9 t
  funext y
  unfold iblk1
  rw [View.read_apply]
  show V c main_v33 _ = V c main_v33 _
  congr 1
  funext a
  apply Fin.ext
  match a with
  | ⟨0, _⟩ => show win1_9.index t (0 : Fin 2) * 1 + 1 * (y 0).val = (y 0).val; rw [e0]; omega
  | ⟨1, _⟩ => show win1_9.index t (1 : Fin 2) * 64 + 1 * (y 1).val = (y 1).val; rw [e1]; omega

theorem blk10_eq (c : Dev nD) (t : Fin cfg1.N) :
    (iblk1 V c 10 t : Vec Ideal S1x64 .f32) = (V c main_v34 : Cert.Spec.A2 1 64) := by
  obtain ⟨e0, e1⟩ := idx_w10 t
  funext y
  unfold iblk1
  rw [View.read_apply]
  show V c main_v34 _ = V c main_v34 _
  congr 1
  funext a
  apply Fin.ext
  match a with
  | ⟨0, _⟩ => show win1_10.index t (0 : Fin 2) * 1 + 1 * (y 0).val = (y 0).val; rw [e0]; omega
  | ⟨1, _⟩ => show win1_10.index t (1 : Fin 2) * 64 + 1 * (y 1).val = (y 1).val; rw [e1]; omega

theorem blk11_eq (c : Dev nD) (t : Fin cfg1.N) :
    (iblk1 V c 11 t : Vec Ideal S1x64 .f32) = (V c main_v35 : Cert.Spec.A2 1 64) := by
  obtain ⟨e0, e1⟩ := idx_w11 t
  funext y
  unfold iblk1
  rw [View.read_apply]
  show V c main_v35 _ = V c main_v35 _
  congr 1
  funext a
  apply Fin.ext
  match a with
  | ⟨0, _⟩ => show win1_11.index t (0 : Fin 2) * 1 + 1 * (y 0).val = (y 0).val; rw [e0]; omega
  | ⟨1, _⟩ => show win1_11.index t (1 : Fin 2) * 64 + 1 * (y 1).val = (y 1).val; rw [e1]; omega

/-- A block that agrees, row for row, with rows `10000·t …` of an array is what the output window's block at
    point `t` reads of that array. -/
theorem cut_read_eq (X : Vec Ideal S10000x64 .f32) (G : Cert.Spec.A2 50000 64) (t : Fin cfg1.N)
    (h : ∀ (p : Fin 10000) (j : Fin 64), X (ix2 p j) = G (ix2 (rowAt t p) j)) :
    (cfg1.win 12).cut (grid1.coords t) X = ((cfg1.win 12).blk t).view.read (Elt Ideal) G := by
  obtain ⟨e0, e1⟩ := idx_w12 t
  funext y
  have hy0 : (y 0).val < 10000 := (y 0).isLt
  have hy1 : (y 1).val < 64 := (y 1).isLt
  have hl : (cfg1.win 12).xinj (grid1.coords t) y = ix2 (⟨(y 0).val, hy0⟩ : Fin 10000) (⟨(y 1).val, hy1⟩ : Fin 64) :=
    funext fun a => by
      match a with
      | ⟨0, _⟩ => rfl
      | ⟨1, _⟩ => rfl
  have hr : ((cfg1.win 12).blk t).view.emb y = ix2 (rowAt t ⟨(y 0).val, hy0⟩) (⟨(y 1).val, hy1⟩ : Fin 64) :=
    funext fun a => Fin.ext (by
      match a with
      | ⟨0, _⟩ => show win1_12.index t (0 : Fin 2) * 10000 + 1 * (y 0).val = 10000 * t.val + (y 0).val; rw [e0]; omega
      | ⟨1, _⟩ => show win1_12.index t (1 : Fin 2) * 64 + 1 * (y 1).val = (y 1).val; rw [e1]; omega)
  show X ((cfg1.win 12).xinj (grid1.coords t) y) = G (((cfg1.win 12).blk t).view.emb y)
  rw [hl, hr]
  exact h _ _

/-- What point `t` writes back is block `t` of `Spec.nodeArr` of the arrays the windows stage. -/
theorem flushed_eq (c : Dev nD) (t : Fin cfg1.N) :
    (dat1 (F := Ideal) V c).flushed 12 t
      = ((cfg1.win 12).blk t).view.read (Elt Ideal)
          (Cert.Spec.nodeArr (V c main_arg0) (V c main_v19) (V c main_v24) (V c main_v26) (V c main_v28) (V c main_v31)
            (V c main_v29) (V c main_v32) (V c main_v30) (V c main_v33) (V c main_v34) (V c main_v35)) := by
  show (cfg1.win 12).cut (grid1.coords t) ((dat1 V c).after 12 t) = _
  rw [after1_12]
  unfold out1_12
  rw [View.canon_unit_zero hz]
  simp only [View.ld_unit_zero (S := S10000x64) hz, View.ld_unit_zero (S := S10000x1) hz, View.ld_unit_zero (S := S64x128) hz,
    View.ld_unit_zero (S := S1x128) hz, View.ld_unit_zero (S := S128x128) hz, View.ld_unit_zero (S := S128x64) hz,
    View.ld_unit_zero (S := S1x64) hz]
  refine cut_read_eq _ _ t fun p j => ?_
  refine (node_payload_apply (iblk1 V c 0 t) (iblk1 V c 1 t) (iblk1 V c 2 t) (iblk1 V c 3 t) (iblk1 V c 4 t) (iblk1 V c 5 t)
    (iblk1 V c 6 t) (iblk1 V c 7 t) (iblk1 V c 8 t) (iblk1 V c 9 t) (iblk1 V c 10 t) (iblk1 V c 11 t) p j).trans ?_
  simp only [blk0_apply, blk1_apply, blk2_apply, blk3_eq, blk4_eq, blk5_eq, blk6_eq, blk7_eq, blk8_eq, blk9_eq, blk10_eq, blk11_eq]
  rfl

/-- An index of the array is in point `t`'s block iff each coordinate is in the block's range on its axis. -/
theorem mem_blk (t : Fin cfg1.N) (i : S50000x64.Idx) :
    i ∈ ((cfg1.win 12).blk t).view.set
      ↔ ∀ a : Fin 2, win1_12.index t a * S10000x64.size a ≤ (i a).val ∧ (i a).val < win1_12.index t a * S10000x64.size a + S10000x64.size a := by
  show i ∈ ((View.whole main_v36).slice (win1_12.rect t)).set ↔ _
  rw [View.set_slice_whole, Rect.mem_set_unit]
  exact Iff.rfl

/-- Row `r` of the array is covered by point `r / 10000`. -/
theorem cover (i : S50000x64.Idx) : ∃ t : Fin cfg1.N, (cfg1.win 12).flush t = true ∧ i ∈ ((cfg1.win 12).blk t).view.set := by
  have hi0 : (i 0).val < 50000 := idx2_lt0 i
  have hi1 : (i 1).val < 64 := idx2_lt1 i
  have hN : cfg1.N = 5 := N_1
  let t : Fin cfg1.N := ⟨(i 0).val / 10000, by rw [hN]; omega⟩
  obtain ⟨e0, e1⟩ := idx_w12 t
  have ht : t.val = (i 0).val / 10000 := rfl
  refine ⟨t, flush1_12 t, ?_⟩
  rw [mem_blk]
  intro a
  match a with
  | ⟨0, _⟩ =>
    show win1_12.index t (0 : Fin 2) * 10000 ≤ (i 0).val ∧ (i 0).val < win1_12.index t (0 : Fin 2) * 10000 + 10000
    rw [e0, ht]; omega
  | ⟨1, _⟩ =>
    show win1_12.index t (1 : Fin 2) * 64 ≤ (i 1).val ∧ (i 1).val < win1_12.index t (1 : Fin 2) * 64 + 64
    rw [e1]; omega

end Node

/-- The output array of region 1 after the run, whatever contents `V` the region is entered at. -/
theorem region1 (c : Dev nD) :
    (dat1 (F := Ideal) V c).arrAt 12 cfg1.N
      = Cert.Spec.nodeArr (V c main_arg0) (V c main_v19) (V c main_v24) (V c main_v26) (V c main_v28) (V c main_v31)
          (V c main_v29) (V c main_v32) (V c main_v30) (V c main_v33) (V c main_v34) (V c main_v35) := by
  exact (dat1 (F := Ideal) V c).arrAt_eq_of_cover 12 _ (fun t _ => Node.flushed_eq V c t) Node.cover

end Cert.KernelIdeal.KV

end
-- ==== Proof.KHost.lean ====
/-
  What the host operations of the kernel's program put into each window's array before a region is entered,
  as a function of the argument arrays: the gathered rows (the out-of-range fill never applies when the row indices are
  in range), the two row bands of each first-layer matrix, the matrices themselves (a change of float format is the
  identity on the extended reals), the vectors as one-row matrices, the two segment sums.
-/
import proofs.«410253_j10892037063287_2_alg».proof.Proof.Gen.KernelIdeal.Frame
import proofs.«410253_j10892037063287_2_alg».proof.Proof.Range
import Idealize.ShloMosaic.Lib.Pipeline.Value
import Idealize.ShloMosaic.Lib.StableHlo.Run
import Idealize.ShloMosaic.Lib.StableHlo.Predicate
import Idealize.ShloMosaic.Lib.ValueIdx
import Idealize.ShloMosaic.Lib.ValueLayout

set_option maxRecDepth 16384

noncomputable section

namespace Cert.KernelIdeal.KV

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- An argument array of core `c` at launch. -/
abbrev arg (b : Ref sig .tc) : Buf (Elt Ideal) ((c.tc : Thread nD τ).loc b) := m ((c.tc : Thread nD τ).loc b)

/-- Row `r` of the edge list as a vector; the gather's start indices (a negative entry counts from the table's end);
    the scatters' indices. -/
def edgeRow0 (ei : IVec S2x800000 32) : IVec S800000 32 :=
  shapeCast S800000 (extractStridedSlice S1x800000 ![0, 0] ei slices_S2x800000_S1x800000_0_0) shapeCasts_S1x800000_S800000
def edgeRow1 (ei : IVec S2x800000 32) : IVec S800000 32 :=
  shapeCast S800000 (extractStridedSlice S1x800000 ![1, 0] ei slices_S2x800000_S1x800000_1_0) shapeCasts_S1x800000_S800000
def rowIdx (ei : IVec S2x800000 32) : IVec S800000x1 32 :=
  broadcastInDim S800000x1 ![0] bcast_S800000_S800000x1_0
    (select (cmpi .slt (edgeRow0 ei) (broadcastInDim S800000 ![] bcast_S_S800000 (constantI S_ 32 0#32)))
      (addi (edgeRow0 ei) (broadcastInDim S800000 ![] bcast_S_S800000 (constantI S_ 32 50000#32)))
      (edgeRow0 ei))
def colIdx (ei : IVec S2x800000 32) : IVec S800000x1 32 :=
  broadcastInDim S800000x1 ![0] bcast_S800000_S800000x1_0 (edgeRow1 ei)

/-! ## The range test of the gather

An entry `r` of row 0 with `-50000 ≤ r < 50000` is normalised to `r' = r + 50000` when `r < 0` and to `r` otherwise, so
`0 ≤ r' ≤ 49999`: both comparisons of the test are 1 at every entry, their conjunction folded along the unit axis from 1
is 1, and the select under an all-ones mask is its first branch. -/

/-- A left fold by `and` from 1 over entries that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from rfl]
    exact foldl_andi_one f l fun n hn => h n (List.mem_cons_of_mem _ hn)

/-- Adding 50000 to a negative word no smaller than -50000 does not wrap. -/
theorem toInt_add_small (r : BitVec 32) (h1 : -50000 ≤ r.toInt) (h2 : r.toInt < 0) :
    (r + 50000#32).toInt = r.toInt + 50000 := by
  rw [BitVec.toInt_add]
  have h5 : (50000#32).toInt = 50000 := by decide
  rw [h5]
  exact Int.bmod_eq_of_le_mul_two (by omega) (by omega)

/-- The normalised index of an entry in `[-50000, 50000)` passes both comparisons of the range test. -/
theorem norm_in_range (r : BitVec 32) (h1 : -50000 ≤ r.toInt) (h2 : r.toInt < 50000) :
    IntOp.cmpi .sge (Scalar.select (IntOp.cmpi .slt r 0#32) (IntOp.addi r 50000#32) r) 0#32 = 1#1 ∧
    IntOp.cmpi .sle (Scalar.select (IntOp.cmpi .slt r 0#32) (IntOp.addi r 50000#32) r) 49999#32 = 1#1 := by
  have h0 : (0#32).toInt = 0 := by decide
  have h9 : (49999#32).toInt = 49999 := by decide
  by_cases hn : r.toInt < 0
  · have hs : IntOp.cmpi .slt r 0#32 = 1#1 := by
      simp only [IntOp.cmpi, BitVec.slt, h0, StableHlo.Predicate.ofBool_eq_one_iff, decide_eq_true_eq]; exact hn
    have ha : (IntOp.addi r 50000#32).toInt = r.toInt + 50000 := toInt_add_small r h1 hn
    rw [hs, select_one]
    simp only [IntOp.cmpi, BitVec.sle, h0, h9, ha, StableHlo.Predicate.ofBool_eq_one_iff, decide_eq_true_eq]
    omega
  · have hs : IntOp.cmpi .slt r 0#32 = 0#1 := by
      apply eq_zero_of_ne_one
      simp only [IntOp.cmpi, BitVec.slt, h0, StableHlo.Predicate.ofBool_eq_one_iff, decide_eq_true_eq]; exact hn
    rw [hs, select_zero]
    simp only [IntOp.cmpi, BitVec.sle, h0, h9, StableHlo.Predicate.ofBool_eq_one_iff, decide_eq_true_eq]
    omega

/-- Row 0 of the edge list read at an entry. -/
theorem edgeRow0_apply (ei : IVec S2x800000 32) (e : Fin 800000) : edgeRow0 ei (ix1 e) = ei (ix2 0 e) := by
  unfold edgeRow0
  rw [shapeCast_1a_a_apply]
  exact slice2_axis0_apply 0 ei _ (0 : Fin 1) e (0 : Fin 2) rfl

/-- A vector of row indices normalised: a negative entry counts from the table's end. -/
def normSel (v : IVec S800000 32) : IVec S800000 32 :=
  select (cmpi .slt v (broadcastInDim S800000 ![] bcast_S_S800000 (constantI S_ 32 0#32)))
    (addi v (broadcastInDim S800000 ![] bcast_S_S800000 (constantI S_ 32 50000#32)))
    v

/-- The normalised indices laid as a column: the gather's start indices. -/
def normIdx (v : IVec S800000 32) : IVec S800000x1 32 :=
  broadcastInDim S800000x1 ![0] bcast_S800000_S800000x1_0 (normSel v)

theorem rowIdx_eq (ei : IVec S2x800000 32) : rowIdx ei = normIdx (edgeRow0 ei) := rfl

theorem normSel_ok (ei : IVec S2x800000 32) (hr : Cert.Spec.RowsInRange ei) (q : S800000.Idx) :
    IntOp.cmpi .sge (normSel (edgeRow0 ei) q) 0#32 = 1#1 ∧ IntOp.cmpi .sle (normSel (edgeRow0 ei) q) 49999#32 = 1#1 := by
  obtain ⟨e, rfl⟩ : ∃ e : Fin 800000, q = ix1 e := ⟨q 0, eq_ix1 q⟩
  show IntOp.cmpi .sge (Scalar.select (IntOp.cmpi .slt (edgeRow0 ei (ix1 e)) 0#32) (IntOp.addi (edgeRow0 ei (ix1 e)) 50000#32) (edgeRow0 ei (ix1 e))) 0#32 = 1#1 ∧
    IntOp.cmpi .sle (Scalar.select (IntOp.cmpi .slt (edgeRow0 ei (ix1 e)) 0#32) (IntOp.addi (edgeRow0 ei (ix1 e)) 50000#32) (edgeRow0 ei (ix1 e))) 49999#32 = 1#1
  rw [edgeRow0_apply]
  exact norm_in_range _ (hr e).1 (hr e).2

/-- The take's range test on a column of start indices, reduced along the unit axis. -/
def okRow (idx : IVec S800000x1 32) : IVec S800000 1 :=
  Host.reduce IntOp.andi
    (andi (cmpi .sge idx (broadcastInDim S800000x1 ![] bcast_S_S800000x1 (constantI S_ 32 0#32)))
      (cmpi .sle idx (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- Every entry of the test's operand is 1: an entry of the column is an entry of the normalised vector. -/
theorem okEntry (ei : IVec S2x800000 32) (hr : Cert.Spec.RowsInRange ei) (i : S800000x1.Idx) :
    (andi (cmpi .sge (rowIdx ei) (broadcastInDim S800000x1 ![] bcast_S_S800000x1 (constantI S_ 32 0#32)))
      (cmpi .sle (rowIdx ei) (broadcastInDim S800000x1 ![0, 1] bcast_S1x1_S800000x1_0_1
        (broadcastInDim S1x1 ![1] bcast_S1_S1x1_1 (constantI S1 32 49999#32))))) i = 1#1 := by
  obtain ⟨q, hq⟩ : ∃ q : S800000.Idx, rowIdx ei i = normSel (edgeRow0 ei) q := ⟨_, rfl⟩
  obtain ⟨h1, h2⟩ := normSel_ok ei hr q
  show IntOp.andi (IntOp.cmpi .sge (rowIdx ei i) 0#32) (IntOp.cmpi .sle (rowIdx ei i) 49999#32) = 1#1
  rw [hq, h1, h2]
  rfl

/-- The reduced test is 1 at every row. -/
theorem okRow_one (ei : IVec S2x800000 32) (hr : Cert.Spec.RowsInRange ei) (j : S800000.Idx) : okRow (rowIdx ei) j = 1#1 := by
  unfold okRow
  rw [Host.reduce_eq_foldl]
  exact foldl_andi_one _ _ fun i _ => okEntry ei hr i

/-- Contents moved to a buffer's own type and back are the contents. -/
theorem ofBuf_toBuf {T : BufTy} (x : StableHlo.TRef sig T) (v : T.Contents (Elt Ideal)) : x.ofBuf (x.toBuf v) = v := by
  obtain ⟨r, h, p, q⟩ := x
  subst h
  rfl
/-- At a literal reference the move is the identity. -/
theorem ofBuf_main_v1 (h : (main_v1 : Ref sig .tc).ty = ⟨S800000, .i32⟩) (p q) (v : (main_v1 : Ref sig .tc).ty.Contents (Elt Ideal)) :
    (StableHlo.TRef.of main_v1 h p q).ofBuf v = v := rfl
theorem ofBuf_main_arg0 (h : (main_arg0 : Ref sig .tc).ty = ⟨S50000x64, .f32⟩) (p q) (v : (main_arg0 : Ref sig .tc).ty.Contents (Elt Ideal)) :
    (StableHlo.TRef.of main_arg0 h p q).ofBuf v = v := rfl

/-- The take, from any contents `X` of the buffers before it: the gathered rows where the test passes, the fill elsewhere. -/
theorem take_term (X : Valuation τ sig (Elt Ideal)) :
    @Eq (FVec Ideal S800000x64 .f32) (StableHlo.after hostOps0_1 X (Proc.devRef .tc main_v4))
      (select (broadcastInDim S800000x64 ![0] bcast_S800000_S800000x64_0 (okRow (normIdx (X (Proc.devRef .tc main_v1)))))
        (Host.gather (α := Ideal .f32) gather_S50000x64_S800000x1_S800000x64_1_0_n_n_0_1_164 (X (Proc.devRef .tc main_arg0)) (normIdx (X (Proc.devRef .tc main_v1))))
        (broadcastInDim S800000x64 ![] bcast_S_S800000x64 (constant (F := Ideal) S_ .f32 0x7FC00000#32))) := by
  after_results_simp
  refine eq_of_heq ((cast_heq _ _).trans (heq_of_eq ?_))
  simp only [ofBuf_toBuf, ofBuf_main_v1, ofBuf_main_arg0]
  unfold okRow normIdx normSel
  rfl

/-- The window's array as the host operations compose it from the arguments. -/
theorem V3_xr_term :
    V3 m ρ c main_v4 = select (broadcastInDim S800000x64 ![0] bcast_S800000_S800000x64_0 (okRow (rowIdx (arg m c main_arg1))))
      (Host.gather (α := Ideal .f32) gather_S50000x64_S800000x1_S800000x64_1_0_n_n_0_1_164 (arg m c main_arg0) (rowIdx (arg m c main_arg1)))
      (broadcastInDim S800000x64 ![] bcast_S_S800000x64 (constant (F := Ideal) S_ .f32 0x7FC00000#32)) := by
  have h2 : StableHlo.after hostOps0_2 (W2 m ρ c) (Proc.devRef .tc main_v4) = W2 m ρ c (Proc.devRef .tc main_v4) := by
    generalize W2 m ρ c = Y
    after_results <;> rfl
  have h1 : @Eq (IVec S800000 32) (W1 m ρ c (Proc.devRef .tc main_v1)) (edgeRow0 (arg m c main_arg1)) := by
    show StableHlo.after hostOps0 (W0 m ρ c) (Proc.devRef .tc main_v1) = _
    after_results <;> rfl
  have h0 : W1 m ρ c (Proc.devRef .tc main_arg0) = arg m c main_arg0 := by
    show StableHlo.after hostOps0 (W0 m ρ c) (Proc.devRef .tc main_arg0) = _
    after_results <;> rfl
  refine h2.trans ((take_term (W1 m ρ c)).trans ?_)
  rw [h1, h0]
  rfl

/-! ## Region 0's windows (`V3`) -/

/-- With the row indices in range the fill never applies: the window holds the gathered rows. -/
theorem V3_xr (hr : Cert.Spec.RowsInRange (arg m c main_arg1)) :
    V3 m ρ c main_v4 = Host.gather (α := Ideal .f32) gather_S50000x64_S800000x1_S800000x64_1_0_n_n_0_1_164 (arg m c main_arg0) (rowIdx (arg m c main_arg1)) := by
  rw [V3_xr_term]
  funext i
  rw [select_apply]
  have h1 : broadcastInDim S800000x64 ![0] bcast_S800000_S800000x64_0 (okRow (rowIdx (arg m c main_arg1))) i = 1#1 :=
    okRow_one _ hr _
  rw [h1, select_one]
theorem V3_ea : V3 m ρ c main_arg2 = arg m c main_arg2 := by
  show StableHlo.after hostOps0_2 (StableHlo.after hostOps0_1 (StableHlo.after hostOps0 (W0 m ρ c))) (Proc.devRef .tc main_arg2) = _
  after_results <;> rfl
theorem V3_w0x (k : Fin 64) (j : Fin 128) : V3 m ρ c main_v6 (ix2 k j) = arg m c main_arg5 (ix2 (Fin.castAdd 32 k) j) := by
  have e : @Eq (FVec Ideal S64x128 .bf16) (V3 m ρ c main_v6) <| truncf (F := Ideal) .bf16 (extractStridedSlice S64x128 ![0, 0] (arg m c main_arg5 : FVec Ideal S96x128 .f32) slices_S96x128_S64x128_0_0) bitsLt_bf16_f32 := by
    show StableHlo.after hostOps0_2 (StableHlo.after hostOps0_1 (StableHlo.after hostOps0 (W0 m ρ c))) (Proc.devRef .tc main_v6) = _
    after_results <;> rfl
  refine (congrFun e _).trans ?_
  rw [truncf_apply]
  exact slice2_axis0_apply 0 _ _ k j _ (Nat.zero_add _).symm
theorem V3_w0e (k : Fin 32) (j : Fin 128) : V3 m ρ c main_v8 (ix2 k j) = arg m c main_arg5 (ix2 (Fin.natAdd 64 k) j) := by
  have e : @Eq (FVec Ideal S32x128 .bf16) (V3 m ρ c main_v8) <| truncf (F := Ideal) .bf16 (extractStridedSlice S32x128 ![64, 0] (arg m c main_arg5 : FVec Ideal S96x128 .f32) slices_S96x128_S32x128_64_0) bitsLt_bf16_f32 := by
    show StableHlo.after hostOps0_2 (StableHlo.after hostOps0_1 (StableHlo.after hostOps0 (W0 m ρ c))) (Proc.devRef .tc main_v8) = _
    after_results <;> rfl
  refine (congrFun e _).trans ?_
  rw [truncf_apply]
  exact slice2_axis0_apply 64 _ _ k j _ rfl
theorem V3_b0 (j : Fin 128) : V3 m ρ c main_v11 (ix2 0 j) = arg m c main_arg6 (ix1 j) := by
  have e : V3 m ρ c main_v11 = shapeCast S1x128 (arg m c main_arg6) shapeCasts_S128_S1x128 := by
    show StableHlo.after hostOps0_2 (StableHlo.after hostOps0_1 (StableHlo.after hostOps0 (W0 m ρ c))) (Proc.devRef .tc main_v11) = _
    after_results <;> rfl
  exact (congrFun e _).trans (shapeCast_a_1a_apply _ _ 0 j)
theorem V3_w1 (k : Fin 128) (j : Fin 128) : V3 m ρ c main_v9 (ix2 k j) = arg m c main_arg7 (ix2 k j) := by
  have e : @Eq (FVec Ideal S128x128 .bf16) (V3 m ρ c main_v9) <| truncf (F := Ideal) .bf16 (arg m c main_arg7 : FVec Ideal S128x128 .f32) bitsLt_bf16_f32 := by
    show StableHlo.after hostOps0_2 (StableHlo.after hostOps0_1 (StableHlo.after hostOps0 (W0 m ρ c))) (Proc.devRef .tc main_v9) = _
    after_results <;> rfl
  exact congrFun e _
theorem V3_b1 (j : Fin 128) : V3 m ρ c main_v12 (ix2 0 j) = arg m c main_arg8 (ix1 j) := by
  have e : V3 m ρ c main_v12 = shapeCast S1x128 (arg m c main_arg8) shapeCasts_S128_S1x128 := by
    show StableHlo.after hostOps0_2 (StableHlo.after hostOps0_1 (StableHlo.after hostOps0 (W0 m ρ c))) (Proc.devRef .tc main_v12) = _
    after_results <;> rfl
  exact (congrFun e _).trans (shapeCast_a_1a_apply _ _ 0 j)
theorem V3_w2 (k : Fin 128) (j : Fin 64) : V3 m ρ c main_v10 (ix2 k j) = arg m c main_arg9 (ix2 k j) := by
  have e : @Eq (FVec Ideal S128x64 .bf16) (V3 m ρ c main_v10) <| truncf (F := Ideal) .bf16 (arg m c main_arg9 : FVec Ideal S128x64 .f32) bitsLt_bf16_f32 := by
    show StableHlo.after hostOps0_2 (StableHlo.after hostOps0_1 (StableHlo.after hostOps0 (W0 m ρ c))) (Proc.devRef .tc main_v10) = _
    after_results <;> rfl
  exact congrFun e _
theorem V3_b2 (j : Fin 64) : V3 m ρ c main_v13 (ix2 0 j) = arg m c main_arg10 (ix1 j) := by
  have e : V3 m ρ c main_v13 = shapeCast S1x64 (arg m c main_arg10) shapeCasts_S64_S1x64 := by
    show StableHlo.after hostOps0_2 (StableHlo.after hostOps0_1 (StableHlo.after hostOps0 (W0 m ρ c))) (Proc.devRef .tc main_v13) = _
    after_results <;> rfl
  exact (congrFun e _).trans (shapeCast_a_1a_apply _ _ 0 j)
theorem V3_g (j : Fin 64) : V3 m ρ c main_v14 (ix2 0 j) = arg m c main_arg11 (ix1 j) := by
  have e : V3 m ρ c main_v14 = shapeCast S1x64 (arg m c main_arg11) shapeCasts_S64_S1x64 := by
    show StableHlo.after hostOps0_2 (StableHlo.after hostOps0_1 (StableHlo.after hostOps0 (W0 m ρ c))) (Proc.devRef .tc main_v14) = _
    after_results <;> rfl
  exact (congrFun e _).trans (shapeCast_a_1a_apply _ _ 0 j)
theorem V3_bn (j : Fin 64) : V3 m ρ c main_v15 (ix2 0 j) = arg m c main_arg12 (ix1 j) := by
  have e : V3 m ρ c main_v15 = shapeCast S1x64 (arg m c main_arg12) shapeCasts_S64_S1x64 := by
    show StableHlo.after hostOps0_2 (StableHlo.after hostOps0_1 (StableHlo.after hostOps0 (W0 m ρ c))) (Proc.devRef .tc main_v15) = _
    after_results <;> rfl
  exact (congrFun e _).trans (shapeCast_a_1a_apply _ _ 0 j)

/-! ## Region 1's windows (`V5`) -/

/-- An argument array is as launched at region 0's exit: no host operation and no window of region 0 writes it. -/
theorem W4_main_arg0 : W4 m ρ c (Proc.devRef .tc main_arg0) = arg m c main_arg0 := by
  rw [W4_of_ne m ρ c main_arg0 (by decide)]
  show StableHlo.after hostOps0_2 (StableHlo.after hostOps0_1 (StableHlo.after hostOps0 (W0 m ρ c))) (Proc.devRef .tc main_arg0) = _
  after_results <;> rfl
theorem W4_main_arg13 : W4 m ρ c (Proc.devRef .tc main_arg13) = arg m c main_arg13 := by
  rw [W4_of_ne m ρ c main_arg13 (by decide)]
  show StableHlo.after hostOps0_2 (StableHlo.after hostOps0_1 (StableHlo.after hostOps0 (W0 m ρ c))) (Proc.devRef .tc main_arg13) = _
  after_results <;> rfl
theorem W4_main_arg14 : W4 m ρ c (Proc.devRef .tc main_arg14) = arg m c main_arg14 := by
  rw [W4_of_ne m ρ c main_arg14 (by decide)]
  show StableHlo.after hostOps0_2 (StableHlo.after hostOps0_1 (StableHlo.after hostOps0 (W0 m ρ c))) (Proc.devRef .tc main_arg14) = _
  after_results <;> rfl
theorem W4_main_arg15 : W4 m ρ c (Proc.devRef .tc main_arg15) = arg m c main_arg15 := by
  rw [W4_of_ne m ρ c main_arg15 (by decide)]
  show StableHlo.after hostOps0_2 (StableHlo.after hostOps0_1 (StableHlo.after hostOps0 (W0 m ρ c))) (Proc.devRef .tc main_arg15) = _
  after_results <;> rfl
theorem W4_main_arg16 : W4 m ρ c (Proc.devRef .tc main_arg16) = arg m c main_arg16 := by
  rw [W4_of_ne m ρ c main_arg16 (by decide)]
  show StableHlo.after hostOps0_2 (StableHlo.after hostOps0_1 (StableHlo.after hostOps0 (W0 m ρ c))) (Proc.devRef .tc main_arg16) = _
  after_results <;> rfl
theorem W4_main_arg17 : W4 m ρ c (Proc.devRef .tc main_arg17) = arg m c main_arg17 := by
  rw [W4_of_ne m ρ c main_arg17 (by decide)]
  show StableHlo.after hostOps0_2 (StableHlo.after hostOps0_1 (StableHlo.after hostOps0 (W0 m ρ c))) (Proc.devRef .tc main_arg17) = _
  after_results <;> rfl
theorem W4_main_arg18 : W4 m ρ c (Proc.devRef .tc main_arg18) = arg m c main_arg18 := by
  rw [W4_of_ne m ρ c main_arg18 (by decide)]
  show StableHlo.after hostOps0_2 (StableHlo.after hostOps0_1 (StableHlo.after hostOps0 (W0 m ρ c))) (Proc.devRef .tc main_arg18) = _
  after_results <;> rfl
theorem W4_main_arg19 : W4 m ρ c (Proc.devRef .tc main_arg19) = arg m c main_arg19 := by
  rw [W4_of_ne m ρ c main_arg19 (by decide)]
  show StableHlo.after hostOps0_2 (StableHlo.after hostOps0_1 (StableHlo.after hostOps0 (W0 m ρ c))) (Proc.devRef .tc main_arg19) = _
  after_results <;> rfl
theorem W4_main_arg20 : W4 m ρ c (Proc.devRef .tc main_arg20) = arg m c main_arg20 := by
  rw [W4_of_ne m ρ c main_arg20 (by decide)]
  show StableHlo.after hostOps0_2 (StableHlo.after hostOps0_1 (StableHlo.after hostOps0 (W0 m ρ c))) (Proc.devRef .tc main_arg20) = _
  after_results <;> rfl

/-- Row 1 of the edge list, written before region 0, is untouched at its exit. -/
theorem W4_main_v3 : @Eq (IVec S800000 32) (W4 m ρ c (Proc.devRef .tc main_v3)) (edgeRow1 (arg m c main_arg1)) := by
  rw [W4_of_ne m ρ c main_v3 (by decide)]
  show StableHlo.after hostOps0_2 (StableHlo.after hostOps0_1 (StableHlo.after hostOps0 (W0 m ρ c))) (Proc.devRef .tc main_v3) = _
  after_results <;> rfl

theorem V5_x : V5 m ρ c main_arg0 = arg m c main_arg0 := by
  show StableHlo.after hostOps1 (W4 m ρ c) (Proc.devRef .tc main_arg0) = _
  after_results
  exact W4_main_arg0 m ρ c
/-- The segment sum of region 0's output array over the destination nodes. -/
theorem V5_asum :
    V5 m ρ c main_v19 = Host.scatterAdd (F := Ideal) scatter_S50000x64_S800000x1_S800000x64_1_0_0_1
      (broadcastInDim S50000x64 ![] bcast_S_S50000x64 (constant S_ .f32 0x00000000#32)) (colIdx (arg m c main_arg1))
      ((dat0 (V3 m ρ) c).arrAt 11 cfg0.N) := by
  show StableHlo.after hostOps1 (W4 m ρ c) (Proc.devRef .tc main_v19) = _
  after_results
  rw [W4_main_v3, show W4 m ρ c (Proc.devRef .tc main_v16) = _ from W4_arr m ρ c 11] <;> rfl
/-- The segment count, as a one-column matrix. -/
theorem V5_cnt (r : Fin 50000) :
    V5 m ρ c main_v24 (ix2 r 0) = (Host.scatterAdd (F := Ideal) scatter_S50000_S800000x1_S800000_n_0_0_1
      (broadcastInDim S50000 ![] bcast_S_S50000 (constant S_ .f32 0x00000000#32)) (colIdx (arg m c main_arg1))
      (broadcastInDim S800000 ![] bcast_S_S800000 (constant S_ .f32 0x3F800000#32))) (ix1 r) := by
  have e : @Eq (FVec Ideal S50000x1 .f32) (V5 m ρ c main_v24) <| shapeCast S50000x1 (Host.scatterAdd (F := Ideal) scatter_S50000_S800000x1_S800000_n_0_0_1
      (broadcastInDim S50000 ![] bcast_S_S50000 (constant S_ .f32 0x00000000#32)) (colIdx (arg m c main_arg1))
      (broadcastInDim S800000 ![] bcast_S_S800000 (constant S_ .f32 0x3F800000#32))) shapeCasts_S50000_S50000x1 := by
    show StableHlo.after hostOps1 (W4 m ρ c) (Proc.devRef .tc main_v24) = _
    after_results
    rw [W4_main_v3] <;> rfl
  refine (congrFun e _).trans ?_
  exact shapeCast_apply _ _ _ _ (by
    rw [Shape.rowMajor_val_two, Shape.rowMajor_val_one]
    show r.val = r.val * 1 + 0
    omega)
theorem V5_w0x (k : Fin 64) (j : Fin 128) : V5 m ρ c main_v26 (ix2 k j) = arg m c main_arg13 (ix2 (Fin.castAdd 64 k) j) := by
  have e : @Eq (FVec Ideal S64x128 .bf16) (V5 m ρ c main_v26) <| truncf (F := Ideal) .bf16 (extractStridedSlice S64x128 ![0, 0] (arg m c main_arg13 : FVec Ideal S128x128 .f32) slices_S128x128_S64x128_0_0) bitsLt_bf16_f32 := by
    show StableHlo.after hostOps1 (W4 m ρ c) (Proc.devRef .tc main_v26) = _
    after_results
    rw [W4_main_arg13] <;> rfl
  refine (congrFun e _).trans ?_
  rw [truncf_apply]
  exact slice2_axis0_apply 0 _ _ k j _ (Nat.zero_add _).symm
theorem V5_w0a (k : Fin 64) (j : Fin 128) : V5 m ρ c main_v28 (ix2 k j) = arg m c main_arg13 (ix2 (Fin.natAdd 64 k) j) := by
  have e : @Eq (FVec Ideal S64x128 .bf16) (V5 m ρ c main_v28) <| truncf (F := Ideal) .bf16 (extractStridedSlice S64x128 ![64, 0] (arg m c main_arg13 : FVec Ideal S128x128 .f32) slices_S128x128_S64x128_64_0) bitsLt_bf16_f32 := by
    show StableHlo.after hostOps1 (W4 m ρ c) (Proc.devRef .tc main_v28) = _
    after_results
    rw [W4_main_arg13] <;> rfl
  refine (congrFun e _).trans ?_
  rw [truncf_apply]
  exact slice2_axis0_apply 64 _ _ k j _ rfl
theorem V5_b0 (j : Fin 128) : V5 m ρ c main_v31 (ix2 0 j) = arg m c main_arg14 (ix1 j) := by
  have e : V5 m ρ c main_v31 = shapeCast S1x128 (arg m c main_arg14) shapeCasts_S128_S1x128 := by
    show StableHlo.after hostOps1 (W4 m ρ c) (Proc.devRef .tc main_v31) = _
    after_results
    rw [W4_main_arg14] <;> rfl
  exact (congrFun e _).trans (shapeCast_a_1a_apply _ _ 0 j)
theorem V5_w1 (k : Fin 128) (j : Fin 128) : V5 m ρ c main_v29 (ix2 k j) = arg m c main_arg15 (ix2 k j) := by
  have e : @Eq (FVec Ideal S128x128 .bf16) (V5 m ρ c main_v29) <| truncf (F := Ideal) .bf16 (arg m c main_arg15 : FVec Ideal S128x128 .f32) bitsLt_bf16_f32 := by
    show StableHlo.after hostOps1 (W4 m ρ c) (Proc.devRef .tc main_v29) = _
    after_results
    rw [W4_main_arg15] <;> rfl
  exact congrFun e _
theorem V5_b1 (j : Fin 128) : V5 m ρ c main_v32 (ix2 0 j) = arg m c main_arg16 (ix1 j) := by
  have e : V5 m ρ c main_v32 = shapeCast S1x128 (arg m c main_arg16) shapeCasts_S128_S1x128 := by
    show StableHlo.after hostOps1 (W4 m ρ c) (Proc.devRef .tc main_v32) = _
    after_results
    rw [W4_main_arg16] <;> rfl
  exact (congrFun e _).trans (shapeCast_a_1a_apply _ _ 0 j)
theorem V5_w2 (k : Fin 128) (j : Fin 64) : V5 m ρ c main_v30 (ix2 k j) = arg m c main_arg17 (ix2 k j) := by
  have e : @Eq (FVec Ideal S128x64 .bf16) (V5 m ρ c main_v30) <| truncf (F := Ideal) .bf16 (arg m c main_arg17 : FVec Ideal S128x64 .f32) bitsLt_bf16_f32 := by
    show StableHlo.after hostOps1 (W4 m ρ c) (Proc.devRef .tc main_v30) = _
    after_results
    rw [W4_main_arg17] <;> rfl
  exact congrFun e _
theorem V5_b2 (j : Fin 64) : V5 m ρ c main_v33 (ix2 0 j) = arg m c main_arg18 (ix1 j) := by
  have e : V5 m ρ c main_v33 = shapeCast S1x64 (arg m c main_arg18) shapeCasts_S64_S1x64 := by
    show StableHlo.after hostOps1 (W4 m ρ c) (Proc.devRef .tc main_v33) = _
    after_results
    rw [W4_main_arg18] <;> rfl
  exact (congrFun e _).trans (shapeCast_a_1a_apply _ _ 0 j)
theorem V5_g (j : Fin 64) : V5 m ρ c main_v34 (ix2 0 j) = arg m c main_arg19 (ix1 j) := by
  have e : V5 m ρ c main_v34 = shapeCast S1x64 (arg m c main_arg19) shapeCasts_S64_S1x64 := by
    show StableHlo.after hostOps1 (W4 m ρ c) (Proc.devRef .tc main_v34) = _
    after_results
    rw [W4_main_arg19] <;> rfl
  exact (congrFun e _).trans (shapeCast_a_1a_apply _ _ 0 j)
theorem V5_bn (j : Fin 64) : V5 m ρ c main_v35 (ix2 0 j) = arg m c main_arg20 (ix1 j) := by
  have e : V5 m ρ c main_v35 = shapeCast S1x64 (arg m c main_arg20) shapeCasts_S64_S1x64 := by
    show StableHlo.after hostOps1 (W4 m ρ c) (Proc.devRef .tc main_v35) = _
    after_results
    rw [W4_main_arg20] <;> rfl
  exact (congrFun e _).trans (shapeCast_a_1a_apply _ _ 0 j)

end Cert.KernelIdeal.KV

end
-- ==== Proof.RefEdge.lean ====
/-
  The reference's per-edge stage, read one row at a time on the extended reals: row `e` of its result is
  `Spec.mlpRow` of row `e` of the gathered features and of the edge features. The contraction over the
  concatenated 96-entry row is the sum over its first 64 entries plus the sum over its last 32; the mean as a quotient by
  `64` is the product with `1/64`; the host's row sums start from the word `0`.
  The weights are named as the kernel's windows hold them (the first matrix as two row bands, the vectors as one-row
  matrices), related to the reference's own arrays entry by entry by the hypotheses.
-/
import proofs.«410253_j10892037063287_2_alg».proof.Proof.RefStages
import proofs.«410253_j10892037063287_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.Bridge

open Cert.ReferenceIdeal Cert.Spec
open Idealize.ShloMosaic Idealize.ShloMosaic.ValueIdx
open Facts₀ Facts
open scoped BigOperators

variable [Facts]

namespace RefEdge

/-! ### Indices -/

/-- Two rank-2 indices with equal coordinates are equal. -/
theorem ix_ext {n0 n1 : Nat} {x y : (⟨2, ![n0, n1]⟩ : Shape).Idx} (h0 : (x 0).val = (y 0).val)
    (h1 : (x 1).val = (y 1).val) : x = y :=
  funext fun a => Fin.ext (match a with | ⟨0, _⟩ => h0 | ⟨1, _⟩ => h1)

/-! ### A plain matrix product at an entry -/

/-- The host's product of an `M×K` by a `K×N` matrix at entry `(e, j)`: the sum over the `K` columns of the row. -/
theorem dot_plain_apply (M K N : Nat) (lhs : A2 M K) (rhs : A2 K N) (e : Fin M) (j : Fin N) :
    FloatOps.dotGeneral (F := Ideal) (φ₁ := .f32) (φ₂ := .f32) (DotDims.plain M K N) none .single lhs rhs (ix2 e j)
      = ∑ k : Fin K, lhs (ix2 e k) * rhs (ix2 k j) := by
  rw [Ideal.dotGeneral_apply]
  have hr : (DotDims.plain M K N).contr.rank = 1 := rfl
  have hs : (DotDims.plain M K N).contr.size ⟨0, by omega⟩ = K := rfl
  rw [← Equiv.sum_comp (contrEquiv1 (DotDims.plain M K N) K hr hs).symm]
  refine Finset.sum_congr rfl fun k _ => ?_
  have hl : (DotDims.plain M K N).lhsIdx (ix2 e j) ((contrEquiv1 (DotDims.plain M K N) K hr hs).symm k) = ix2 e k := by
    apply ix_ext
    · simp [DotDims.lhsIdx, DotDims.plain]; rfl
    · rw [DotDims.lhsIdx_val_of_single _ (cl := 1) rfl, contrEquiv1_symm_val]; rfl
  have hr' : (DotDims.plain M K N).rhsIdx (ix2 e j) ((contrEquiv1 (DotDims.plain M K N) K hr hs).symm k) = ix2 k j := by
    apply ix_ext
    · rw [DotDims.rhsIdx_val_of_single _ (cr := 0) rfl, contrEquiv1_symm_val]; rfl
    · simp [DotDims.rhsIdx, DotDims.plain]; rfl
  rw [hl, hr']

/-! ### The broadcasts at an entry -/

/-- A vector laid as a one-row matrix and that row repeated down the rows reads the vector at the column. -/
theorem bias_apply {R N : Nat} (h1 : (⟨1, ![N]⟩ : Shape).BroadcastsInDim ⟨2, ![1, N]⟩ ![1])
    (h2 : (⟨2, ![1, N]⟩ : Shape).BroadcastsInDim ⟨2, ![R, N]⟩ ![0, 1]) (b : (⟨1, ![N]⟩ : Shape).Idx → EReal)
    (e : Fin R) (j : Fin N) :
    broadcastInDim ⟨2, ![R, N]⟩ ![0, 1] h2 (broadcastInDim ⟨2, ![1, N]⟩ ![1] h1 b) (ix2 e j) = b (ix1 j) := by
  rw [broadcastInDim_apply _ _ _ _ (ix2 (0 : Fin 1) j), broadcastInDim_apply _ _ _ _ (ix1 j)]
  · intro a
    match a with
    | ⟨0, _⟩ =>
      show j.val = if N = 1 then 0 else j.val
      split
      · have := j.isLt; omega
      · rfl
  · intro a
    match a with
    | ⟨0, _⟩ => rfl
    | ⟨1, _⟩ =>
      show j.val = if N = 1 then 0 else j.val
      split
      · have := j.isLt; omega
      · rfl

/-- A column repeated along the columns reads the column's entry of the row. -/
theorem col_apply {R N : Nat} (h : (⟨2, ![R, 1]⟩ : Shape).BroadcastsInDim ⟨2, ![R, N]⟩ ![0, 1]) (c : A2 R 1)
    (e : Fin R) (j : Fin N) :
    broadcastInDim ⟨2, ![R, N]⟩ ![0, 1] h c (ix2 e j) = c (ix2 e 0) := by
  rw [broadcastInDim_apply _ _ _ _ (ix2 e (0 : Fin 1))]
  intro a
  match a with
  | ⟨0, _⟩ =>
    show e.val = if R = 1 then 0 else e.val
    split
    · have := e.isLt; omega
    · rfl
  | ⟨1, _⟩ => rfl

/-- A vector laid as a column reads the vector at the row. -/
theorem tocol_apply {R : Nat} (h : (⟨1, ![R]⟩ : Shape).BroadcastsInDim ⟨2, ![R, 1]⟩ ![0])
    (v : (⟨1, ![R]⟩ : Shape).Idx → EReal) (e : Fin R) :
    broadcastInDim ⟨2, ![R, 1]⟩ ![0] h v (ix2 e (0 : Fin 1)) = v (ix1 e) := by
  rw [broadcastInDim_apply _ _ _ _ (ix1 e)]
  intro a
  match a with
  | ⟨0, _⟩ =>
    show e.val = if R = 1 then 0 else e.val
    split
    · have := e.isLt; omega
    · rfl

/-- A scalar constant repeated over a whole array reads its word's value everywhere. -/
theorem splat_apply (s : Shape) (hb : S_.BroadcastsInDim s (![] : Fin 0 → Fin s.rank)) (w : BitVec 32) (i : s.Idx) :
    broadcastInDim s ![] hb (constant (F := Ideal) S_ .f32 w) i = Ideal.ofBits .f32 w := rfl

/-! ### The host's row sum at a row -/

/-- The host's sum along the columns, started from the word `0`, at row `e`: the sum over the columns. -/
theorem rowsum_apply {R N : Nat} (h' : (⟨2, ![R, N]⟩ : Shape).ReducesTo [1] ⟨1, ![R]⟩) (hu : 0 < S_.numel)
    (x : A2 R N) (e : Fin R) :
    Host.reduceAdd (F := Ideal) (φ := .f32) x (constant S_ .f32 0x00000000#32) h' hu (ix1 e) = ∑ k : Fin N, x (ix2 e k) := by
  have h : (⟨2, ![R, N]⟩ : Shape).Reduces [1] ⟨1, ![R]⟩ := ⟨h'.1, Nat.one_pos, h'.2⟩
  show Ideal.hostReduceAdd h' x (Ideal.ofBits .f32 0x00000000#32) (ix1 e) = _
  rw [Ideal.hostReduceAdd_single h' h, Ideal.ofBits_zero_f32, zero_add]
  refine Finset.sum_congr rfl fun k _ => congrArg x ?_
  apply ix_ext
  · rfl
  · rfl

/-! ### The literals -/

theorem w64 : Ideal.ofBits .f32 0x42800000#32 = ((64 : ℝ) : EReal) := by
  simp [Ideal.ofBits, Ideal.ieee, -EReal.coe_mul]; norm_num
theorem winv64 : inv64W = ((1 / 64 : ℝ) : EReal) := by
  simp [inv64W, Ideal.ofBits, Ideal.ieee, -EReal.coe_mul]; norm_num
/-- The quotient by the word of `64` is the product with the word of `1/64`. -/
theorem div64 (s : EReal) : Ideal.div s (Ideal.ofBits .f32 0x42800000#32) = s * inv64W := by
  rw [w64, winv64]; exact Ideal.div_coe (by norm_num) s

/-! ### The rectifier at an entry -/

theorem lrelu_apply (s : Shape) (hb : S_.BroadcastsInDim s (![] : Fin 0 → Fin s.rank)) (x : FVec Ideal s .f32) (i : s.Idx) :
    Stage.lrelu (F := Ideal) s hb x i = Cert.Spec.lrelu (x i) := rfl

/-! ### The concatenated row at an entry -/

/-- An entry of the concatenated row in its first 64 columns is the gathered features' entry. -/
theorem concat_left_apply (xr : FVec Ideal S800000x64 .f32) (ea : FVec Ideal S800000x32 .f32) (e : Fin 800000) (q : Fin 64) :
    concatenate S800000x96 1 [⟨S800000x64, xr⟩, ⟨S800000x32, ea⟩] concatenates_S800000x64_S800000x32_S800000x96_d1
      (ix2 e (Fin.castAdd 32 q)) = xr (ix2 e q) := by
  refine concatenate_pair_apply_left (t := S800000x96) 1 xr ea concatenates_S800000x64_S800000x32_S800000x96_d1
    (ix2 e (Fin.castAdd 32 q)) rfl (ix2 e q) ?_
  intro b
  match b with
  | ⟨0, _⟩ => rfl
  | ⟨1, _⟩ => rfl

/-- An entry in its last 32 columns is the edge features' entry, the column counted from 64. -/
theorem concat_right_apply (xr : FVec Ideal S800000x64 .f32) (ea : FVec Ideal S800000x32 .f32) (e : Fin 800000) (q : Fin 32) :
    concatenate S800000x96 1 [⟨S800000x64, xr⟩, ⟨S800000x32, ea⟩] concatenates_S800000x64_S800000x32_S800000x96_d1
      (ix2 e (Fin.natAdd 64 q)) = ea (ix2 e q) := by
  refine concatenate_pair_apply_right (t := S800000x96) 1 xr ea concatenates_S800000x64_S800000x32_S800000x96_d1
    (ix2 e (Fin.natAdd 64 q)) rfl rfl (ix2 e q) ?_ ?_
  · intro b hb
    match b with
    | ⟨0, _⟩ => rfl
    | ⟨1, _⟩ => exact absurd rfl hb
  · show q.val + 64 = 64 + q.val
    omega

/-! ### The stage's intermediates, each read at an entry -/

/-- The first layer: the concatenated row against the 96-row matrix, the bias, the rectifier. -/
def H0 (xr : FVec Ideal S800000x64 .f32) (ea : FVec Ideal S800000x32 .f32) (w0 : FVec Ideal S96x128 .f32)
    (b0 : FVec Ideal S128 .f32) : FVec Ideal S800000x128 .f32 :=
  Stage.lrelu S800000x128 bcast_S_S800000x128
    (addf (Host.dotGeneral dot_S800000x96_S96x128_S800000x128_1_0_0_1_n_n none
        (concatenate S800000x96 1 [⟨S800000x64, xr⟩, ⟨S800000x32, ea⟩] concatenates_S800000x64_S800000x32_S800000x96_d1) w0)
      (broadcastInDim S800000x128 ![0, 1] bcast_S1x128_S800000x128_0_1 (broadcastInDim S1x128 ![1] bcast_S128_S1x128_1 b0)))

/-- The contraction over the concatenated row is the sum over its first band plus the sum over its second. -/
theorem dot0_apply (xr : FVec Ideal S800000x64 .f32) (ea : FVec Ideal S800000x32 .f32) (w0 : FVec Ideal S96x128 .f32)
    (e : Fin 800000) (j : Fin 128) :
    Host.dotGeneral (F := Ideal) dot_S800000x96_S96x128_S800000x128_1_0_0_1_n_n none
        (concatenate S800000x96 1 [⟨S800000x64, xr⟩, ⟨S800000x32, ea⟩] concatenates_S800000x64_S800000x32_S800000x96_d1) w0 (ix2 e j)
      = (∑ q : Fin 64, xr (ix2 e q) * w0 (ix2 (Fin.castAdd 32 q) j))
        + ∑ q : Fin 32, ea (ix2 e q) * w0 (ix2 (Fin.natAdd 64 q) j) := by
  have key := dot_plain_apply 800000 96 128
    (concatenate S800000x96 1 [⟨S800000x64, xr⟩, ⟨S800000x32, ea⟩] concatenates_S800000x64_S800000x32_S800000x96_d1) w0 e j
  rw [Fin.sum_univ_add (a := 64) (b := 32)] at key
  refine key.trans ?_
  congr 1
  · exact Finset.sum_congr rfl fun q _ => by rw [concat_left_apply]
  · exact Finset.sum_congr rfl fun q _ => by rw [concat_right_apply]

theorem H0_apply (xr : FVec Ideal S800000x64 .f32) (ea : FVec Ideal S800000x32 .f32) (w0 : FVec Ideal S96x128 .f32)
    (b0 : FVec Ideal S128 .f32) (e : Fin 800000) (j : Fin 128) :
    H0 xr ea w0 b0 (ix2 e j)
      = layer0 (fun k => xr (ix2 e k)) (fun k => ea (ix2 e k)) (fun k j => w0 (ix2 (Fin.castAdd 32 k) j))
          (fun k j => w0 (ix2 (Fin.natAdd 64 k) j)) (fun j => b0 (ix1 j)) j := by
  unfold H0 layer0
  rw [lrelu_apply, addf_apply, bias_apply, dot0_apply]

/-- A later layer: one product, the bias, the rectifier. -/
def H1 (h : FVec Ideal S800000x128 .f32) (w1 : FVec Ideal S128x128 .f32) (b1 : FVec Ideal S128 .f32) :
    FVec Ideal S800000x128 .f32 :=
  Stage.lrelu S800000x128 bcast_S_S800000x128
    (addf (Host.dotGeneral dot_S800000x128_S128x128_S800000x128_1_0_0_1_n_n none h w1)
      (broadcastInDim S800000x128 ![0, 1] bcast_S1x128_S800000x128_0_1 (broadcastInDim S1x128 ![1] bcast_S128_S1x128_1 b1)))

theorem H1_apply (h : FVec Ideal S800000x128 .f32) (w1 : FVec Ideal S128x128 .f32) (b1 : FVec Ideal S128 .f32)
    (e : Fin 800000) (j : Fin 128) :
    H1 h w1 b1 (ix2 e j) = layer (fun k => h (ix2 e k)) (fun k j => w1 (ix2 k j)) (fun j => b1 (ix1 j)) j := by
  unfold H1 layer
  rw [lrelu_apply, addf_apply, bias_apply]
  exact congrArg (fun t => Cert.Spec.lrelu (t + b1 (ix1 j))) (dot_plain_apply 800000 128 128 h w1 e j)

def H2 (h : FVec Ideal S800000x128 .f32) (w2 : FVec Ideal S128x64 .f32) (b2 : FVec Ideal S64 .f32) :
    FVec Ideal S800000x64 .f32 :=
  Stage.lrelu S800000x64 bcast_S_S800000x64
    (addf (Host.dotGeneral dot_S800000x128_S128x64_S800000x64_1_0_0_1_n_n none h w2)
      (broadcastInDim S800000x64 ![0, 1] bcast_S1x64_S800000x64_0_1 (broadcastInDim S1x64 ![1] bcast_S64_S1x64_1 b2)))

theorem H2_apply (h : FVec Ideal S800000x128 .f32) (w2 : FVec Ideal S128x64 .f32) (b2 : FVec Ideal S64 .f32)
    (e : Fin 800000) (j : Fin 64) :
    H2 h w2 b2 (ix2 e j) = layer (fun k => h (ix2 e k)) (fun k j => w2 (ix2 k j)) (fun j => b2 (ix1 j)) j := by
  unfold H2 layer
  rw [lrelu_apply, addf_apply, bias_apply]
  exact congrArg (fun t => Cert.Spec.lrelu (t + b2 (ix1 j))) (dot_plain_apply 800000 128 64 h w2 e j)

/-- The row mean as a column: the row sum divided by the word of `64`. -/
def Mu (h : FVec Ideal S800000x64 .f32) : FVec Ideal S800000x1 .f32 :=
  Host.divf
    (broadcastInDim S800000x1 ![0] bcast_S800000_S800000x1_0
      (Host.reduceAdd h (constant S_ .f32 0x00000000#32) reducesTo_S800000x64_S800000_d1 h_S_))
    (broadcastInDim S800000x1 ![] bcast_S_S800000x1 (constant S_ .f32 0x42800000#32))

theorem Mu_apply (h : FVec Ideal S800000x64 .f32) (e : Fin 800000) :
    Mu h (ix2 e (0 : Fin 1)) = (∑ k : Fin 64, h (ix2 e k)) * inv64W := by
  unfold Mu
  show Ideal.div (broadcastInDim S800000x1 ![0] bcast_S800000_S800000x1_0
      (Host.reduceAdd h (constant (F := Ideal) S_ .f32 0x00000000#32) reducesTo_S800000x64_S800000_d1 h_S_) (ix2 e (0 : Fin 1)))
    (broadcastInDim S800000x1 ![] bcast_S_S800000x1 (constant (F := Ideal) S_ .f32 0x42800000#32) (ix2 e (0 : Fin 1))) = _
  rw [tocol_apply, splat_apply, rowsum_apply, div64]

/-- The deviation from the row mean. -/
def Dv (h : FVec Ideal S800000x64 .f32) : FVec Ideal S800000x64 .f32 :=
  subf h (broadcastInDim S800000x64 ![0, 1] bcast_S800000x1_S800000x64_0_1 (Mu h))

theorem Dv_apply (h : FVec Ideal S800000x64 .f32) (e : Fin 800000) (k : Fin 64) :
    Dv h (ix2 e k) = h (ix2 e k) - (∑ q : Fin 64, h (ix2 e q)) * inv64W := by
  unfold Dv
  rw [subf_apply, col_apply, Mu_apply]

/-- The reciprocal root of the row variance plus the word of ε, as a column. -/
def Rs (h : FVec Ideal S800000x64 .f32) : FVec Ideal S800000x1 .f32 :=
  Host.rsqrt (addf (Mu (mulf (Dv h) (Dv h)))
    (broadcastInDim S800000x1 ![] bcast_S_S800000x1 (constant S_ .f32 0x3727C5AC#32)))

theorem Rs_apply (h : FVec Ideal S800000x64 .f32) (e : Fin 800000) :
    Rs h (ix2 e (0 : Fin 1))
      = Ideal.rsqrt ((∑ k : Fin 64, Dv h (ix2 e k) * Dv h (ix2 e k)) * inv64W + epsW) := by
  unfold Rs
  show Ideal.rsqrt (Mu (mulf (Dv h) (Dv h)) (ix2 e (0 : Fin 1))
    + broadcastInDim S800000x1 ![] bcast_S_S800000x1 (constant (F := Ideal) S_ .f32 0x3727C5AC#32) (ix2 e (0 : Fin 1))) = _
  rw [Mu_apply, splat_apply]
  rfl

/-- The normalisation of the third layer's output. -/
def LN (h : FVec Ideal S800000x64 .f32) (g bn : FVec Ideal S64 .f32) : FVec Ideal S800000x64 .f32 :=
  addf
    (mulf (mulf (Dv h) (broadcastInDim S800000x64 ![0, 1] bcast_S800000x1_S800000x64_0_1 (Rs h)))
      (broadcastInDim S800000x64 ![0, 1] bcast_S1x64_S800000x64_0_1 (broadcastInDim S1x64 ![1] bcast_S64_S1x64_1 g)))
    (broadcastInDim S800000x64 ![0, 1] bcast_S1x64_S800000x64_0_1 (broadcastInDim S1x64 ![1] bcast_S64_S1x64_1 bn))

theorem LN_apply (h : FVec Ideal S800000x64 .f32) (g bn : FVec Ideal S64 .f32) (e : Fin 800000) (j : Fin 64) :
    LN h g bn (ix2 e j) = ln64 (fun k => h (ix2 e k)) (fun j => g (ix1 j)) (fun j => bn (ix1 j)) j := by
  unfold LN ln64
  rw [addf_apply, mulf_apply, mulf_apply, bias_apply, bias_apply, col_apply, Rs_apply]
  simp only [Dv_apply]

/-- The stage is these, composed. -/
theorem edgeStage_unfold (xr : FVec Ideal S800000x64 .f32) (ea : FVec Ideal S800000x32 .f32) (w0 : FVec Ideal S96x128 .f32)
    (b0 : FVec Ideal S128 .f32) (w1 : FVec Ideal S128x128 .f32) (b1 : FVec Ideal S128 .f32) (w2 : FVec Ideal S128x64 .f32)
    (b2 g bn : FVec Ideal S64 .f32) :
    Stage.edgeStage (F := Ideal) xr ea w0 b0 w1 b1 w2 b2 g bn = LN (H2 (H1 (H0 xr ea w0 b0) w1 b1) w2 b2) g bn := by
  unfold Stage.edgeStage LN Rs Dv Mu H2 H1 H0
  rfl

/-- Row `e` of the stage's result is the specification's row of row `e` of its two inputs. -/
theorem edgeStage_row (xr : FVec Ideal S800000x64 .f32) (ea : FVec Ideal S800000x32 .f32) (w0 : FVec Ideal S96x128 .f32)
    (b0 : FVec Ideal S128 .f32) (w1 : FVec Ideal S128x128 .f32) (b1 : FVec Ideal S128 .f32) (w2 : FVec Ideal S128x64 .f32)
    (b2 g bn : FVec Ideal S64 .f32) (e : Fin 800000) (j : Fin 64) :
    Stage.edgeStage (F := Ideal) xr ea w0 b0 w1 b1 w2 b2 g bn (ix2 e j)
      = mlpRow (fun k => xr (ix2 e k)) (fun k => ea (ix2 e k)) (fun k j => w0 (ix2 (Fin.castAdd 32 k) j))
          (fun k j => w0 (ix2 (Fin.natAdd 64 k) j)) (fun j => b0 (ix1 j)) (fun k j => w1 (ix2 k j)) (fun j => b1 (ix1 j))
          (fun k j => w2 (ix2 k j)) (fun j => b2 (ix1 j)) (fun j => g (ix1 j)) (fun j => bn (ix1 j)) j := by
  rw [edgeStage_unfold, LN_apply]
  have e0 : (fun k => H0 xr ea w0 b0 (ix2 e k))
      = layer0 (fun k => xr (ix2 e k)) (fun k => ea (ix2 e k)) (fun k j => w0 (ix2 (Fin.castAdd 32 k) j))
          (fun k j => w0 (ix2 (Fin.natAdd 64 k) j)) (fun j => b0 (ix1 j)) :=
    funext fun k => H0_apply xr ea w0 b0 e k
  have e1 : (fun k => H1 (H0 xr ea w0 b0) w1 b1 (ix2 e k))
      = layer (layer0 (fun k => xr (ix2 e k)) (fun k => ea (ix2 e k)) (fun k j => w0 (ix2 (Fin.castAdd 32 k) j))
          (fun k j => w0 (ix2 (Fin.natAdd 64 k) j)) (fun j => b0 (ix1 j))) (fun k j => w1 (ix2 k j)) (fun j => b1 (ix1 j)) := by
    funext k
    rw [H1_apply, e0]
  have e2 : (fun k => H2 (H1 (H0 xr ea w0 b0) w1 b1) w2 b2 (ix2 e k))
      = layer (layer (layer0 (fun k => xr (ix2 e k)) (fun k => ea (ix2 e k)) (fun k j => w0 (ix2 (Fin.castAdd 32 k) j))
          (fun k j => w0 (ix2 (Fin.natAdd 64 k) j)) (fun j => b0 (ix1 j))) (fun k j => w1 (ix2 k j)) (fun j => b1 (ix1 j)))
          (fun k j => w2 (ix2 k j)) (fun j => b2 (ix1 j)) := by
    funext k
    rw [H2_apply, e1]
  unfold mlpRow
  rw [e2]

end RefEdge

open RefEdge in
theorem edgeStage_eq (xr : FVec Ideal S800000x64 .f32) (ea : FVec Ideal S800000x32 .f32) (w0 : FVec Ideal S96x128 .f32)
    (b0 : FVec Ideal S128 .f32) (w1 : FVec Ideal S128x128 .f32) (b1 : FVec Ideal S128 .f32) (w2 : FVec Ideal S128x64 .f32)
    (b2 g bn : FVec Ideal S64 .f32)
    (w0x : A2 64 128) (w0e : A2 32 128) (b0r : A2 1 128) (w1k : A2 128 128) (b1r : A2 1 128) (w2k : A2 128 64)
    (b2r gr bnr : A2 1 64)
    (h0x : ∀ (k : Fin 64) (j : Fin 128), w0x (ix2 k j) = w0 (ix2 (Fin.castAdd 32 k) j))
    (h0e : ∀ (k : Fin 32) (j : Fin 128), w0e (ix2 k j) = w0 (ix2 (Fin.natAdd 64 k) j))
    (hb0 : ∀ j : Fin 128, b0r (ix2 0 j) = b0 (ix1 j))
    (h1 : ∀ (k : Fin 128) (j : Fin 128), w1k (ix2 k j) = w1 (ix2 k j))
    (hb1 : ∀ j : Fin 128, b1r (ix2 0 j) = b1 (ix1 j))
    (h2 : ∀ (k : Fin 128) (j : Fin 64), w2k (ix2 k j) = w2 (ix2 k j))
    (hb2 : ∀ j : Fin 64, b2r (ix2 0 j) = b2 (ix1 j))
    (hg : ∀ j : Fin 64, gr (ix2 0 j) = g (ix1 j))
    (hbn : ∀ j : Fin 64, bnr (ix2 0 j) = bn (ix1 j)) :
    Stage.edgeStage (F := Ideal) xr ea w0 b0 w1 b1 w2 b2 g bn
      = edgeArr xr ea w0x w0e b0r w1k b1r w2k b2r gr bnr := by
  funext i
  obtain ⟨e, j, rfl⟩ : ∃ (e : Fin 800000) (j : Fin 64), i = ix2 e j :=
    ⟨⟨(i 0).val, idx2_lt0 i⟩, ⟨(i 1).val, idx2_lt1 i⟩, eq_ix2 i⟩
  rw [edgeStage_row]
  simp only [edgeArr, h0x, h0e, hb0, h1, hb1, h2, hb2, hg, hbn]

end Cert.ReferenceIdeal.Bridge

end
-- ==== Proof.RefNode.lean ====
/-
  The reference's per-node stage, read one row at a time on the extended reals: row `n` of its result is
  `Spec.mlpRow` of row `n` of the node features and of the segment sum divided by `max(count, 1)`. The contraction over the
  concatenated 128-entry row is the sum over its first 64 entries plus the sum over its last 64; the mean as a quotient by
  `64` is the product with `1/64`; the host's row sums start from the word `0`.
  The weights are named as the kernel's windows hold them, and the count as the one-column matrix the kernel's window
  holds, related to the reference's own arrays entry by entry by the hypotheses.
-/
import proofs.«410253_j10892037063287_2_alg».proof.Proof.RefStages
import proofs.«410253_j10892037063287_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.Bridge

open Cert.ReferenceIdeal Cert.Spec
open Idealize.ShloMosaic Idealize.ShloMosaic.ValueIdx
open Facts₀ Facts
open scoped BigOperators

/-! ## Operations of the stage read at an index -/

namespace Node

section Generic
variable {n K m : Nat}

/-- Two rank-2 indices with the same coordinates are equal. -/
theorem idx2_ext {d : Fin 2 → Nat} {x y : (⟨2, d⟩ : Shape).Idx} (h0 : (x 0).val = (y 0).val) (h1 : (x 1).val = (y 1).val) : x = y :=
  funext fun a => Fin.ext <| match a with | ⟨0, _⟩ => h0 | ⟨1, _⟩ => h1

/-- A coordinate of a rank-2 index read at two equal axis numbers. -/
theorem idx2_val_congr {d : Fin 2 → Nat} (j : (⟨2, d⟩ : Shape).Idx) (p q : Nat) (hp : p < 2) (hq : q < 2) (h : p = q) :
    (j ⟨p, hp⟩).val = (j ⟨q, hq⟩).val := by subst h; rfl

/-- In a plain matrix product the left operand's row is the result's row … -/
theorem dot_lhs0 (D : DotDims ⟨2, ![n, K]⟩ ⟨2, ![K, m]⟩ ⟨2, ![n, m]⟩)
    (hln : D.lhsNonContracting = [0]) (hlb : D.lhsBatch = [])
    (j : (⟨2, ![n, m]⟩ : Shape).Idx) (k : D.contr.Idx) : (D.lhsIdx j k 0).val = (j 0).val := by
  unfold DotDims.lhsIdx
  rw [dif_neg (by rw [hlb]; exact List.not_mem_nil), dif_pos (by rw [hln]; exact List.mem_singleton.mpr rfl)]
  simp only [Fin.val_cast]
  exact idx2_val_congr j _ _ _ _ (by simp [hlb, hln])

/-- … and the right operand's column is the result's column. -/
theorem dot_rhs1 (D : DotDims ⟨2, ![n, K]⟩ ⟨2, ![K, m]⟩ ⟨2, ![n, m]⟩)
    (hln : D.lhsNonContracting = [0]) (hlb : D.lhsBatch = []) (hrn : D.rhsNonContracting = [1]) (hrb : D.rhsBatch = [])
    (j : (⟨2, ![n, m]⟩ : Shape).Idx) (k : D.contr.Idx) : (D.rhsIdx j k 1).val = (j 1).val := by
  unfold DotDims.rhsIdx
  rw [dif_neg (by rw [hrb]; exact List.not_mem_nil), dif_pos (by rw [hrn]; exact List.mem_singleton.mpr rfl)]
  simp only [Fin.val_cast]
  exact idx2_val_congr j _ _ _ _ (by simp [hlb, hln, hrn])

/-- A plain matrix product on the host, read at row `r` and column `j`: the sum over the contracted axis. -/
theorem dot_apply (D : DotDims ⟨2, ![n, K]⟩ ⟨2, ![K, m]⟩ ⟨2, ![n, m]⟩)
    (hlc : D.lhsContracting = [1]) (hrc : D.rhsContracting = [0])
    (hln : D.lhsNonContracting = [0]) (hrn : D.rhsNonContracting = [1])
    (hlb : D.lhsBatch = []) (hrb : D.rhsBatch = [])
    (l : FVec Ideal ⟨2, ![n, K]⟩ .f32) (w : FVec Ideal ⟨2, ![K, m]⟩ .f32) (r : Fin n) (j : Fin m) :
    Host.dotGeneral D none l w (ix2 r j) = ∑ k : Fin K, l (ix2 r k) * w (ix2 k j) := by
  have hr : D.contr.rank = 1 := by rw [D.rank_contr, hlc]; rfl
  have hs : D.contr.size ⟨0, by omega⟩ = K := by
    rw [D.size_contr 0 (by rw [hlc]; exact Nat.one_pos)]; simp [hlc]
  show FloatOps.dotGeneral D none .single l w (ix2 r j) = _
  rw [Ideal.dotGeneral_apply, ← Equiv.sum_comp (contrEquiv1 D K hr hs).symm]
  refine Finset.sum_congr rfl fun k _ => ?_
  congr 2
  · apply idx2_ext
    · rw [dot_lhs0 D hln hlb]; rfl
    · rw [DotDims.lhsIdx_val_of_single D hlc, contrEquiv1_symm_val]; rfl
  · apply idx2_ext
    · rw [DotDims.rhsIdx_val_of_single D hrc, contrEquiv1_symm_val]; rfl
    · rw [dot_rhs1 D hln hlb hrn hrb]; rfl

/-- The host's row sums, read at row `r`: the initial value plus the sum over the columns. -/
theorem rowsum_apply (h' : (⟨2, ![n, m]⟩ : Shape).ReducesTo [1] ⟨1, ![n]⟩) (x : (⟨2, ![n, m]⟩ : Shape).Idx → EReal)
    (init : EReal) (r : Fin n) :
    Ideal.hostReduceAdd h' x init (ix1 r) = init + ∑ k : Fin m, x (ix2 r k) := by
  have h : (⟨2, ![n, m]⟩ : Shape).Reduces [1] ⟨1, ![n]⟩ := ⟨h'.1, Nat.one_pos, h'.2⟩
  rw [Ideal.hostReduceAdd_single h' h]
  congr 1
  refine Finset.sum_congr rfl fun k _ => ?_
  congr 1
  apply idx2_ext <;> rfl

/-- A vector broadcast to a one-row matrix and that to every row, read at `(r, j)`: the vector's entry `j`. -/
theorem bcast_vec_apply {α : Type} (h1 : (⟨2, ![1, m]⟩ : Shape).BroadcastsInDim ⟨2, ![n, m]⟩ ![0, 1])
    (h2 : (⟨1, ![m]⟩ : Shape).BroadcastsInDim ⟨2, ![1, m]⟩ ![1])
    (b : (⟨1, ![m]⟩ : Shape).Idx → α) (r : Fin n) (j : Fin m) :
    broadcastInDim ⟨2, ![n, m]⟩ ![0, 1] h1 (broadcastInDim ⟨2, ![1, m]⟩ ![1] h2 b) (ix2 r j) = b (ix1 j) := by
  rw [broadcastInDim_apply ![0, 1] h1 _ (ix2 r j) (ix2 (0 : Fin 1) j) ?_,
    broadcastInDim_apply ![1] h2 b (ix2 (0 : Fin 1) j) (ix1 j) ?_]
  · intro a
    match a with
    | ⟨0, _⟩ =>
      show j.val = if m = 1 then 0 else j.val
      split_ifs with hm
      · have := j.isLt; omega
      · rfl
  · intro a
    match a with
    | ⟨0, _⟩ => rfl
    | ⟨1, _⟩ =>
      show j.val = if m = 1 then 0 else j.val
      split_ifs with hm
      · have := j.isLt; omega
      · rfl

/-- A one-column matrix broadcast along the rows, read at `(r, j)`: the column's entry `r`. -/
theorem bcast_col_apply {α : Type} (h1 : (⟨2, ![n, 1]⟩ : Shape).BroadcastsInDim ⟨2, ![n, m]⟩ ![0, 1])
    (v : (⟨2, ![n, 1]⟩ : Shape).Idx → α) (r : Fin n) (j : Fin m) :
    broadcastInDim ⟨2, ![n, m]⟩ ![0, 1] h1 v (ix2 r j) = v (ix2 r 0) := by
  rw [broadcastInDim_apply ![0, 1] h1 v (ix2 r j) (ix2 r (0 : Fin 1)) ?_]
  intro a
  match a with
  | ⟨0, _⟩ =>
    show r.val = if n = 1 then 0 else r.val
    split_ifs with hm
    · have := r.isLt; omega
    · rfl
  | ⟨1, _⟩ => rfl

/-- A vector as a one-column matrix, read at row `r`: the vector's entry `r`. -/
theorem bcast_vcol_apply {α : Type} (h1 : (⟨1, ![n]⟩ : Shape).BroadcastsInDim ⟨2, ![n, 1]⟩ ![0])
    (u : (⟨1, ![n]⟩ : Shape).Idx → α) (r : Fin n) :
    broadcastInDim ⟨2, ![n, 1]⟩ ![0] h1 u (ix2 r (0 : Fin 1)) = u (ix1 r) := by
  rw [broadcastInDim_apply ![0] h1 u (ix2 r (0 : Fin 1)) (ix1 r) ?_]
  intro a
  match a with
  | ⟨0, _⟩ =>
    show r.val = if n = 1 then 0 else r.val
    split_ifs with hm
    · have := r.isLt; omega
    · rfl

end Generic

section Generic2
variable {n K m : Nat}

/-- A two-piece concatenation along the columns, read in the first piece … -/
theorem concat_left {α : Type} {a b c : Nat}
    (h : Shape.Concatenates [(⟨2, ![n, a]⟩ : Shape), ⟨2, ![n, b]⟩] ⟨2, ![n, c]⟩ 1)
    (x₁ : (⟨2, ![n, a]⟩ : Shape).Idx → α) (x₂ : (⟨2, ![n, b]⟩ : Shape).Idx → α) (r : Fin n) (k : Fin a) (k' : Fin c)
    (hk : k'.val = k.val) :
    concatenate ⟨2, ![n, c]⟩ 1 [⟨⟨2, ![n, a]⟩, x₁⟩, ⟨⟨2, ![n, b]⟩, x₂⟩] h (ix2 r k') = x₁ (ix2 r k) :=
  concatenate_pair_apply_left 1 x₁ x₂ h (ix2 r k') rfl (ix2 r k)
    (fun q => match q with | ⟨0, _⟩ => rfl | ⟨1, _⟩ => hk.symm)

/-- … and in the second piece, the column the first piece's width less. -/
theorem concat_right {α : Type} {a b c : Nat}
    (h : Shape.Concatenates [(⟨2, ![n, a]⟩ : Shape), ⟨2, ![n, b]⟩] ⟨2, ![n, c]⟩ 1)
    (x₁ : (⟨2, ![n, a]⟩ : Shape).Idx → α) (x₂ : (⟨2, ![n, b]⟩ : Shape).Idx → α) (r : Fin n) (k : Fin b) (k' : Fin c)
    (hk : k.val + a = k'.val) :
    concatenate ⟨2, ![n, c]⟩ 1 [⟨⟨2, ![n, a]⟩, x₁⟩, ⟨⟨2, ![n, b]⟩, x₂⟩] h (ix2 r k') = x₂ (ix2 r k) :=
  concatenate_pair_apply_right 1 x₁ x₂ h (ix2 r k') rfl rfl (ix2 r k)
    (fun q hq => match q, hq with | ⟨0, _⟩, _ => rfl | ⟨1, _⟩, hq => absurd rfl hq) hk

/-- The rectifier of the reference, read at an index, is the specification's. -/
theorem lrelu_apply (s : Shape) (hb : S_.BroadcastsInDim s (![] : Fin 0 → Fin s.rank)) (x : FVec Ideal s .f32) (i : s.Idx) :
    Stage.lrelu s hb x i = Spec.lrelu (x i) := rfl

/-- A dense layer of the reference (matrix product, bias row, rectifier), read at `(r, j)`. -/
theorem dense_apply (D : DotDims ⟨2, ![n, K]⟩ ⟨2, ![K, m]⟩ ⟨2, ![n, m]⟩)
    (hlc : D.lhsContracting = [1]) (hrc : D.rhsContracting = [0])
    (hln : D.lhsNonContracting = [0]) (hrn : D.rhsNonContracting = [1])
    (hlb : D.lhsBatch = []) (hrb : D.rhsBatch = [])
    (hb0 : S_.BroadcastsInDim ⟨2, ![n, m]⟩ ![])
    (h1 : (⟨2, ![1, m]⟩ : Shape).BroadcastsInDim ⟨2, ![n, m]⟩ ![0, 1])
    (h2 : (⟨1, ![m]⟩ : Shape).BroadcastsInDim ⟨2, ![1, m]⟩ ![1])
    (l : FVec Ideal ⟨2, ![n, K]⟩ .f32) (w : FVec Ideal ⟨2, ![K, m]⟩ .f32) (b : FVec Ideal ⟨1, ![m]⟩ .f32)
    (r : Fin n) (j : Fin m) :
    Stage.lrelu ⟨2, ![n, m]⟩ hb0 (addf (Host.dotGeneral D none l w)
        (broadcastInDim ⟨2, ![n, m]⟩ ![0, 1] h1 (broadcastInDim ⟨2, ![1, m]⟩ ![1] h2 b))) (ix2 r j)
      = Spec.lrelu ((∑ k : Fin K, l (ix2 r k) * w (ix2 k j)) + b (ix1 j)) := by
  rw [lrelu_apply, addf_apply, dot_apply D hlc hrc hln hrn hlb hrb, bcast_vec_apply]

/-- So a dense layer's row is the specification's layer of the input's row. -/
theorem dense_row (D : DotDims ⟨2, ![n, K]⟩ ⟨2, ![K, m]⟩ ⟨2, ![n, m]⟩)
    (hlc : D.lhsContracting = [1]) (hrc : D.rhsContracting = [0])
    (hln : D.lhsNonContracting = [0]) (hrn : D.rhsNonContracting = [1])
    (hlb : D.lhsBatch = []) (hrb : D.rhsBatch = [])
    (hb0 : S_.BroadcastsInDim ⟨2, ![n, m]⟩ ![])
    (h1 : (⟨2, ![1, m]⟩ : Shape).BroadcastsInDim ⟨2, ![n, m]⟩ ![0, 1])
    (h2 : (⟨1, ![m]⟩ : Shape).BroadcastsInDim ⟨2, ![1, m]⟩ ![1])
    (l : FVec Ideal ⟨2, ![n, K]⟩ .f32) (w : FVec Ideal ⟨2, ![K, m]⟩ .f32) (b : FVec Ideal ⟨1, ![m]⟩ .f32)
    (r : Fin n) (row : Fin K → EReal) (hrow : ∀ k, l (ix2 r k) = row k) :
    (fun j : Fin m => Stage.lrelu ⟨2, ![n, m]⟩ hb0 (addf (Host.dotGeneral D none l w)
        (broadcastInDim ⟨2, ![n, m]⟩ ![0, 1] h1 (broadcastInDim ⟨2, ![1, m]⟩ ![1] h2 b))) (ix2 r j))
      = layer row (fun k j => w (ix2 k j)) (fun j => b (ix1 j)) := by
  funext j
  rw [dense_apply D hlc hrc hln hrn hlb hrb]
  unfold layer
  simp only [hrow]

/-- The first layer over a concatenated row: the sum over the 128 columns is the sum over the first 64 plus the sum
    over the last 64, each against its band of the weight matrix. -/
theorem layer0_row (D : DotDims ⟨2, ![n, 128]⟩ ⟨2, ![128, 128]⟩ ⟨2, ![n, 128]⟩)
    (hlc : D.lhsContracting = [1]) (hrc : D.rhsContracting = [0])
    (hln : D.lhsNonContracting = [0]) (hrn : D.rhsNonContracting = [1])
    (hlb : D.lhsBatch = []) (hrb : D.rhsBatch = [])
    (hb0 : S_.BroadcastsInDim ⟨2, ![n, 128]⟩ ![])
    (h1 : (⟨2, ![1, 128]⟩ : Shape).BroadcastsInDim ⟨2, ![n, 128]⟩ ![0, 1])
    (h2 : (⟨1, ![128]⟩ : Shape).BroadcastsInDim ⟨2, ![1, 128]⟩ ![1])
    (hc : Shape.Concatenates [(⟨2, ![n, 64]⟩ : Shape), ⟨2, ![n, 64]⟩] ⟨2, ![n, 128]⟩ 1)
    (x a : FVec Ideal ⟨2, ![n, 64]⟩ .f32) (w : FVec Ideal ⟨2, ![128, 128]⟩ .f32) (b : FVec Ideal ⟨1, ![128]⟩ .f32)
    (r : Fin n) (u v : Fin 64 → EReal) (hu : ∀ k, x (ix2 r k) = u k) (hv : ∀ k, a (ix2 r k) = v k) :
    (fun j : Fin 128 => Stage.lrelu ⟨2, ![n, 128]⟩ hb0 (addf (Host.dotGeneral D none
          (concatenate ⟨2, ![n, 128]⟩ 1 [⟨⟨2, ![n, 64]⟩, x⟩, ⟨⟨2, ![n, 64]⟩, a⟩] hc) w)
        (broadcastInDim ⟨2, ![n, 128]⟩ ![0, 1] h1 (broadcastInDim ⟨2, ![1, 128]⟩ ![1] h2 b))) (ix2 r j))
      = layer0 u v (fun k j => w (ix2 (Fin.castAdd 64 k) j)) (fun k j => w (ix2 (Fin.natAdd 64 k) j))
          (fun j => b (ix1 j)) := by
  funext j
  rw [dense_apply D hlc hrc hln hrn hlb hrb]
  unfold layer0
  rw [Fin.sum_univ_add (a := 64) (b := 64)]
  have hL : ∀ k : Fin 64, concatenate ⟨2, ![n, 128]⟩ 1 [⟨⟨2, ![n, 64]⟩, x⟩, ⟨⟨2, ![n, 64]⟩, a⟩] hc (ix2 r (Fin.castAdd 64 k)) = u k :=
    fun k => (concat_left hc x a r k (Fin.castAdd 64 k) rfl).trans (hu k)
  have hR : ∀ k : Fin 64, concatenate ⟨2, ![n, 128]⟩ 1 [⟨⟨2, ![n, 64]⟩, x⟩, ⟨⟨2, ![n, 64]⟩, a⟩] hc (ix2 r (Fin.natAdd 64 k)) = v k :=
    fun k => (concat_right hc x a r k (Fin.natAdd 64 k) (Nat.add_comm _ _)).trans (hv k)
  simp only [hL, hR]

end Generic2

/-! ## The literals -/

/-- The word `0x42800000` is `64`, the word `0x3C800000` is `1/64`. -/
theorem word64 : Ideal.ofBits .f32 0x42800000#32 = ((64 : ℝ) : EReal) := by
  simp [Ideal.ofBits, Ideal.ieee, -EReal.coe_mul]; norm_num
theorem wordInv64 : inv64W = ((1 / 64 : ℝ) : EReal) := by
  simp [Ideal.ofBits, Ideal.ieee, -EReal.coe_mul]; norm_num

/-- The quotient by the word of `64` is the product with the word of `1/64`. -/
theorem div64 (s : EReal) : Ideal.div s (Ideal.ofBits .f32 0x42800000#32) = s * inv64W := by
  rw [word64, wordInv64]; exact Ideal.div_coe (by norm_num) s

variable [Facts]

/-! ## The normalisation -/

/-- The reference's row mean as it computes it: the row sums from the word `0`, as a column, divided by `64`. -/
def muT (h : FVec Ideal S50000x64 .f32) : FVec Ideal S50000x1 .f32 :=
  Host.divf
    (broadcastInDim S50000x1 ![0] bcast_S50000_S50000x1_0
      (Host.reduceAdd h (constant S_ .f32 0x00000000#32) reducesTo_S50000x64_S50000_d1 h_S_))
    (broadcastInDim S50000x1 ![] bcast_S_S50000x1 (constant S_ .f32 0x42800000#32))

theorem muT_apply (h : FVec Ideal S50000x64 .f32) (r : Fin 50000) :
    muT h (ix2 r 0) = (∑ k : Fin 64, h (ix2 r k)) * inv64W := by
  show Ideal.div (broadcastInDim S50000x1 ![0] bcast_S50000_S50000x1_0
      (Ideal.hostReduceAdd reducesTo_S50000x64_S50000_d1 h (Ideal.ofBits .f32 0x00000000#32)) (ix2 r 0))
    (Ideal.ofBits .f32 0x42800000#32) = _
  rw [bcast_vcol_apply, rowsum_apply, Ideal.ofBits_zero_f32, zero_add, div64]

/-- The centred rows. -/
def dT (h : FVec Ideal S50000x64 .f32) : FVec Ideal S50000x64 .f32 :=
  subf h (broadcastInDim S50000x64 ![0, 1] bcast_S50000x1_S50000x64_0_1 (muT h))

theorem dT_apply (h : FVec Ideal S50000x64 .f32) (r : Fin 50000) (k : Fin 64) :
    dT h (ix2 r k) = h (ix2 r k) - (∑ q : Fin 64, h (ix2 r q)) * inv64W := by
  show h (ix2 r k) - broadcastInDim S50000x64 ![0, 1] bcast_S50000x1_S50000x64_0_1 (muT h) (ix2 r k) = _
  rw [bcast_col_apply, muT_apply]

/-- The normalisation as the reference computes it, as a function of the third layer's output. -/
def lnT (h : FVec Ideal S50000x64 .f32) (g bn : FVec Ideal S64 .f32) : FVec Ideal S50000x64 .f32 :=
  addf
    (mulf (mulf (dT h) (broadcastInDim S50000x64 ![0, 1] bcast_S50000x1_S50000x64_0_1
        (Host.rsqrt (addf (muT (mulf (dT h) (dT h)))
          (broadcastInDim S50000x1 ![] bcast_S_S50000x1 (constant S_ .f32 0x3727C5AC#32))))))
      (broadcastInDim S50000x64 ![0, 1] bcast_S1x64_S50000x64_0_1 (broadcastInDim S1x64 ![1] bcast_S64_S1x64_1 g)))
    (broadcastInDim S50000x64 ![0, 1] bcast_S1x64_S50000x64_0_1 (broadcastInDim S1x64 ![1] bcast_S64_S1x64_1 bn))

theorem lnT_apply (h : FVec Ideal S50000x64 .f32) (g bn : FVec Ideal S64 .f32) (r : Fin 50000) (c : Fin 64) :
    lnT h g bn (ix2 r c) = ln64 (fun k => h (ix2 r k)) (fun j => g (ix1 j)) (fun j => bn (ix1 j)) c := by
  show dT h (ix2 r c) * broadcastInDim S50000x64 ![0, 1] bcast_S50000x1_S50000x64_0_1
        (Host.rsqrt (addf (muT (mulf (dT h) (dT h)))
          (broadcastInDim S50000x1 ![] bcast_S_S50000x1 (constant S_ .f32 0x3727C5AC#32)))) (ix2 r c)
      * broadcastInDim S50000x64 ![0, 1] bcast_S1x64_S50000x64_0_1 (broadcastInDim S1x64 ![1] bcast_S64_S1x64_1 g) (ix2 r c)
      + broadcastInDim S50000x64 ![0, 1] bcast_S1x64_S50000x64_0_1 (broadcastInDim S1x64 ![1] bcast_S64_S1x64_1 bn) (ix2 r c) = _
  rw [bcast_col_apply, bcast_vec_apply, bcast_vec_apply]
  show dT h (ix2 r c) * Ideal.rsqrt (muT (mulf (dT h) (dT h)) (ix2 r 0) + epsW) * g (ix1 c) + bn (ix1 c) = _
  rw [muT_apply]
  simp only [mulf_apply, dT_apply]
  rfl

/-! ## The segment mean -/

/-- The segment sum divided by `max(count, 1)`, the count broadcast along the row. -/
def aggT (asum : FVec Ideal S50000x64 .f32) (cnt : FVec Ideal S50000 .f32) : FVec Ideal S50000x64 .f32 :=
  Host.divf asum
    (broadcastInDim S50000x64 ![0, 1] bcast_S50000x1_S50000x64_0_1
      (broadcastInDim S50000x1 ![0] bcast_S50000_S50000x1_0
        (maximumf cnt (broadcastInDim S50000 ![] bcast_S_S50000 (constant S_ .f32 0x3F800000#32)))))

theorem aggT_apply (asum : FVec Ideal S50000x64 .f32) (cnt : FVec Ideal S50000 .f32) (r : Fin 50000) (k : Fin 64) :
    aggT asum cnt (ix2 r k) = Ideal.div (asum (ix2 r k)) (max (cnt (ix1 r)) oneW) := by
  show Ideal.div (asum (ix2 r k)) (broadcastInDim S50000x64 ![0, 1] bcast_S50000x1_S50000x64_0_1
      (broadcastInDim S50000x1 ![0] bcast_S50000_S50000x1_0
        (maximumf cnt (broadcastInDim S50000 ![] bcast_S_S50000 (constant S_ .f32 0x3F800000#32)))) (ix2 r k)) = _
  rw [bcast_col_apply, bcast_vcol_apply]
  rfl

/-! ## The stage, row by row -/

/-- The three layers of the reference's per-node stage, as one term. -/
def h2T (x asum : FVec Ideal S50000x64 .f32) (cnt : FVec Ideal S50000 .f32) (w0 : FVec Ideal S128x128 .f32)
    (b0 : FVec Ideal S128 .f32) (w1 : FVec Ideal S128x128 .f32) (b1 : FVec Ideal S128 .f32) (w2 : FVec Ideal S128x64 .f32)
    (b2 : FVec Ideal S64 .f32) : FVec Ideal S50000x64 .f32 :=
  Stage.lrelu S50000x64 bcast_S_S50000x64
    (addf (Host.dotGeneral dot_S50000x128_S128x64_S50000x64_1_0_0_1_n_n none
      (Stage.lrelu S50000x128 bcast_S_S50000x128
        (addf (Host.dotGeneral dot_S50000x128_S128x128_S50000x128_1_0_0_1_n_n none
          (Stage.lrelu S50000x128 bcast_S_S50000x128
            (addf (Host.dotGeneral dot_S50000x128_S128x128_S50000x128_1_0_0_1_n_n none
                (concatenate S50000x128 1 [⟨S50000x64, x⟩, ⟨S50000x64, aggT asum cnt⟩] concatenates_S50000x64_S50000x64_S50000x128_d1) w0)
              (broadcastInDim S50000x128 ![0, 1] bcast_S1x128_S50000x128_0_1 (broadcastInDim S1x128 ![1] bcast_S128_S1x128_1 b0)))) w1)
          (broadcastInDim S50000x128 ![0, 1] bcast_S1x128_S50000x128_0_1 (broadcastInDim S1x128 ![1] bcast_S128_S1x128_1 b1)))) w2)
      (broadcastInDim S50000x64 ![0, 1] bcast_S1x64_S50000x64_0_1 (broadcastInDim S1x64 ![1] bcast_S64_S1x64_1 b2)))

theorem nodeStage_split (x asum : FVec Ideal S50000x64 .f32) (cnt : FVec Ideal S50000 .f32) (w0 : FVec Ideal S128x128 .f32)
    (b0 : FVec Ideal S128 .f32) (w1 : FVec Ideal S128x128 .f32) (b1 : FVec Ideal S128 .f32) (w2 : FVec Ideal S128x64 .f32)
    (b2 g bn : FVec Ideal S64 .f32) :
    Stage.nodeStage (F := Ideal) x asum cnt w0 b0 w1 b1 w2 b2 g bn = lnT (h2T x asum cnt w0 b0 w1 b1 w2 b2) g bn := rfl

/-- Row `r` of the three layers is the specification's three layers of row `r` of the inputs. -/
theorem h2T_row (x asum : FVec Ideal S50000x64 .f32) (cnt : FVec Ideal S50000 .f32) (w0 : FVec Ideal S128x128 .f32)
    (b0 : FVec Ideal S128 .f32) (w1 : FVec Ideal S128x128 .f32) (b1 : FVec Ideal S128 .f32) (w2 : FVec Ideal S128x64 .f32)
    (b2 : FVec Ideal S64 .f32) (r : Fin 50000) :
    (fun j : Fin 64 => h2T x asum cnt w0 b0 w1 b1 w2 b2 (ix2 r j))
      = layer (layer (layer0 (fun k => x (ix2 r k)) (fun k => Ideal.div (asum (ix2 r k)) (max (cnt (ix1 r)) oneW))
            (fun k j => w0 (ix2 (Fin.castAdd 64 k) j)) (fun k j => w0 (ix2 (Fin.natAdd 64 k) j)) (fun j => b0 (ix1 j)))
          (fun k j => w1 (ix2 k j)) (fun j => b1 (ix1 j)))
        (fun k j => w2 (ix2 k j)) (fun j => b2 (ix1 j)) := by
  have row0 := layer0_row dot_S50000x128_S128x128_S50000x128_1_0_0_1_n_n rfl rfl rfl rfl rfl rfl
    bcast_S_S50000x128 bcast_S1x128_S50000x128_0_1 bcast_S128_S1x128_1 concatenates_S50000x64_S50000x64_S50000x128_d1
    x (aggT asum cnt) w0 b0 r _ _ (fun _ => rfl) (aggT_apply asum cnt r)
  have row1 := dense_row dot_S50000x128_S128x128_S50000x128_1_0_0_1_n_n rfl rfl rfl rfl rfl rfl
    bcast_S_S50000x128 bcast_S1x128_S50000x128_0_1 bcast_S128_S1x128_1 _ w1 b1 r _ (fun k => congrFun row0 k)
  exact dense_row dot_S50000x128_S128x64_S50000x64_1_0_0_1_n_n rfl rfl rfl rfl rfl rfl
    bcast_S_S50000x64 bcast_S1x64_S50000x64_0_1 bcast_S64_S1x64_1 _ w2 b2 r _ (fun k => congrFun row1 k)

end Node

variable [Facts]

theorem nodeStage_eq (x asum : FVec Ideal S50000x64 .f32) (cnt : FVec Ideal S50000 .f32) (w0 : FVec Ideal S128x128 .f32)
    (b0 : FVec Ideal S128 .f32) (w1 : FVec Ideal S128x128 .f32) (b1 : FVec Ideal S128 .f32) (w2 : FVec Ideal S128x64 .f32)
    (b2 g bn : FVec Ideal S64 .f32)
    (cnt2 : A2 50000 1)
    (w0x w0a : A2 64 128) (b0r : A2 1 128) (w1k : A2 128 128) (b1r : A2 1 128) (w2k : A2 128 64)
    (b2r gr bnr : A2 1 64)
    (hc : ∀ r : Fin 50000, cnt2 (ix2 r 0) = cnt (ix1 r))
    (h0x : ∀ (k : Fin 64) (j : Fin 128), w0x (ix2 k j) = w0 (ix2 (Fin.castAdd 64 k) j))
    (h0a : ∀ (k : Fin 64) (j : Fin 128), w0a (ix2 k j) = w0 (ix2 (Fin.natAdd 64 k) j))
    (hb0 : ∀ j : Fin 128, b0r (ix2 0 j) = b0 (ix1 j))
    (h1 : ∀ (k : Fin 128) (j : Fin 128), w1k (ix2 k j) = w1 (ix2 k j))
    (hb1 : ∀ j : Fin 128, b1r (ix2 0 j) = b1 (ix1 j))
    (h2 : ∀ (k : Fin 128) (j : Fin 64), w2k (ix2 k j) = w2 (ix2 k j))
    (hb2 : ∀ j : Fin 64, b2r (ix2 0 j) = b2 (ix1 j))
    (hg : ∀ j : Fin 64, gr (ix2 0 j) = g (ix1 j))
    (hbn : ∀ j : Fin 64, bnr (ix2 0 j) = bn (ix1 j)) :
    Stage.nodeStage (F := Ideal) x asum cnt w0 b0 w1 b1 w2 b2 g bn
      = nodeArr x asum cnt2 w0x w0a b0r w1k b1r w2k b2r gr bnr := by
  funext i
  obtain ⟨r, c, rfl⟩ : ∃ (r : Fin 50000) (c : Fin 64), i = ix2 r c := ⟨i 0, i 1, eq_ix2 i⟩
  rw [Node.nodeStage_split, Node.lnT_apply, Node.h2T_row]
  unfold nodeArr mlpRow
  simp only [hc, h0x, h0a, hb0, h1, hb1, h2, hb2, hg, hbn]

end Cert.ReferenceIdeal.Bridge

end
-- ==== Proof.Assembly.lean ====
/-
  The two programs compute one function of their arguments.

  The kernel's program gathers the source rows, runs the per-edge perceptron over blocks of 16000 edges, sums the
  edge rows and counts them per destination node on the host, and runs the per-node perceptron over blocks of 10000
  nodes; the reference does the same with whole-array host operations. Row by row both perceptrons are
  `Spec.mlpRow`: the kernel's by its body's stored value read at an index and the blocks tiling the array, the
  reference's by its operations read at an index. The gather's out-of-range fill, which only the kernel's program has,
  never applies when every row index is in range, which the precondition says; the two segment sums are the same
  host operation on both sides applied to equal arrays, and are never opened.
-/
import proofs.«410253_j10892037063287_2_alg».proof.Defs
import proofs.«410253_j10892037063287_2_alg».proof.Proof.KRun
import proofs.«410253_j10892037063287_2_alg».proof.Proof.KReg0
import proofs.«410253_j10892037063287_2_alg».proof.Proof.KReg1
import proofs.«410253_j10892037063287_2_alg».proof.Proof.KHost
import proofs.«410253_j10892037063287_2_alg».proof.Proof.RefRun
import proofs.«410253_j10892037063287_2_alg».proof.Proof.RefEdge
import proofs.«410253_j10892037063287_2_alg».proof.Proof.RefNode
import proofs.«410253_j10892037063287_2_alg».proof.Proof.PreDecode

set_option maxRecDepth 16384

noncomputable section

namespace Cert.Proof.Assembly

open Idealize.ShloMosaic Idealize.ShloMosaic.TcCoe Idealize.ShloMosaic.ValueIdx Idealize.SL.Sem
open Cert.KernelIdeal Cert.KernelIdeal.Gen Cert.KernelIdeal.KV

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

/-- Region 0's output array is the reference's per-edge stage of the gathered rows: both are `Spec.edgeArr`. -/
theorem edge_value (hr : Cert.Spec.RowsInRange (m ((c.tc : Thread Cert.KernelIdeal.nD Cert.KernelIdeal.τ).loc Cert.KernelIdeal.main_arg1))) :
    (dat0 (F := Ideal) (V3 m ρ) c).arrAt 11 cfg0.N
      = Cert.ReferenceIdeal.Stage.edgeStage (F := Ideal)
          (Cert.ReferenceIdeal.Stage.gathered (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
          (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) := by
  rw [KV.region0 (V3 m ρ) c]
  refine Eq.trans ?_ (Cert.ReferenceIdeal.Bridge.edgeStage_eq _ _ _ _ _ _ _ _ _ _
    (V3 m ρ c main_v6) (V3 m ρ c main_v8) (V3 m ρ c main_v11) (V3 m ρ c main_v9) (V3 m ρ c main_v12)
    (V3 m ρ c main_v10) (V3 m ρ c main_v13) (V3 m ρ c main_v14) (V3 m ρ c main_v15)
    (KV.V3_w0x m ρ c) (KV.V3_w0e m ρ c) (KV.V3_b0 m ρ c) (KV.V3_w1 m ρ c) (KV.V3_b1 m ρ c)
    (KV.V3_w2 m ρ c) (KV.V3_b2 m ρ c) (KV.V3_g m ρ c) (KV.V3_bn m ρ c)).symm
  rw [KV.V3_xr m ρ c hr, KV.V3_ea m ρ c]
  rfl

/-- The kernel's result array is the reference's result of the same arguments. -/
theorem kernel_value (hr : Cert.Spec.RowsInRange (m ((c.tc : Thread Cert.KernelIdeal.nD Cert.KernelIdeal.τ).loc Cert.KernelIdeal.main_arg1))) :
    W6 (F := Ideal) m ρ c (Proc.devRef .tc main_v36)
      = Cert.ReferenceIdeal.Stage.result (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8))
          (m ((c.tc : Thread Cert.KernelIdeal.nD Cert.KernelIdeal.τ).loc Cert.KernelIdeal.main_arg9))
          (m ((c.tc : Thread Cert.KernelIdeal.nD Cert.KernelIdeal.τ).loc Cert.KernelIdeal.main_arg10))
          (m ((c.tc : Thread Cert.KernelIdeal.nD Cert.KernelIdeal.τ).loc Cert.KernelIdeal.main_arg11))
          (m ((c.tc : Thread Cert.KernelIdeal.nD Cert.KernelIdeal.τ).loc Cert.KernelIdeal.main_arg12))
          (m ((c.tc : Thread Cert.KernelIdeal.nD Cert.KernelIdeal.τ).loc Cert.KernelIdeal.main_arg13))
          (m ((c.tc : Thread Cert.KernelIdeal.nD Cert.KernelIdeal.τ).loc Cert.KernelIdeal.main_arg14))
          (m ((c.tc : Thread Cert.KernelIdeal.nD Cert.KernelIdeal.τ).loc Cert.KernelIdeal.main_arg15))
          (m ((c.tc : Thread Cert.KernelIdeal.nD Cert.KernelIdeal.τ).loc Cert.KernelIdeal.main_arg16))
          (m ((c.tc : Thread Cert.KernelIdeal.nD Cert.KernelIdeal.τ).loc Cert.KernelIdeal.main_arg17))
          (m ((c.tc : Thread Cert.KernelIdeal.nD Cert.KernelIdeal.τ).loc Cert.KernelIdeal.main_arg18))
          (m ((c.tc : Thread Cert.KernelIdeal.nD Cert.KernelIdeal.τ).loc Cert.KernelIdeal.main_arg19))
          (m ((c.tc : Thread Cert.KernelIdeal.nD Cert.KernelIdeal.τ).loc Cert.KernelIdeal.main_arg20)) := by
  refine (W6_arr m ρ c 12).trans ?_
  rw [KV.region1 (V5 m ρ) c]
  unfold Cert.ReferenceIdeal.Stage.result
  refine Eq.trans ?_ (Cert.ReferenceIdeal.Bridge.nodeStage_eq _ _ _ _ _ _ _ _ _ _ _
    (V5 m ρ c main_v24)
    (V5 m ρ c main_v26) (V5 m ρ c main_v28) (V5 m ρ c main_v31) (V5 m ρ c main_v29) (V5 m ρ c main_v32)
    (V5 m ρ c main_v30) (V5 m ρ c main_v33) (V5 m ρ c main_v34) (V5 m ρ c main_v35)
    (KV.V5_cnt m ρ c)
    (KV.V5_w0x m ρ c) (KV.V5_w0a m ρ c) (KV.V5_b0 m ρ c) (KV.V5_w1 m ρ c) (KV.V5_b1 m ρ c)
    (KV.V5_w2 m ρ c) (KV.V5_b2 m ρ c) (KV.V5_g m ρ c) (KV.V5_bn m ρ c)).symm
  rw [KV.V5_x m ρ c, KV.V5_asum m ρ c, edge_value m ρ c hr]
  rfl

end Cert.Proof.Assembly

end
-- ==== Proof.lean ====
/-
  A message-passing layer: gather each edge's source-node features, run a three-layer perceptron with a layer
  normalisation over them beside the edge features, average the results per destination node, and run a second such
  perceptron over each node's features beside that average. The kernel's program does the two perceptrons in two
  blocked kernels (the first layer's product over a concatenated row as two products, the means as products with
  `1/64`), the reference with whole-array host operations.

  On the extended reals the two compute one function of the arguments wherever every gather index is an index the
  table has (`-50000 ≤ r < 50000`, the precondition's last conjunct): outside that range the kernel's gather fills
  the row and the reference's clamps it. The three programs run, without fault, to the end with their arguments
  unchanged (the frames); the idealized kernel is the kernel's own text read on the extended reals (no rewrite: the
  ledger is empty); and the idealized kernel's result is the reference's (Proof/Assembly.lean `kernel_value`, through
  the row-level specification Proof/Spec.lean).
-/
import proofs.«410253_j10892037063287_2_alg».proof.Defs
import proofs.«410253_j10892037063287_2_alg».proof.Proof.Gen.Kernel
import proofs.«410253_j10892037063287_2_alg».proof.Proof.Gen.Kernel.Frame
import proofs.«410253_j10892037063287_2_alg».proof.Proof.Gen.KernelIdeal
import proofs.«410253_j10892037063287_2_alg».proof.Proof.Gen.KernelIdeal.Frame
import proofs.«410253_j10892037063287_2_alg».proof.Proof.Gen.ReferenceIdeal
import proofs.«410253_j10892037063287_2_alg».proof.Proof.Gen.Pre_finite_inputs
import proofs.«410253_j10892037063287_2_alg».proof.Proof.KRun
import proofs.«410253_j10892037063287_2_alg».proof.Proof.RefRun
import proofs.«410253_j10892037063287_2_alg».proof.Proof.PreDecode
import proofs.«410253_j10892037063287_2_alg».proof.Proof.Assembly
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.RunH.run (F := Ideal) m ρ)

/-- The idealized kernel's result array ends at the contents its run's last boundary gives it, and the reference's at
    its composed value of arguments that agree with the kernel's; the two are one array when the gather's indices are in
    range, which the precondition says on every device. -/
theorem algebraic : Cert.algebraic_KernelIdeal_ReferenceIdeal := by
  intro m ρ m' ρ' hpre hagree
  refine ⟨fun c => Cert.KernelIdeal.Gen.W6 (F := Ideal) m ρ c (Proc.devRef .tc Cert.KernelIdeal.main_v36),
    Cert.KernelIdeal.GenP.run (F := Ideal) m ρ, ?_⟩
  refine (θ_run Cert.ReferenceIdeal.defs _ _).mono (fun _ h c => ⟨(h c).1.trans ?_, (h c).2⟩)
    (Cert.ReferenceIdeal.RunH.run (F := Ideal) m' ρ')
  obtain ⟨a0, a1, a2, a3, a4, a5, a6, a7, a8, a9, a10, a11, a12, a13, a14, a15, a16, a17, a18, a19, a20⟩ := hagree c
  rw [a0, a1, a2, a5, a6, a7, a8, a9, a10, a11, a12, a13, a14, a15, a16, a17, a18, a19, a20]
  exact (Cert.Proof.Assembly.kernel_value m ρ c (Cert.Proof.PreDecode.rows_in_range m hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
